-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x13x2 : Shape := ⟨3, ![262144, 13, 2]⟩
abbrev S262144 : Shape := ⟨1, ![262144]⟩
abbrev S_ : Shape := ⟨0, ![]⟩
abbrev S262144x13x1 : Shape := ⟨3, ![262144, 13, 1]⟩
abbrev S262144x13 : Shape := ⟨2, ![262144, 13]⟩
abbrev S262144x1 : Shape := ⟨2, ![262144, 1]⟩
abbrev S262144x12 : Shape := ⟨2, ![262144, 12]⟩

class Facts : Prop where
  bcast_S_S262144x13x2 : S_.BroadcastsInDim S262144x13x2 (![] : Fin 0 → Fin S262144x13x2.rank)
  reducesTo_S262144x13x2_S_d0_1_2 : S262144x13x2.ReducesTo [0, 1, 2] S_
  h_S_ : 0 < S_.numel
  bcast_S_S262144 : S_.BroadcastsInDim S262144 (![] : Fin 0 → Fin S262144.rank)
  reducesTo_S262144_S_d0 : S262144.ReducesTo [0] S_
  slices_S262144x13x2_S262144x13x1_0_0_0 : S262144x13x2.Slices ![0, 0, 0] S262144x13x1
  shapeCasts_S262144x13x1_S262144x13 : S262144x13x1.ShapeCasts S262144x13
  slices_S262144x13x2_S262144x13x1_0_0_1 : S262144x13x2.Slices ![0, 0, 1] S262144x13x1
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x13_0_1 : S262144x1.BroadcastsInDim S262144x13 (![0, 1] : Fin 2 → Fin S262144x13.rank)
  bcast_S262144_S262144x13_0 : S262144.BroadcastsInDim S262144x13 (![0] : Fin 1 → Fin S262144x13.rank)
  bcast_S_S262144x13 : S_.BroadcastsInDim S262144x13 (![] : Fin 0 → Fin S262144x13.rank)
  slices_S262144x13_S262144x1_0_0 : S262144x13.Slices ![0, 0] S262144x1
  slices_S262144x13_S262144x12_0_1 : S262144x13.Slices ![0, 1] S262144x12
  slices_S262144x13_S262144x1_0_12 : S262144x13.Slices ![0, 12] S262144x1
  concatenates_S262144x12_S262144x1_S262144x13_d1 : Shape.Concatenates [S262144x12, S262144x1] S262144x13 1
  reducesTo_S262144x13_S_d0_1 : S262144x13.ReducesTo [0, 1] S_

variable [Facts]

def fn_part3 {F : FTy → Type} [FloatOps F] (main_v12 : IVec S_ 1) (main_v60 : FVec F S262144x13 .f32) (main_cst_8 : FVec F S_ .f32) : IVec S_ 1 :=
  let main_v61 : FVec F S262144x13 .f32 := broadcastInDim S262144x13 ![] bcast_S_S262144x13 main_cst_8
  let main_v62 : IVec S262144x13 1 := cmpf .ogt main_v60 main_v61
  let main_c_9 : IVec S_ 1 := constantI S_ 1 1#1
  let main_v63 : IVec S_ 1 := (fun x v => Host.reduce IntOp.andi x v reducesTo_S262144x13_S_d0_1 h_S_) main_v62 main_c_9
  let main_v64 : IVec S_ 1 := andi main_v12 main_v63
  main_v64

def fn_part2 {F : FTy → Type} [FloatOps F] (main_v12 : IVec S_ 1) (main_v27 : FVec F S262144x13 .f32) (main_v31 : FVec F S262144x13 .f32) (main_v34 : IVec S262144x13 1) (main_v37 : IVec S262144x13 1) (main_v39 : FVec F S262144x13 .f32) : IVec S_ 1 :=
  let main_v40 : FVec F S262144x12 .f32 := (extractStridedSlice S262144x12 ![0, 1] · slices_S262144x13_S262144x12_0_1) main_v27
  let main_v41 : FVec F S262144x1 .f32 := (extractStridedSlice S262144x1 ![0, 12] · slices_S262144x13_S262144x1_0_12) main_v27
  let main_v42 : FVec F S262144x13 .f32 := (fun a b => concatenate S262144x13 1 [⟨S262144x12, a⟩, ⟨S262144x1, b⟩] concatenates_S262144x12_S262144x1_S262144x13_d1) main_v40 main_v41
  let main_v43 : FVec F S262144x13 .f32 := select main_v37 main_v39 main_v42
  let main_v44 : FVec F S262144x1 .f32 := (extractStridedSlice S262144x1 ![0, 0] · slices_S262144x13_S262144x1_0_0) main_v31
  let main_v45 : FVec F S262144x13 .f32 := broadcastInDim S262144x13 ![0, 1] bcast_S262144x1_S262144x13_0_1 main_v44
  let main_v46 : FVec F S262144x12 .f32 := (extractStridedSlice S262144x12 ![0, 1] · slices_S262144x13_S262144x12_0_1) main_v31
  let main_v47 : FVec F S262144x1 .f32 := (extractStridedSlice S262144x1 ![0, 12] · slices_S262144x13_S262144x1_0_12) main_v31
  let main_v48 : FVec F S262144x13 .f32 := (fun a b => concatenate S262144x13 1 [⟨S262144x12, a⟩, ⟨S262144x1, b⟩] concatenates_S262144x12_S262144x1_S262144x13_d1) main_v46 main_v47
  let main_v49 : FVec F S262144x13 .f32 := select main_v37 main_v45 main_v48
  let main_v50 : FVec F S262144x13 .f32 := subf main_v43 main_v27
  let main_cst_6 : FVec F S_ .f32 := constant S_ .f32 0x3F800000#32
  let main_v51 : FVec F S262144x13 .f32 := broadcastInDim S262144x13 ![] bcast_S_S262144x13 main_cst_6
  let main_v52 : FVec F S262144x13 .f32 := select main_v34 main_v50 main_v51
  let main_v53 : FVec F S262144x13 .f32 := subf main_v49 main_v31
  let main_cst_7 : FVec F S_ .f32 := constant S_ .f32 0x00000000#32
  let main_v54 : FVec F S262144x13 .f32 := broadcastInDim S262144x13 ![] bcast_S_S262144x13 main_cst_7
  let main_v55 : FVec F S262144x13 .f32 := select main_v34 main_v53 main_v54
  let main_v56 : FVec F S262144x13 .f32 := Host.negf main_v55
  let main_v57 : FVec F S262144x13 .f32 := mulf main_v56 main_v56
  let main_v58 : FVec F S262144x13 .f32 := mulf main_v52 main_v52
  let main_v59 : FVec F S262144x13 .f32 := addf main_v57 main_v58
  let main_v60 : FVec F S262144x13 .f32 := Host.sqrt main_v59
  let main_cst_8 : FVec F S_ .f32 := constant S_ .f32 0x00000000#32
  fn_part3 (F := F) main_v12 main_v60 main_cst_8

def fn_part1 {F : FTy → Type} [FloatOps F] (main_arg1 : IVec S262144 32) (main_v12 : IVec S_ 1) (main_v14 : FVec F S262144x13 .f32) (main_v16 : FVec F S262144x13 .f32) (main_v17 : FVec F S262144x1 .f32) : IVec S_ 1 :=
  let main_cst_4 : FVec F S_ .f32 := constant S_ .f32 0x3FCCCCCD#32
  let main_v18 : FVec F S262144x1 .f32 := broadcastInDim S262144x1 ![] bcast_S_S262144x1 main_cst_4
  let main_v19 : FVec F S262144x1 .f32 := mulf main_v18 main_v17
  let main_v20 : FVec F S262144x1 .f32 := Host.negf main_v19
  let main_v21 : FVec F S262144x13 .f32 := Host.sin main_v16
  let main_v22 : FVec F S262144x13 .f32 := broadcastInDim S262144x13 ![0, 1] bcast_S262144x1_S262144x13_0_1 main_v20
  let main_v23 : FVec F S262144x13 .f32 := Host.divf main_v22 main_v21
  let main_v24 : FVec F S262144x13 .f32 := Host.cos main_v16
  let main_v25 : FVec F S262144x13 .f32 := Host.sin main_v14
  let main_v26 : FVec F S262144x13 .f32 := mulf main_v24 main_v25
  let main_v27 : FVec F S262144x13 .f32 := mulf main_v26 main_v23
  let main_v28 : FVec F S262144x13 .f32 := Host.cos main_v16
  let main_v29 : FVec F S262144x13 .f32 := Host.cos main_v14
  let main_v30 : FVec F S262144x13 .f32 := mulf main_v28 main_v29
  let main_v31 : FVec F S262144x13 .f32 := mulf main_v30 main_v23
  let main_v32 : IVec S262144x13 32 := iotaInDim S262144x13 32 1
  let main_v33 : IVec S262144x13 32 := broadcastInDim S262144x13 ![0] bcast_S262144_S262144x13_0 main_arg1
  let main_v34 : IVec S262144x13 1 := cmpi .slt main_v32 main_v33
  let main_c_5 : IVec S_ 32 := constantI S_ 32 1#32
  let main_v35 : IVec S262144x13 32 := broadcastInDim S262144x13 ![] bcast_S_S262144x13 main_c_5
  let main_v36 : IVec S262144x13 32 := addi main_v32 main_v35
  let main_v37 : IVec S262144x13 1 := cmpi .eq main_v36 main_v33
  let main_v38 : FVec F S262144x1 .f32 := (extractStridedSlice S262144x1 ![0, 0] · slices_S262144x13_S262144x1_0_0) main_v27
  let main_v39 : FVec F S262144x13 .f32 := broadcastInDim S262144x13 ![0, 1] bcast_S262144x1_S262144x13_0_1 main_v38
  fn_part2 (F := F) main_v12 main_v27 main_v31 main_v34 main_v37 main_v39

def fn {F : FTy → Type} [FloatOps F] (main_arg0 : FVec F S262144x13x2 .f32) (main_arg1 : IVec S262144 32) (main_arg2 : FVec F S262144 .f32) : IVec S_ 1 :=
  let main_v0 : FVec F S262144x13x2 .f32 := Host.absf main_arg0
  let main_cst : FVec F S_ .f32 := constant S_ .f32 0x7F800000#32
  let main_v1 : FVec F S262144x13x2 .f32 := broadcastInDim S262144x13x2 ![] bcast_S_S262144x13x2 main_cst
  let main_v2 : IVec S262144x13x2 1 := cmpf .olt main_v0 main_v1
  let main_c : IVec S_ 1 := constantI S_ 1 1#1
  let main_v3 : IVec S_ 1 := (fun x v => Host.reduce IntOp.andi x v reducesTo_S262144x13x2_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_c_2 : IVec S_ 32 := constantI S_ 32 13#32
  let main_v9 : IVec S262144 32 := broadcastInDim S262144 ![] bcast_S_S262144 main_c_2
  let main_v10 : IVec S262144 1 := cmpi .sle main_arg1 main_v9
  let main_c_3 : IVec S_ 1 := constantI S_ 1 1#1
  let main_v11 : IVec S_ 1 := (fun x v => Host.reduce IntOp.andi x v reducesTo_S262144_S_d0 h_S_) main_v10 main_c_3
  let main_v12 : IVec S_ 1 := andi main_v8 main_v11
  let main_v13 : FVec F S262144x13x1 .f32 := (extractStridedSlice S262144x13x1 ![0, 0, 0] · slices_S262144x13x2_S262144x13x1_0_0_0) main_arg0
  let main_v14 : FVec F S262144x13 .f32 := shapeCast S262144x13 main_v13 shapeCasts_S262144x13x1_S262144x13
  let main_v15 : FVec F S262144x13x1 .f32 := (extractStridedSlice S262144x13x1 ![0, 0, 1] · slices_S262144x13x2_S262144x13x1_0_0_1) main_arg0
  let main_v16 : FVec F S262144x13 .f32 := shapeCast S262144x13 main_v15 shapeCasts_S262144x13x1_S262144x13
  let main_v17 : FVec F S262144x1 .f32 := broadcastInDim S262144x1 ![0] bcast_S262144_S262144x1_0 main_arg2
  fn_part1 (F := F) main_arg1 main_v12 main_v14 main_v16 main_v17
-- ==== Kernel.lean ====
abbrev S262144x13x2 : Shape := ⟨3, ![262144, 13, 2]⟩
abbrev S262144 : Shape := ⟨1, ![262144]⟩
abbrev S262144x1 : Shape := ⟨2, ![262144, 1]⟩
abbrev S262144x13x3 : Shape := ⟨3, ![262144, 13, 3]⟩
abbrev S512x13x2 : Shape := ⟨3, ![512, 13, 2]⟩
abbrev S512x1 : Shape := ⟨2, ![512, 1]⟩
abbrev S512x13x3 : Shape := ⟨3, ![512, 13, 3]⟩
abbrev S512x13x1 : Shape := ⟨3, ![512, 13, 1]⟩
abbrev S512x13 : Shape := ⟨2, ![512, 13]⟩
abbrev S512x12 : Shape := ⟨2, ![512, 12]⟩

abbrev nBuf : Space → Nat
  | .hbm => 6
  | .vmem => 8
  | .smem => 0
  | _ => 0

abbrev bufTy : (tb : Table) → Fin (tcTables nBuf tb) → BufTy
  | .hbm, ⟨0, _⟩ => ⟨S262144x13x2, .f32⟩
  | .hbm, ⟨1, _⟩ => ⟨S262144, .i32⟩
  | .hbm, ⟨2, _⟩ => ⟨S262144, .f32⟩
  | .hbm, ⟨3, _⟩ => ⟨S262144x1, .i32⟩
  | .hbm, ⟨4, _⟩ => ⟨S262144x1, .f32⟩
  | .hbm, ⟨5, _⟩ => ⟨S262144x13x3, .f32⟩
  | .local _ .vmem, ⟨0, _⟩ => ⟨S512x13x2, .f32⟩
  | .local _ .vmem, ⟨1, _⟩ => ⟨S512x13x2, .f32⟩
  | .local _ .vmem, ⟨2, _⟩ => ⟨S512x1, .i32⟩
  | .local _ .vmem, ⟨3, _⟩ => ⟨S512x1, .i32⟩
  | .local _ .vmem, ⟨4, _⟩ => ⟨S512x1, .f32⟩
  | .local _ .vmem, ⟨5, _⟩ => ⟨S512x1, .f32⟩
  | .local _ .vmem, ⟨6, _⟩ => ⟨S512x13x3, .f32⟩
  | .local _ .vmem, ⟨7, _⟩ => ⟨S512x13x3, .f32⟩
  | _, _ => ⟨S262144x13x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x13x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x13x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144_S262144x1 : S262144.ShapeCasts S262144x1
  inb_S512x13x2_S512x13x1_0_0_0 : ∀ a, (![0, 0, 0] : Fin 3 → Nat) a + S512x13x1.size a ≤ S512x13x2.size a
  h_S512x13x1 : 0 < S512x13x1.numel
  shapeCasts_S512x13x1_S512x13 : S512x13x1.ShapeCasts S512x13
  inb_S512x13x2_S512x13x1_0_0_1 : ∀ a, (![0, 0, 1] : Fin 3 → Nat) a + S512x13x1.size a ≤ S512x13x2.size a
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x13 : S512x1.Broadcasts S512x13
  iota_S512x13_d1_w32 : S512x13.Iotas .tc 32 [1]
  slices_S512x13_o0_1_S512x12 : S512x13.Slices ![0, 1] S512x12
  slices_S512x13_o0_0_S512x1 : S512x13.Slices ![0, 0] S512x1
  concatenates_S512x12_S512x1_S512x13_d1 : Shape.Concatenates [S512x12, S512x1] S512x13 1
  shapeCasts_S512x13_S512x13x1 : S512x13.ShapeCasts S512x13x1
  concatenates_S512x13x1_S512x13x1_S512x13x1_S512x13x3_d2 : Shape.Concatenates [S512x13x1, S512x13x1, S512x13x1] S512x13x3 2
  inb_S512x13x3_S512x13x3_0_0_0 : ∀ a, (![0, 0, 0] : Fin 3 → Nat) a + S512x13x3.size a ≤ S512x13x3.size a
  h_S512x13x3 : 0 < S512x13x3.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x13x2.size a ≤ S262144x13x2.size a
  hwx0_0 : ∀ i : grid0.Coords, EltTy.bits .f32 = 32 ∨ (Rect.block (s := S262144x13x2) S512x13x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S262144x1.size a
  hwx0_1 : ∀ i : grid0.Coords, EltTy.bits .i32 = 32 ∨ (Rect.block (s := S262144x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S262144x1.size a
  hwx0_2 : ∀ i : grid0.Coords, EltTy.bits .f32 = 32 ∨ (Rect.block (s := S262144x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x13x3.size a ≤ S262144x13x3.size a
  hwx0_3 : ∀ i : grid0.Coords, EltTy.bits .f32 = 32 ∨ (Rect.block (s := S262144x13x3) S512x13x3.size (cc0_transform_3 i) (hinb0_3 i)).WholeWords (EltTy.packing .f32)

variable [Facts₀]

abbrev win0_0 : Pipeline.Window sig grid0 :=
  Pipeline.Window.ofSpec (Memref.whole main_arg0) S512x13x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x13x3.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x13x2 : Shape := ⟨3, ![262144, 13, 2]⟩
abbrev S262144 : Shape := ⟨1, ![262144]⟩
abbrev S3 : Shape := ⟨1, ![3]⟩
abbrev S262144x13x1 : Shape := ⟨3, ![262144, 13, 1]⟩
abbrev S262144x13 : Shape := ⟨2, ![262144, 13]⟩
abbrev S262144x13x3 : Shape := ⟨3, ![262144, 13, 3]⟩
abbrev S262144x1x1 : Shape := ⟨3, ![262144, 1, 1]⟩
abbrev S_ : Shape := ⟨0, ![]⟩
abbrev S13 : Shape := ⟨1, ![13]⟩
abbrev S262144x1 : Shape := ⟨2, ![262144, 1]⟩
abbrev S1x13 : Shape := ⟨2, ![1, 13]⟩
abbrev S1 : Shape := ⟨1, ![1]⟩
abbrev S1x1x1 : Shape := ⟨3, ![1, 1, 1]⟩
abbrev S262144x1x3 : Shape := ⟨3, ![262144, 1, 3]⟩

abbrev nBuf : Space → Nat
  | .hbm => 115
  | .vmem => 0
  | .smem => 0
  | _ => 0

abbrev bufTy : (tb : Table) → Fin (tcTables nBuf tb) → BufTy
  | .hbm, ⟨0, _⟩ => ⟨S262144x13x2, .f32⟩
  | .hbm, ⟨1, _⟩ => ⟨S262144, .i32⟩
  | .hbm, ⟨2, _⟩ => ⟨S262144, .f32⟩
  | .hbm, ⟨3, _⟩ => ⟨S3, .f32⟩
  | .hbm, ⟨4, _⟩ => ⟨S262144x13x1, .f32⟩
  | .hbm, ⟨5, _⟩ => ⟨S262144x13, .f32⟩
  | .hbm, ⟨6, _⟩ => ⟨S262144x13x1, .f32⟩
  | .hbm, ⟨7, _⟩ => ⟨S262144x13, .f32⟩
  | .hbm, ⟨8, _⟩ => ⟨S262144x13, .f32⟩
  | .hbm, ⟨9, _⟩ => ⟨S262144x13, .f32⟩
  | .hbm, ⟨10, _⟩ => ⟨S262144x13, .f32⟩
  | .hbm, ⟨11, _⟩ => ⟨S262144x13, .f32⟩
  | .hbm, ⟨12, _⟩ => ⟨S262144x13, .f32⟩
  | .hbm, ⟨13, _⟩ => ⟨S262144x13, .f32⟩
  | .hbm, ⟨14, _⟩ => ⟨S262144x13, .f32⟩
  | .hbm, ⟨15, _⟩ => ⟨S262144x13x1, .f32⟩
  | .hbm, ⟨16, _⟩ => ⟨S262144x13x1, .f32⟩
  | .hbm, ⟨17, _⟩ => ⟨S262144x13x1, .f32⟩
  | .hbm, ⟨18, _⟩ => ⟨S262144x13x3, .f32⟩
  | .hbm, ⟨19, _⟩ => ⟨S262144x1x1, .f32⟩
  | .hbm, ⟨20, _⟩ => ⟨S_, .f32⟩
  | .hbm, ⟨21, _⟩ => ⟨S262144x1x1, .f32⟩
  | .hbm, ⟨22, _⟩ => ⟨S262144x1x1, .f32⟩
  | .hbm, ⟨23, _⟩ => ⟨S262144x1x1, .f32⟩
  | .hbm, ⟨24, _⟩ => ⟨S262144x13x1, .f32⟩
  | .hbm, ⟨25, _⟩ => ⟨S262144x13x1, .f32⟩
  | .hbm, ⟨26, _⟩ => ⟨S262144x13x1, .f32⟩
  | .hbm, ⟨27, _⟩ => ⟨S262144x13x3, .f32⟩
  | .hbm, ⟨28, _⟩ => ⟨S262144x13x3, .f32⟩
  | .hbm, ⟨29, _⟩ => ⟨S13, .i32⟩
  | .hbm, ⟨30, _⟩ => ⟨S262144x1, .i32⟩
  | .hbm, ⟨31, _⟩ => ⟨S1x13, .i32⟩
  | .hbm, ⟨32, _⟩ => ⟨S262144x13, .i32⟩
  | .hbm, ⟨33, _⟩ => ⟨S262144x13, .i32⟩
  | .hbm, ⟨34, _⟩ => ⟨S262144x13, .i1⟩
  | .hbm, ⟨35, _⟩ => ⟨S1x13, .i32⟩
  | .hbm, ⟨36, _⟩ => ⟨S_, .i32⟩
  | .hbm, ⟨37, _⟩ => ⟨S1x13, .i32⟩
  | .hbm, ⟨38, _⟩ => ⟨S1x13, .i32⟩
  | .hbm, ⟨39, _⟩ => ⟨S262144x13, .i32⟩
  | .hbm, ⟨40, _⟩ => ⟨S262144x13, .i32⟩
  | .hbm, ⟨41, _⟩ => ⟨S262144x13, .i1⟩
  | .hbm, ⟨42, _⟩ => ⟨S_, .i32⟩
  | .hbm, ⟨43, _⟩ => ⟨S13, .i32⟩
  | .hbm, ⟨44, _⟩ => ⟨S13, .i32⟩
  | .hbm, ⟨45, _⟩ => ⟨S_, .i32⟩
  | .hbm, ⟨46, _⟩ => ⟨S13, .i32⟩
  | .hbm, ⟨47, _⟩ => ⟨S13, .i32⟩
  | .hbm, ⟨48, _⟩ => ⟨S_, .i32⟩
  | .hbm, ⟨49, _⟩ => ⟨S_, .i32⟩
  | .hbm, ⟨50, _⟩ => ⟨S262144x13, .i32⟩
  | .hbm, ⟨51, _⟩ => ⟨S262144x13, .i32⟩
  | .hbm, ⟨52, _⟩ => ⟨S262144x13, .i32⟩
  | .hbm, ⟨53, _⟩ => ⟨S262144x13x1, .i32⟩
  | .hbm, ⟨54, _⟩ => ⟨S_, .i32⟩
  | .hbm, ⟨55, _⟩ => ⟨S262144x13x1, .i32⟩
  | .hbm, ⟨56, _⟩ => ⟨S262144x13x1, .i1⟩
  | .hbm, ⟨57, _⟩ => ⟨S_, .i32⟩
  | .hbm, ⟨58, _⟩ => ⟨S262144x13x1, .i32⟩
  | .hbm, ⟨59, _⟩ => ⟨S262144x13x1, .i32⟩
  | .hbm, ⟨60, _⟩ => ⟨S262144x13x1, .i32⟩
  | .hbm, ⟨61, _⟩ => ⟨S1, .i32⟩
  | .hbm, ⟨62, _⟩ => ⟨S_, .i32⟩
  | .hbm, ⟨63, _⟩ => ⟨S262144x13x1, .i32⟩
  | .hbm, ⟨64, _⟩ => ⟨S262144x13x1, .i1⟩
  | .hbm, ⟨65, _⟩ => ⟨S1x1x1, .i32⟩
  | .hbm, ⟨66, _⟩ => ⟨S262144x13x1, .i32⟩
  | .hbm, ⟨67, _⟩ => ⟨S262144x13x1, .i1⟩
  | .hbm, ⟨68, _⟩ => ⟨S262144x13x1, .i1⟩
  | .hbm, ⟨69, _⟩ => ⟨S_, .i1⟩
  | .hbm, ⟨70, _⟩ => ⟨S262144x13, .i1⟩
  | .hbm, ⟨71, _⟩ => ⟨S262144x13x3, .f32⟩
  | .hbm, ⟨72, _⟩ => ⟨S262144x13x3, .i1⟩
  | .hbm, ⟨73, _⟩ => ⟨S_, .f32⟩
  | .hbm, ⟨74, _⟩ => ⟨S262144x13x3, .f32⟩
  | .hbm, ⟨75, _⟩ => ⟨S262144x13x3, .f32⟩
  | .hbm, ⟨76, _⟩ => ⟨S262144x13x3, .f32⟩
  | .hbm, ⟨77, _⟩ => ⟨S262144x13x1, .i1⟩
  | .hbm, ⟨78, _⟩ => ⟨S262144x13x3, .i1⟩
  | .hbm, ⟨79, _⟩ => ⟨S262144x13x3, .f32⟩
  | .hbm, ⟨80, _⟩ => ⟨S262144x13x3, .f32⟩
  | .hbm, ⟨81, _⟩ => ⟨S262144x13x1, .f32⟩
  | .hbm, ⟨82, _⟩ => ⟨S262144x13, .f32⟩
  | .hbm, ⟨83, _⟩ => ⟨S262144x13, .f32⟩
  | .hbm, ⟨84, _⟩ => ⟨S262144x13x1, .f32⟩
  | .hbm, ⟨85, _⟩ => ⟨S262144x13, .f32⟩
  | .hbm, ⟨86, _⟩ => ⟨S_, .f32⟩
  | .hbm, ⟨87, _⟩ => ⟨S262144x13, .f32⟩
  | .hbm, ⟨88, _⟩ => ⟨S262144x13x1, .f32⟩
  | .hbm, ⟨89, _⟩ => ⟨S262144x13, .f32⟩
  | .hbm, ⟨90, _⟩ => ⟨S262144x13x1, .f32⟩
  | .hbm, ⟨91, _⟩ => ⟨S262144x13x1, .f32⟩
  | .hbm, ⟨92, _⟩ => ⟨S262144x13x1, .f32⟩
  | .hbm, ⟨93, _⟩ => ⟨S262144x13x3, .f32⟩
  | .hbm, ⟨94, _⟩ => ⟨S262144x13x3, .f32⟩
  | .hbm, ⟨95, _⟩ => ⟨S_, .f32⟩
  | .hbm, ⟨96, _⟩ => ⟨S262144x13, .f32⟩
  | .hbm, ⟨97, _⟩ => ⟨S262144x13x1, .f32⟩
  | .hbm, ⟨98, _⟩ => ⟨S262144x13x1, .f32⟩
  | .hbm, ⟨99, _⟩ => ⟨S262144x13x3, .f32⟩
  | .hbm, ⟨100, _⟩ => ⟨S262144x13x3, .f32⟩
  | .hbm, ⟨101, _⟩ => ⟨S262144x13x1, .i1⟩
  | .hbm, ⟨102, _⟩ => ⟨S_, .f32⟩
  | .hbm, ⟨103, _⟩ => ⟨S262144x13x3, .f32⟩
  | .hbm, ⟨104, _⟩ => ⟨S262144x13x3, .i1⟩
  | .hbm, ⟨105, _⟩ => ⟨S262144x13x3, .f32⟩
  | .hbm, ⟨106, _⟩ => ⟨S1x13, .i32⟩
  | .hbm, ⟨107, _⟩ => ⟨S262144x13, .i32⟩
  | .hbm, ⟨108, _⟩ => ⟨S262144x13, .i32⟩
  | .hbm, ⟨109, _⟩ => ⟨S262144x13, .i1⟩
  | .hbm, ⟨110, _⟩ => ⟨S262144x13x1, .i1⟩
  | .hbm, ⟨111, _⟩ => ⟨S262144x1x3, .f32⟩
  | .hbm, ⟨112, _⟩ => ⟨S262144x13x3, .i1⟩
  | .hbm, ⟨113, _⟩ => ⟨S262144x13x3, .f32⟩
  | .hbm, ⟨114, _⟩ => ⟨S262144x13x3, .f32⟩
  | _, _ => ⟨S262144x13x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_c : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_1 : Ref sig .tc := ⟨.hbm, 42, rfl⟩
abbrev main_v36 : Ref sig .tc := ⟨.hbm, 43, rfl⟩
abbrev main_v37 : Ref sig .tc := ⟨.hbm, 44, rfl⟩
abbrev main_c_2 : Ref sig .tc := ⟨.hbm, 45, rfl⟩
abbrev main_v38 : Ref sig .tc := ⟨.hbm, 46, rfl⟩
abbrev main_v39 : Ref sig .tc := ⟨.hbm, 47, rfl⟩
abbrev main_c_3 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v40 : Ref sig .tc := ⟨.hbm, 52, rfl⟩
abbrev main_v41 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_c_2 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_c_3 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_cst : Ref sig .tc := ⟨.hbm, 73, rfl⟩
abbrev main_call1_v14 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call2_v0 : Ref sig .tc := ⟨.hbm, 78, rfl⟩
abbrev main_call2_v1 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_4 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_call3_v0 : Ref sig .tc := ⟨.hbm, 94, rfl⟩
abbrev main_call3_cst : Ref sig .tc := ⟨.hbm, 95, rfl⟩
abbrev main_call3_v1 : Ref sig .tc := ⟨.hbm, 96, rfl⟩
abbrev main_call3_v2 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_5 : Ref sig .tc := ⟨.hbm, 102, rfl⟩
abbrev main_v62 : Ref sig .tc := ⟨.hbm, 103, rfl⟩
abbrev main_call4_v0 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call5_v0 : Ref sig .tc := ⟨.hbm, 112, rfl⟩
abbrev main_call5_v1 : Ref sig .tc := ⟨.hbm, 113, rfl⟩
abbrev main_v70 : Ref sig .tc := ⟨.hbm, 114, rfl⟩

abbrev nD : Nat := 1
abbrev τ : Topo := Topo.v7x

variable {F : FTy → Type} [FloatOps F]

class Facts₀ : Prop where
  slices_S262144x13x2_S262144x13x1_0_0_0 : S262144x13x2.Slices ![0, 0, 0] S262144x13x1
  shapeCasts_S262144x13x1_S262144x13 : S262144x13x1.ShapeCasts S262144x13
  slices_S262144x13x2_S262144x13x1_0_0_1 : S262144x13x2.Slices ![0, 0, 1] S262144x13x1
  bcast_S262144x13_S262144x13x1_0_1 : S262144x13.BroadcastsInDim S262144x13x1 (![0, 1] : Fin 2 → Fin S262144x13x1.rank)
  concatenates_S262144x13x1_S262144x13x1_S262144x13x1_S262144x13x3_d2 : Shape.Concatenates [S262144x13x1, S262144x13x1, S262144x13x1] S262144x13x3 2
  bcast_S262144_S262144x1x1_0 : S262144.BroadcastsInDim S262144x1x1 (![0] : Fin 1 → Fin S262144x1x1.rank)
  bcast_S_S262144x1x1 : S_.BroadcastsInDim S262144x1x1 (![] : Fin 0 → Fin S262144x1x1.rank)
  slices_S262144x13x3_S262144x13x1_0_0_1 : S262144x13x3.Slices ![0, 0, 1] S262144x13x1
  bcast_S262144x1x1_S262144x13x1_0_1_2 : S262144x1x1.BroadcastsInDim S262144x13x1 (![0, 1, 2] : Fin 3 → Fin S262144x13x1.rank)
  bcast_S262144x13x1_S262144x13x3_0_1_2 : S262144x13x1.BroadcastsInDim S262144x13x3 (![0, 1, 2] : Fin 3 → Fin S262144x13x3.rank)
  bcast_S262144_S262144x1_0 : S262144.BroadcastsInDim S262144x1 (![0] : Fin 1 → Fin S262144x1.rank)
  bcast_S13_S1x13_1 : S13.BroadcastsInDim S1x13 (![1] : Fin 1 → Fin S1x13.rank)
  bcast_S1x13_S262144x13_0_1 : S1x13.BroadcastsInDim S262144x13 (![0, 1] : Fin 2 → Fin S262144x13.rank)
  bcast_S262144x1_S262144x13_0_1 : S262144x1.BroadcastsInDim S262144x13 (![0, 1] : Fin 2 → Fin S262144x13.rank)
  bcast_S_S1x13 : S_.BroadcastsInDim S1x13 (![] : Fin 0 → Fin S1x13.rank)
  bcast_S_S13 : S_.BroadcastsInDim S13 (![] : Fin 0 → Fin S13.rank)
  bcast_S_S262144x13 : S_.BroadcastsInDim S262144x13 (![] : Fin 0 → Fin S262144x13.rank)
  bcast_S13_S262144x13_1 : S13.BroadcastsInDim S262144x13 (![1] : Fin 1 → Fin S262144x13.rank)
  bcast_S_S262144x13x1 : S_.BroadcastsInDim S262144x13x1 (![] : Fin 0 → Fin S262144x13x1.rank)
  bcast_S1_S1x1x1_2 : S1.BroadcastsInDim S1x1x1 (![2] : Fin 1 → Fin S1x1x1.rank)
  bcast_S1x1x1_S262144x13x1_0_1_2 : S1x1x1.BroadcastsInDim S262144x13x1 (![0, 1, 2] : Fin 3 → Fin S262144x13x1.rank)
  reducesTo_S262144x13x1_S262144x13_d2 : S262144x13x1.ReducesTo [2] S262144x13
  h_S_ : 0 < S_.numel
  bcast_S262144x13_S262144x13x3_0_1 : S262144x13.BroadcastsInDim S262144x13x3 (![0, 1] : Fin 2 → Fin S262144x13x3.rank)
  bcast_S_S262144x13x3 : S_.BroadcastsInDim S262144x13x3 (![] : Fin 0 → Fin S262144x13x3.rank)
  bcast_S3_S262144x13x3_2 : S3.BroadcastsInDim S262144x13x3 (![2] : Fin 1 → Fin S262144x13x3.rank)
  slices_S262144x13x3_S262144x13x1_0_0_2 : S262144x13x3.Slices ![0, 0, 2] S262144x13x1
  slices_S262144x13x3_S262144x13x1_0_0_0 : S262144x13x3.Slices ![0, 0, 0] S262144x13x1
  reducesTo_S262144x13x3_S262144x13_d2 : S262144x13x3.ReducesTo [2] S262144x13
  slices_S262144x13x3_S262144x1x3_0_0_0 : S262144x13x3.Slices ![0, 0, 0] S262144x1x3
  bcast_S262144x1x3_S262144x13x3_0_1_2 : S262144x1x3.BroadcastsInDim S262144x13x3 (![0, 1, 2] : Fin 3 → Fin S262144x13x3.rank)
  gather_S262144x13x3_S262144x13x1_S262144x13x3_2_1_0_0_1_2_113_wf : GatherDims.WF S262144x13x3 S262144x13x1 S262144x13x3 [2] [1] [0] [1] [0] 2 ![1, 1, 3]

variable [Facts₀]

def gather_S262144x13x3_S262144x13x1_S262144x13x3_2_1_0_0_1_2_113 : GatherDims S262144x13x3 S262144x13x1 S262144x13x3 where
  offsetDims := [2]
  collapsedSliceDims := [1]
  operandBatchingDims := [0]
  startIndicesBatchingDims := [0]
  startIndexMap := [1]
  indexVectorDim := 2
  sliceSizes := ![1, 1, 3]
  wf := gather_S262144x13x3_S262144x13x1_S262144x13x3_2_1_0_0_1_2_113_wf

class Facts : Prop extends Facts₀ where

variable [Facts]
-- ==== Proof.CornerRow.lean ====
/-
  One sample of the edge-normal computation, as functions of that sample's thirteen (longitude, latitude)
  pairs, its corner count `n` and its height ratio `r`, on the extended reals.

  Each corner `j` is put on the ceiling plane: `(px j, pz j) = (cos lat · sin lon, cos lat · cos lon) · s` with
  `s = (-(h · r)) / sin lat`. Edge `j` runs from corner `j` to the corner after it — corner `0` where `j + 1 = n`,
  otherwise corner `nxt j` — and is replaced by `(1, 0)` where `j` is not below `n`. The edge's normal is
  `(-ez, 0, ex)`, normalised by `len = √((-ez)² + ex²)`. The output at `j` is the normal of edge `j` below `n`,
  the normal of edge `0` at `j = n`, and zero after.

  Two readings of "the corner after `j`" occur: the cyclic successor `cyc` and the clamped one `clampNext`
  (`min (j + 1) 12`). They differ only at `j = 12`, and edge 12 is used only when `12 < n`; when moreover
  `n ≤ 13` this forces `n = 13`, where both read corner `0`: `ex_cyc`, `ez_cyc`.
  Two readings of the middle component occur: the literal `0` (`outKer`) and `0 / len` (`outRef`); they agree
  where `len ≠ 0`, since `0 · len⁻¹ = 0`: `outRef_eq_outKer`.
-/
import Idealize.ShloMosaic.PureOps.Ideal
import Idealize.ShloMosaic.PureOps.Ideal.Laws
import Idealize.ShloMosaic.Lib.ValueIdx

noncomputable section

namespace Cert.CornerRow

open Idealize.ShloMosaic

/-- The three float literals both programs carry, as the extended reals their words encode. -/
def zero32 : EReal := Ideal.ofBits .f32 0x00000000#32
def one32 : EReal := Ideal.ofBits .f32 0x3F800000#32
def height : EReal := Ideal.ofBits .f32 0x3FCCCCCD#32

theorem zero32_eq : zero32 = 0 := Ideal.ofBits_zero_f32

/-- Corner index `j` as the 32-bit word both programs' iotas hold. -/
def word (j : Fin 13) : BitVec 32 := BitVec.ofNat 32 j.val

/-- The cyclic successor on the thirteen slots. -/
def cyc (j : Fin 13) : Fin 13 := ⟨(j.val + 1) % 13, Nat.mod_lt _ (by decide)⟩
/-- The successor clamped to the last slot. -/
def clampNext (j : Fin 13) : Fin 13 := ⟨min (j.val + 1) 12, by omega⟩

section Row
variable (lon lat : Fin 13 → EReal) (n : BitVec 32) (r : EReal)

/-- The scale that puts corner `j` on the plane at height `-(h · r)`. -/
def scale (j : Fin 13) : EReal := Ideal.div (-(height * r)) (Ideal.sin (lat j))
def px (j : Fin 13) : EReal := (Ideal.cos (lat j) * Ideal.sin (lon j)) * scale lat r j
def pz (j : Fin 13) : EReal := (Ideal.cos (lat j) * Ideal.cos (lon j)) * scale lat r j

/-- `j < n` (signed), `j + 1 = n`, `j = n`, as the one-bit words the comparisons give. -/
def isEdge (j : Fin 13) : BitVec 1 := IntOp.cmpi .slt (word j) n
def isLast (j : Fin 13) : BitVec 1 := IntOp.cmpi .eq (word j + 1#32) n
def isPast (j : Fin 13) : BitVec 1 := IntOp.cmpi .eq (word j) n

variable (nxt : Fin 13 → Fin 13)

/-- Edge `j`'s two plane components, `(1, 0)` where `j` is not below `n`. -/
def ex (j : Fin 13) : EReal :=
  Scalar.select (isEdge n j) (Scalar.select (isLast n j) (px lon lat r 0) (px lon lat r (nxt j)) - px lon lat r j) one32
def ez (j : Fin 13) : EReal :=
  Scalar.select (isEdge n j) (Scalar.select (isLast n j) (pz lon lat r 0) (pz lon lat r (nxt j)) - pz lon lat r j) zero32
/-- The length of edge `j`'s normal `(-ez, 0, ex)`. -/
def len (j : Fin 13) : EReal :=
  Ideal.sqrt ((-(ez lon lat n r nxt j)) * (-(ez lon lat n r nxt j)) + ex lon lat n r nxt j * ex lon lat n r nxt j)

/-- The unit normal's first and last components. -/
def nrmX (j : Fin 13) : EReal := Ideal.div (-(ez lon lat n r nxt j)) (len lon lat n r nxt j)
def nrmZ (j : Fin 13) : EReal := Ideal.div (ex lon lat n r nxt j) (len lon lat n r nxt j)
/-- The middle component when it, too, is divided by the length. -/
def nrmY (j : Fin 13) : EReal := Ideal.div zero32 (len lon lat n r nxt j)

/-- Where a component `f` of the normals lands in the output row. -/
def place (f : Fin 13 → EReal) (j : Fin 13) : EReal :=
  Scalar.select (isPast n j) (f 0) (Scalar.select (isEdge n j) (f j) zero32)

/-- The output row with the middle component the literal zero. -/
def outKer (j : Fin 13) (k : Fin 3) : EReal :=
  match k with
  | ⟨0, _⟩ => place n (nrmX lon lat n r nxt) j
  | ⟨1, _⟩ => zero32
  | ⟨2, _⟩ => place n (nrmZ lon lat n r nxt) j

/-- The output row with all three components divided by the length. -/
def outRef (j : Fin 13) (k : Fin 3) : EReal :=
  match k with
  | ⟨0, _⟩ => place n (nrmX lon lat n r nxt) j
  | ⟨1, _⟩ => place n (nrmY lon lat n r nxt) j
  | ⟨2, _⟩ => place n (nrmZ lon lat n r nxt) j

end Row

/-! ## The whole arrays -/

section Arrays
variable (g : (⟨3, ![262144, 13, 2]⟩ : Shape).Idx → EReal) (nm : (⟨1, ![262144]⟩ : Shape).Idx → BitVec 32)
  (rt : (⟨1, ![262144]⟩ : Shape).Idx → EReal)

/-- Sample `b`'s longitudes and latitudes: the two columns of its slab of the input. -/
def lonRow (b : Fin 262144) : Fin 13 → EReal := fun j => g (ValueIdx.ix3 b j (0 : Fin 2))
def latRow (b : Fin 262144) : Fin 13 → EReal := fun j => g (ValueIdx.ix3 b j (1 : Fin 2))

/-- The output array: sample by sample the output row, with the cyclic successor and the literal middle zero. -/
def outArr : (⟨3, ![262144, 13, 3]⟩ : Shape).Idx → EReal := fun i =>
  outKer (lonRow g ⟨(i 0).val, (i 0).isLt⟩) (latRow g ⟨(i 0).val, (i 0).isLt⟩) (nm (ValueIdx.ix1 ⟨(i 0).val, (i 0).isLt⟩))
    (rt (ValueIdx.ix1 ⟨(i 0).val, (i 0).isLt⟩)) cyc ⟨(i 1).val, (i 1).isLt⟩ ⟨(i 2).val, (i 2).isLt⟩

theorem outArr_apply (b : Fin 262144) (j : Fin 13) (k : Fin 3) :
    outArr g nm rt (ValueIdx.ix3 b j k) = outKer (lonRow g b) (latRow g b) (nm (ValueIdx.ix1 b)) (rt (ValueIdx.ix1 b)) cyc j k := rfl

end Arrays

end Cert.CornerRow

end
-- ==== Proof.CornerLaws.lean ====
/-
  The two laws that join the readings of one sample's output row (the definitions are in CornerRow).

  (1) The cyclic and the clamped successor give the same edges when `n ≤ 13`. They differ only at `j = 12`
      (`cyc 12 = 0`, `clampNext 12 = 12`). Edge 12 is the constant `(1, 0)` unless `12 < n`; and `12 < n ≤ 13`
      forces `n = 13`, where `12 + 1 = n` and both readings take corner `0`.
  (2) The middle component `0 / len` is `0` wherever `len ≠ 0`: off zero the quotient is `0 · len⁻¹`.
-/
import proofs.«403655_j28733331210359_3_alg».proof.Proof.CornerRow

noncomputable section

namespace Cert.CornerRow

open Idealize.ShloMosaic

/-- Below the last slot the two successors are the same slot. -/
theorem cyc_eq_clampNext {j : Fin 13} (hj : j.val < 12) : cyc j = clampNext j := by
  apply Fin.ext
  show (j.val + 1) % 13 = min (j.val + 1) 12
  omega

/-- A one-bit comparison word is `1` exactly when the comparison holds. -/
theorem ofBool_eq_one {b : Bool} : BitVec.ofBool b = 1#1 ↔ b = true := by cases b <;> decide

/-- `12 < n` and `n ≤ 13` (signed) leave `n = 13`. -/
theorem eq_thirteen {n : BitVec 32} (h13 : n.sle 13#32 = true) (h12 : (12#32 : BitVec 32).slt n = true) : n = 13#32 := by
  have a : n.toInt ≤ (13#32 : BitVec 32).toInt := by simpa [BitVec.sle] using h13
  have b : (12#32 : BitVec 32).toInt < n.toInt := by simpa [BitVec.slt] using h12
  have e13 : (13#32 : BitVec 32).toInt = 13 := by decide
  have e12 : (12#32 : BitVec 32).toInt = 12 := by decide
  apply BitVec.eq_of_toInt_eq
  rw [e13]; rw [e13] at a; rw [e12] at b
  omega

/-- At the last slot, an edge that is in use (`12 < n`) under `n ≤ 13` is the closing edge (`12 + 1 = n`). -/
theorem isLast_of_isEdge_last {n : BitVec 32} (h13 : n.sle 13#32 = true) {j : Fin 13} (hj : j.val = 12)
    (he : isEdge n j = 1#1) : isLast n j = 1#1 := by
  have hw : word j = 12#32 := by unfold word; rw [hj]
  unfold isEdge at he
  unfold isLast
  rw [hw] at he ⊢
  have h12 : (12#32 : BitVec 32).slt n = true := ofBool_eq_one.mp he
  rw [eq_thirteen h13 h12]
  decide

section Row
variable (lon lat : Fin 13 → EReal) (n : BitVec 32) (r : EReal)

/-- (1) for the first plane component: under `n ≤ 13` the two successors give the same edge. -/
theorem ex_cyc (h13 : n.sle 13#32 = true) (j : Fin 13) : ex lon lat n r cyc j = ex lon lat n r clampNext j := by
  by_cases hj : j.val < 12
  · unfold ex; rw [cyc_eq_clampNext hj]
  · have hj' : j.val = 12 := by have := j.isLt; omega
    unfold ex Scalar.select
    by_cases he : isEdge n j = 1
    · have hl : isLast n j = 1 := isLast_of_isEdge_last h13 hj' he
      rw [if_pos he, if_pos he, if_pos hl, if_pos hl]
    · rw [if_neg he, if_neg he]

/-- (1) for the second plane component. -/
theorem ez_cyc (h13 : n.sle 13#32 = true) (j : Fin 13) : ez lon lat n r cyc j = ez lon lat n r clampNext j := by
  by_cases hj : j.val < 12
  · unfold ez; rw [cyc_eq_clampNext hj]
  · have hj' : j.val = 12 := by have := j.isLt; omega
    unfold ez Scalar.select
    by_cases he : isEdge n j = 1
    · have hl : isLast n j = 1 := isLast_of_isEdge_last h13 hj' he
      rw [if_pos he, if_pos he, if_pos hl, if_pos hl]
    · rw [if_neg he, if_neg he]

/-- So the whole output row is the same for the two successors. -/
theorem outKer_cyc (h13 : n.sle 13#32 = true) (j : Fin 13) (k : Fin 3) :
    outKer lon lat n r cyc j k = outKer lon lat n r clampNext j k := by
  have hx : ex lon lat n r cyc = ex lon lat n r clampNext := funext (ex_cyc lon lat n r h13)
  have hz : ez lon lat n r cyc = ez lon lat n r clampNext := funext (ez_cyc lon lat n r h13)
  have hl : len lon lat n r cyc = len lon lat n r clampNext := by
    funext i; unfold len; rw [hx, hz]
  have hX : nrmX lon lat n r cyc = nrmX lon lat n r clampNext := by
    funext i; unfold nrmX; rw [hz, hl]
  have hZ : nrmZ lon lat n r cyc = nrmZ lon lat n r clampNext := by
    funext i; unfold nrmZ; rw [hx, hl]
  unfold outKer
  rw [hX, hZ]

variable (nxt : Fin 13 → Fin 13)

/-- (2) Zero divided by a nonzero length is zero. -/
theorem nrmY_eq_zero {j : Fin 13} (h : 0 < len lon lat n r nxt j) : nrmY lon lat n r nxt j = zero32 := by
  unfold nrmY Ideal.div
  rw [if_neg (ne_of_gt h), zero32_eq, zero_mul]

/-- So with every length positive the row whose three components are all divided is the row with the literal
    middle zero. -/
theorem outRef_eq_outKer (hlen : ∀ j, 0 < len lon lat n r nxt j) (j : Fin 13) (k : Fin 3) :
    outRef lon lat n r nxt j k = outKer lon lat n r nxt j k := by
  match k with
  | ⟨0, _⟩ => rfl
  | ⟨2, _⟩ => rfl
  | ⟨1, _⟩ =>
    show place n (nrmY lon lat n r nxt) j = zero32
    unfold place Scalar.select
    rw [nrmY_eq_zero lon lat n r nxt (hlen 0), nrmY_eq_zero lon lat n r nxt (hlen j)]
    split
    · rfl
    · split <;> rfl

end Row

/-- The two laws together: the reference's reading of a row (clamped successor, all three components divided) is
    the kernel's (cyclic successor, literal middle zero), when `n ≤ 13` and every length is positive. -/
theorem outRef_clamp_eq_outKer_cyc (lon lat : Fin 13 → EReal) (n : BitVec 32) (r : EReal)
    (h13 : n.sle 13#32 = true) (hlen : ∀ j, 0 < len lon lat n r clampNext j) (j : Fin 13) (k : Fin 3) :
    outRef lon lat n r clampNext j k = outKer lon lat n r cyc j k :=
  (outRef_eq_outKer lon lat n r clampNext hlen j k).trans (outKer_cyc lon lat n r h13 j k).symm

end Cert.CornerRow

end
-- ==== Proof.KernelRow.lean ====
/-
  The block a grid point leaves, read at an index.

  A grid point loads a block of 512 samples: per sample thirteen (longitude, latitude) pairs, a corner count and a
  height ratio. Its body works on whole `[512, 13]` vectors; read at row `p`, slot `j` every stage is a function of
  row `p`'s data alone, and these are exactly the quantities of the one-sample specification: the corners put on the
  plane, the slot tests `j < n`, `j + 1 = n`, `j = n`, the edge to the corner after `j` — which the body reads by
  rotating the columns one place, so it is the cyclic successor —, the edge's normal, its length, the unit normal,
  and the placing of the normals in the output slots. The stored block stacks three components along the last axis;
  the middle one is zero.

  The stages are read one at a time: each lemma reads one stage at `(p, j)` from the stages before it, through one
  layout fact (a unit axis dropped or added, a column spread, the rotated columns) and the pointwise meaning of the
  arithmetic on extended reals.
-/
import proofs.«403655_j28733331210359_3_alg».proof.Proof.Gen.KernelIdeal.Value
import proofs.«403655_j28733331210359_3_alg».proof.Proof.CornerRow

noncomputable section

namespace Cert.KernelIdeal.Hand

open Cert.KernelIdeal Cert.KernelIdeal.Gen Idealize.ShloMosaic Idealize.ShloMosaic.ValueIdx
open Cert.CornerRow

/-! ## Layout operations of the block shapes, read at coordinates -/

section Layout
variable {α : Type}

/-- Dropping the trailing unit axis: element `(p, j)` is element `(p, j, 0)`. -/
theorem dropUnit_apply (x : S512x13x1.Idx → α) (p : Fin 512) (j : Fin 13) :
    shapeCast S512x13 x shapeCasts_S512x13x1_S512x13 (ix2 p j) = x (ix3 p j 0) :=
  shapeCast_apply x _ (ix2 p j) (ix3 p j 0) (by
    rw [Shape.rowMajor_val_three, Shape.rowMajor_val_two]
    show (p.val * 13 + j.val) * 1 + 0 = p.val * 13 + j.val
    omega)

/-- Adding a trailing unit axis: element `(p, j, 0)` is element `(p, j)`. -/
theorem addUnit_apply (x : S512x13.Idx → α) (p : Fin 512) (j : Fin 13) :
    shapeCast S512x13x1 x shapeCasts_S512x13_S512x13x1 (ix3 p j 0) = x (ix2 p j) :=
  shapeCast_apply x _ (ix3 p j 0) (ix2 p j) (by
    rw [Shape.rowMajor_val_three, Shape.rowMajor_val_two]
    show p.val * 13 + j.val = (p.val * 13 + j.val) * 1 + 0
    omega)

/-- A one-column block spread over the thirteen slots reads its row's single entry. -/
theorem spread_apply (x : S512x1.Idx → α) (p : Fin 512) (j : Fin 13) :
    broadcastTo S512x13 x broadcasts_S512x1_S512x13 (ix2 p j) = x (ix2 p 0) :=
  broadcastTo_apply x _ (ix2 p j) (ix2 p 0) (fun a => by
    match a with
    | ⟨0, _⟩ => rfl
    | ⟨1, _⟩ => rfl)

/-- Column `0` of a `[512, 13]` block, as a one-column block. -/
theorem col0_apply (x : S512x13.Idx → α) (p : Fin 512) :
    extractStridedSlice S512x1 ![0, 0] x slices_S512x13_o0_0_S512x1 (ix2 p 0) = x (ix2 p 0) :=
  extractStridedSlice_apply ![0, 0] x _ (ix2 p 0) (ix2 p 0) (fun a => by
    match a with
    | ⟨0, _⟩ => show p.val = 0 + p.val; omega
    | ⟨1, _⟩ => rfl)

/-- Column `0` of a block spread back over the thirteen slots (through the identity cast the body prints). -/
theorem spreadCol0_apply (x : S512x13.Idx → α) (p : Fin 512) (j : Fin 13) :
    broadcastTo S512x13 (shapeCast S512x1 (extractStridedSlice S512x1 ![0, 0] x slices_S512x13_o0_0_S512x1) shapeCasts_S512x1_S512x1)
      broadcasts_S512x1_S512x13 (ix2 p j) = x (ix2 p 0) := by
  rw [spread_apply, shapeCast_self, col0_apply]

/-- Columns `1 … 12` followed by column `0`: slot `j` reads the cyclic successor's column. -/
theorem rot_apply (x : S512x13.Idx → α) (p : Fin 512) (j : Fin 13) :
    concatenate S512x13 1 [⟨S512x12, extractStridedSlice S512x12 ![0, 1] x slices_S512x13_o0_1_S512x12⟩,
        ⟨S512x1, extractStridedSlice S512x1 ![0, 0] x slices_S512x13_o0_0_S512x1⟩] concatenates_S512x12_S512x1_S512x13_d1 (ix2 p j)
      = x (ix2 p (cyc j)) := by
  by_cases hj : j.val < 12
  · -- slot `j < 12` lies in the first piece, whose column `j` is the block's column `j + 1`
    refine (concatenate_pair_apply_left (t := S512x13) (s₁ := S512x12) (s₂ := S512x1) (1 : Fin 2) _ _ _ (ix2 p j) rfl (ix2 (n0 := 512) (n1 := 12) p ⟨j.val, hj⟩) (fun b => by
      match b with
      | ⟨0, _⟩ => rfl
      | ⟨1, _⟩ => rfl)).trans ?_
    exact extractStridedSlice_apply ![0, 1] x _ (ix2 (n0 := 512) (n1 := 12) p ⟨j.val, hj⟩) (ix2 p (cyc j)) (fun a => by
      match a with
      | ⟨0, _⟩ => show p.val = 0 + p.val; omega
      | ⟨1, _⟩ => show (j.val + 1) % 13 = 1 + j.val; omega)
  · -- slot `12` is the second piece, the block's column `0`
    have h12 : j.val = 12 := by have := j.isLt; omega
    refine (concatenate_pair_apply_right (t := S512x13) (s₁ := S512x12) (s₂ := S512x1) (1 : Fin 2) _ _ _ (ix2 p j) rfl rfl (ix2 (n0 := 512) (n1 := 1) p 0) (fun b hb => by
      match b with
      | ⟨0, _⟩ => rfl
      | ⟨1, _⟩ => exact absurd rfl hb) (by show 0 + 12 = j.val; omega)).trans ?_
    exact extractStridedSlice_apply ![0, 0] x _ (ix2 (n0 := 512) (n1 := 1) p 0) (ix2 p (cyc j)) (fun a => by
      match a with
      | ⟨0, _⟩ => show p.val = 0 + p.val; omega
      | ⟨1, _⟩ => show (j.val + 1) % 13 = 0 + 0; omega)

end Layout

/-- The slot counter: slot `j` holds the word `j`. -/
theorem slot_apply (p : Fin 512) (j : Fin 13) :
    iota .tc S512x13 32 [1] iota_S512x13_d1_w32 (ix2 p j) = word j :=
  iota_single_apply .tc S512x13 32 1 _ (ix2 p j)

/-! ## The corners on the plane, and the three slot tests

Each stage of the body is read at row `p`, slot `j`, for loads whose row `p` holds the longitudes `lon`, the
latitudes `lat`, the ratio `r` and the corner count `n`. -/

section Stages
variable (v0 v2 : Vec Ideal S512x13x1 .f32) (v10 : Vec Ideal S512x1 .f32) (v20 : Vec Ideal S512x1 .i32)
variable (p : Fin 512) (lon lat : Fin 13 → EReal) (n : BitVec 32) (r : EReal)

/-- The longitude of slot `j`. -/
theorem pay2_apply (hlon : ∀ j, v0 (ix3 p j 0) = lon j) (j : Fin 13) : k0_pay2 v0 (ix2 p j) = lon j :=
  (dropUnit_apply v0 p j).trans (hlon j)

/-- The latitude of slot `j`. -/
theorem pay3_apply (hlat : ∀ j, v2 (ix3 p j 0) = lat j) (j : Fin 13) : k0_pay3 v2 (ix2 p j) = lat j :=
  (dropUnit_apply v2 p j).trans (hlat j)

/-- Its cosine. -/
theorem pay4_apply (hlat : ∀ j, v2 (ix3 p j 0) = lat j) (j : Fin 13) : k0_pay4 v2 (ix2 p j) = Ideal.cos (lat j) := by
  show Ideal.cos (k0_pay3 v2 (ix2 p j)) = _
  rw [pay3_apply v2 p lat hlat]

/-- The scale `(0 - h · r) / sin lat`: the body negates by subtracting from zero. -/
theorem pay5_apply (hlat : ∀ j, v2 (ix3 p j 0) = lat j) (hr : v10 (ix2 p 0) = r) (j : Fin 13) :
    k0_pay5 v2 v10 (ix2 p j) = scale lat r j := by
  show Ideal.div (broadcastTo S512x13 _ broadcasts_S512x1_S512x13 (ix2 p j)) (Ideal.sin (k0_pay3 v2 (ix2 p j))) = _
  rw [spread_apply, pay3_apply v2 p lat hlat]
  show Ideal.div (zero32 - height * shapeCast S512x1 v10 shapeCasts_S512x1_S512x1 (ix2 p 0)) (Ideal.sin (lat j)) = _
  rw [shapeCast_self, hr, zero32_eq, zero_sub]
  rfl

/-- The plane's second coordinate of corner `j`. -/
theorem pay6_apply (hlon : ∀ j, v0 (ix3 p j 0) = lon j) (hlat : ∀ j, v2 (ix3 p j 0) = lat j) (hr : v10 (ix2 p 0) = r) (j : Fin 13) :
    k0_pay6 v0 v2 v10 (ix2 p j) = pz lon lat r j := by
  show (k0_pay4 v2 (ix2 p j) * Ideal.cos (k0_pay2 v0 (ix2 p j))) * k0_pay5 v2 v10 (ix2 p j) = _
  rw [pay4_apply v2 p lat hlat, pay2_apply v0 p lon hlon, pay5_apply v2 v10 p lat r hlat hr]
  rfl

/-- The plane's first coordinate of every corner, as the body computes it inside the edge difference. -/
def pxVec : FVec Ideal S512x13 .f32 := mulf (mulf (k0_pay4 v2) (sin (k0_pay2 v0))) (k0_pay5 v2 v10)

theorem pxVec_apply (hlon : ∀ j, v0 (ix3 p j 0) = lon j) (hlat : ∀ j, v2 (ix3 p j 0) = lat j) (hr : v10 (ix2 p 0) = r) (j : Fin 13) :
    pxVec v0 v2 v10 (ix2 p j) = px lon lat r j := by
  show (k0_pay4 v2 (ix2 p j) * Ideal.sin (k0_pay2 v0 (ix2 p j))) * k0_pay5 v2 v10 (ix2 p j) = _
  rw [pay4_apply v2 p lat hlat, pay2_apply v0 p lon hlon, pay5_apply v2 v10 p lat r hlat hr]
  rfl

/-- The corner count of the row, spread over the slots. -/
theorem count_apply (hn : v20 (ix2 p 0) = n) (j : Fin 13) :
    broadcastTo S512x13 (k0_pay7 v20) broadcasts_S512x1_S512x13 (ix2 p j) = n := by
  rw [spread_apply]
  show shapeCast S512x1 v20 shapeCasts_S512x1_S512x1 (ix2 p 0) = n
  rw [shapeCast_self, hn]

/-- `j < n`. -/
theorem pay8_apply (hn : v20 (ix2 p 0) = n) (j : Fin 13) : k0_pay8 v20 (ix2 p j) = isEdge n j := by
  show IntOp.cmpi .slt (iota .tc S512x13 32 [1] iota_S512x13_d1_w32 (ix2 p j))
    (broadcastTo S512x13 (k0_pay7 v20) broadcasts_S512x1_S512x13 (ix2 p j)) = _
  rw [slot_apply, count_apply v20 p n hn]
  rfl

/-- `j + 1 = n`. -/
theorem pay9_apply (hn : v20 (ix2 p 0) = n) (j : Fin 13) : k0_pay9 v20 (ix2 p j) = isLast n j := by
  show IntOp.cmpi .eq (iota .tc S512x13 32 [1] iota_S512x13_d1_w32 (ix2 p j) + 1#32)
    (broadcastTo S512x13 (k0_pay7 v20) broadcasts_S512x1_S512x13 (ix2 p j)) = _
  rw [slot_apply, count_apply v20 p n hn]
  rfl

/-- `j = n`. -/
theorem pay10_apply (hn : v20 (ix2 p 0) = n) (j : Fin 13) : k0_pay10 v20 (ix2 p j) = isPast n j := by
  show IntOp.cmpi .eq (iota .tc S512x13 32 [1] iota_S512x13_d1_w32 (ix2 p j))
    (broadcastTo S512x13 (k0_pay7 v20) broadcasts_S512x1_S512x13 (ix2 p j)) = _
  rw [slot_apply, count_apply v20 p n hn]
  rfl

/-- The second coordinate of the corner after `j`: corner `0` where `j + 1 = n`, else the cyclic successor. -/
theorem pay11_apply (hlon : ∀ j, v0 (ix3 p j 0) = lon j) (hlat : ∀ j, v2 (ix3 p j 0) = lat j) (hr : v10 (ix2 p 0) = r)
    (hn : v20 (ix2 p 0) = n) (j : Fin 13) :
    k0_pay11 v0 v2 v10 v20 (ix2 p j) = Scalar.select (isLast n j) (pz lon lat r 0) (pz lon lat r (cyc j)) := by
  show Scalar.select (k0_pay9 v20 (ix2 p j))
    (broadcastTo S512x13 (shapeCast S512x1 (extractStridedSlice S512x1 ![0, 0] (k0_pay6 v0 v2 v10) slices_S512x13_o0_0_S512x1) shapeCasts_S512x1_S512x1)
      broadcasts_S512x1_S512x13 (ix2 p j))
    (concatenate S512x13 1 [⟨S512x12, extractStridedSlice S512x12 ![0, 1] (k0_pay6 v0 v2 v10) slices_S512x13_o0_1_S512x12⟩,
        ⟨S512x1, extractStridedSlice S512x1 ![0, 0] (k0_pay6 v0 v2 v10) slices_S512x13_o0_0_S512x1⟩] concatenates_S512x12_S512x1_S512x13_d1 (ix2 p j)) = _
  rw [spreadCol0_apply, rot_apply, pay9_apply v20 p n hn, pay6_apply v0 v2 v10 p lon lat r hlon hlat hr,
    pay6_apply v0 v2 v10 p lon lat r hlon hlat hr]

/-- The first coordinate of edge `j` before the slot test: the corner after `j` less corner `j`. -/
theorem pay12_apply (hlon : ∀ j, v0 (ix3 p j 0) = lon j) (hlat : ∀ j, v2 (ix3 p j 0) = lat j) (hr : v10 (ix2 p 0) = r)
    (hn : v20 (ix2 p 0) = n) (j : Fin 13) :
    k0_pay12 v0 v2 v10 v20 (ix2 p j)
      = Scalar.select (isLast n j) (px lon lat r 0) (px lon lat r (cyc j)) - px lon lat r j := by
  show Scalar.select (k0_pay9 v20 (ix2 p j))
    (broadcastTo S512x13 (shapeCast S512x1 (extractStridedSlice S512x1 ![0, 0] (pxVec v0 v2 v10) slices_S512x13_o0_0_S512x1) shapeCasts_S512x1_S512x1)
      broadcasts_S512x1_S512x13 (ix2 p j))
    (concatenate S512x13 1 [⟨S512x12, extractStridedSlice S512x12 ![0, 1] (pxVec v0 v2 v10) slices_S512x13_o0_1_S512x12⟩,
        ⟨S512x1, extractStridedSlice S512x1 ![0, 0] (pxVec v0 v2 v10) slices_S512x13_o0_0_S512x1⟩] concatenates_S512x12_S512x1_S512x13_d1 (ix2 p j))
    - pxVec v0 v2 v10 (ix2 p j) = _
  rw [spreadCol0_apply, rot_apply, pay9_apply v20 p n hn, pxVec_apply v0 v2 v10 p lon lat r hlon hlat hr,
    pxVec_apply v0 v2 v10 p lon lat r hlon hlat hr, pxVec_apply v0 v2 v10 p lon lat r hlon hlat hr]

end Stages

/-! ## The edges, their unit normals, and where they land

The rest of the body, over the five vectors it takes from the stages above: edge `j` is `(1, 0)` where `j` is not
below `n`; its normal `(-ez, 0, ex)` is divided by its length; slot `j` of the output takes normal `0` at `j = n`,
normal `j` below `n`, zero after. -/

section Normals
variable (v19 v44 v45 : FVec Ideal S512x13 .f32) (v24 v30 : IVec S512x13 1)

/-- Edge first coordinates: the difference below `n`, one elsewhere. -/
def vEx : FVec Ideal S512x13 .f32 := select v24 v45 (broadcast S512x13 (Scalar.ofBits (F := Ideal) .f32 0x3F800000#32))
/-- Edge second coordinates: the difference below `n`, zero elsewhere. -/
def vEz : FVec Ideal S512x13 .f32 := select v24 (subf v44 v19) (broadcast S512x13 (Scalar.ofBits (F := Ideal) .f32 0x00000000#32))
/-- Their negation, as zero less them. -/
def vNegEz : FVec Ideal S512x13 .f32 := subf (broadcast S512x13 (Scalar.ofBits (F := Ideal) .f32 0x00000000#32)) (vEz v19 v44 v24)
/-- The normals' lengths. -/
def vLen : FVec Ideal S512x13 .f32 :=
  sqrt (addf (mulf (vNegEz v19 v44 v24) (vNegEz v19 v44 v24)) (mulf (vEx v45 v24) (vEx v45 v24)))
/-- The unit normals' first components. -/
def vNx : FVec Ideal S512x13 .f32 := divf (vNegEz v19 v44 v24) (vLen v19 v44 v45 v24)
/-- The unit normals' last components. -/
def vNz : FVec Ideal S512x13 .f32 := divf (vEx v45 v24) (vLen v19 v44 v45 v24)
/-- A component `f` of the normals placed in the output slots. -/
def vPlace (f : FVec Ideal S512x13 .f32) : FVec Ideal S512x13 .f32 :=
  select v30 (broadcastTo S512x13 (shapeCast S512x1 (extractStridedSlice S512x1 ![0, 0] f slices_S512x13_o0_0_S512x1) shapeCasts_S512x1_S512x1)
      broadcasts_S512x1_S512x13)
    (select v24 f (broadcast S512x13 (Scalar.ofBits (F := Ideal) .f32 0x00000000#32)))

/-- The three components stacked along the last axis. -/
def comp : Fin 3 → Vec Ideal S512x13x1 .f32 := fun c => match c with
  | ⟨0, _⟩ => shapeCast S512x13x1 (vPlace v24 v30 (vNx v19 v44 v45 v24)) shapeCasts_S512x13_S512x13x1
  | ⟨1, _⟩ => shapeCast S512x13x1 (broadcast S512x13 (Scalar.ofBits (F := Ideal) .f32 0x00000000#32)) shapeCasts_S512x13_S512x13x1
  | ⟨2, _⟩ => shapeCast S512x13x1 (vPlace v24 v30 (vNz v19 v44 v45 v24)) shapeCasts_S512x13_S512x13x1

/-- The stored block is the stack of the three components. -/
theorem pay1_eq : k0_pay1 v19 v24 v30 v44 v45
    = concatenate S512x13x3 2 (List.ofFn fun c : Fin 3 => (⟨S512x13x1, comp v19 v44 v45 v24 v30 c⟩ : (s : Shape) × (s.Idx → Ideal .f32)))
        concatenates_S512x13x1_S512x13x1_S512x13x1_S512x13x3_d2 := rfl

/-- Element `(p, j, k)` of the stored block is element `(p, j, 0)` of component `k`. -/
theorem pay1_apply (p : Fin 512) (j : Fin 13) (k : Fin 3) :
    k0_pay1 v19 v24 v30 v44 v45 (ix3 p j k) = comp v19 v44 v45 v24 v30 k (ix3 p j 0) := by
  rw [pay1_eq]
  exact concatenate_ofFn_apply (t := S512x13x3) (s₁ := S512x13x1) (2 : Fin 3) (comp v19 v44 v45 v24 v30) _ rfl 1 rfl
    (ix3 p j k) k (by show k.val / 1 = k.val; omega) (ix3 p j 0) (by show 0 = k.val % 1; omega)
    (fun b hb => by
      match b with
      | ⟨0, _⟩ => rfl
      | ⟨1, _⟩ => rfl
      | ⟨2, _⟩ => exact absurd rfl hb)

variable (p : Fin 512) (lon lat : Fin 13 → EReal) (n : BitVec 32) (r : EReal)

theorem vEx_apply (h24 : ∀ j, v24 (ix2 p j) = isEdge n j)
    (h45 : ∀ j, v45 (ix2 p j) = Scalar.select (isLast n j) (px lon lat r 0) (px lon lat r (cyc j)) - px lon lat r j) (j : Fin 13) :
    vEx v45 v24 (ix2 p j) = ex lon lat n r cyc j := by
  show Scalar.select (v24 (ix2 p j)) (v45 (ix2 p j)) one32 = _
  rw [h24, h45]
  rfl

theorem vEz_apply (h19 : ∀ j, v19 (ix2 p j) = pz lon lat r j) (h24 : ∀ j, v24 (ix2 p j) = isEdge n j)
    (h44 : ∀ j, v44 (ix2 p j) = Scalar.select (isLast n j) (pz lon lat r 0) (pz lon lat r (cyc j))) (j : Fin 13) :
    vEz v19 v44 v24 (ix2 p j) = ez lon lat n r cyc j := by
  show Scalar.select (v24 (ix2 p j)) (v44 (ix2 p j) - v19 (ix2 p j)) zero32 = _
  rw [h24, h44, h19]
  rfl

/-- Zero less the edge's second coordinate is its negation. -/
theorem vNegEz_apply (h19 : ∀ j, v19 (ix2 p j) = pz lon lat r j) (h24 : ∀ j, v24 (ix2 p j) = isEdge n j)
    (h44 : ∀ j, v44 (ix2 p j) = Scalar.select (isLast n j) (pz lon lat r 0) (pz lon lat r (cyc j))) (j : Fin 13) :
    vNegEz v19 v44 v24 (ix2 p j) = -(ez lon lat n r cyc j) := by
  show zero32 - vEz v19 v44 v24 (ix2 p j) = _
  rw [vEz_apply v19 v44 v24 p lon lat n r h19 h24 h44, zero32_eq, zero_sub]

theorem vLen_apply (h19 : ∀ j, v19 (ix2 p j) = pz lon lat r j) (h24 : ∀ j, v24 (ix2 p j) = isEdge n j)
    (h44 : ∀ j, v44 (ix2 p j) = Scalar.select (isLast n j) (pz lon lat r 0) (pz lon lat r (cyc j)))
    (h45 : ∀ j, v45 (ix2 p j) = Scalar.select (isLast n j) (px lon lat r 0) (px lon lat r (cyc j)) - px lon lat r j) (j : Fin 13) :
    vLen v19 v44 v45 v24 (ix2 p j) = len lon lat n r cyc j := by
  show Ideal.sqrt (vNegEz v19 v44 v24 (ix2 p j) * vNegEz v19 v44 v24 (ix2 p j) + vEx v45 v24 (ix2 p j) * vEx v45 v24 (ix2 p j)) = _
  rw [vNegEz_apply v19 v44 v24 p lon lat n r h19 h24 h44, vEx_apply v45 v24 p lon lat n r h24 h45]
  rfl

theorem vNx_apply (h19 : ∀ j, v19 (ix2 p j) = pz lon lat r j) (h24 : ∀ j, v24 (ix2 p j) = isEdge n j)
    (h44 : ∀ j, v44 (ix2 p j) = Scalar.select (isLast n j) (pz lon lat r 0) (pz lon lat r (cyc j)))
    (h45 : ∀ j, v45 (ix2 p j) = Scalar.select (isLast n j) (px lon lat r 0) (px lon lat r (cyc j)) - px lon lat r j) (j : Fin 13) :
    vNx v19 v44 v45 v24 (ix2 p j) = nrmX lon lat n r cyc j := by
  show Ideal.div (vNegEz v19 v44 v24 (ix2 p j)) (vLen v19 v44 v45 v24 (ix2 p j)) = _
  rw [vNegEz_apply v19 v44 v24 p lon lat n r h19 h24 h44, vLen_apply v19 v44 v45 v24 p lon lat n r h19 h24 h44 h45]
  rfl

theorem vNz_apply (h19 : ∀ j, v19 (ix2 p j) = pz lon lat r j) (h24 : ∀ j, v24 (ix2 p j) = isEdge n j)
    (h44 : ∀ j, v44 (ix2 p j) = Scalar.select (isLast n j) (pz lon lat r 0) (pz lon lat r (cyc j)))
    (h45 : ∀ j, v45 (ix2 p j) = Scalar.select (isLast n j) (px lon lat r 0) (px lon lat r (cyc j)) - px lon lat r j) (j : Fin 13) :
    vNz v19 v44 v45 v24 (ix2 p j) = nrmZ lon lat n r cyc j := by
  show Ideal.div (vEx v45 v24 (ix2 p j)) (vLen v19 v44 v45 v24 (ix2 p j)) = _
  rw [vEx_apply v45 v24 p lon lat n r h24 h45, vLen_apply v19 v44 v45 v24 p lon lat n r h19 h24 h44 h45]
  rfl

/-- A component placed in the slots: the row's entry `0` at `j = n`, entry `j` below `n`, zero after. -/
theorem vPlace_apply (h24 : ∀ j, v24 (ix2 p j) = isEdge n j) (h30 : ∀ j, v30 (ix2 p j) = isPast n j)
    (f : FVec Ideal S512x13 .f32) (g : Fin 13 → EReal) (hf : ∀ j, f (ix2 p j) = g j) (j : Fin 13) :
    vPlace v24 v30 f (ix2 p j) = place n g j := by
  show Scalar.select (v30 (ix2 p j))
    (broadcastTo S512x13 (shapeCast S512x1 (extractStridedSlice S512x1 ![0, 0] f slices_S512x13_o0_0_S512x1) shapeCasts_S512x1_S512x1)
      broadcasts_S512x1_S512x13 (ix2 p j))
    (Scalar.select (v24 (ix2 p j)) (f (ix2 p j)) zero32) = _
  rw [spreadCol0_apply, h30, h24, hf, hf]
  rfl

/-- THE STORED BLOCK AT `(p, j, k)` is the output row of the sample in row `p`. -/
theorem pay1_row (h19 : ∀ j, v19 (ix2 p j) = pz lon lat r j) (h24 : ∀ j, v24 (ix2 p j) = isEdge n j)
    (h30 : ∀ j, v30 (ix2 p j) = isPast n j)
    (h44 : ∀ j, v44 (ix2 p j) = Scalar.select (isLast n j) (pz lon lat r 0) (pz lon lat r (cyc j)))
    (h45 : ∀ j, v45 (ix2 p j) = Scalar.select (isLast n j) (px lon lat r 0) (px lon lat r (cyc j)) - px lon lat r j)
    (j : Fin 13) (k : Fin 3) :
    k0_pay1 v19 v24 v30 v44 v45 (ix3 p j k) = outKer lon lat n r cyc j k := by
  rw [pay1_apply]
  match k with
  | ⟨0, _⟩ =>
    show shapeCast S512x13x1 (vPlace v24 v30 (vNx v19 v44 v45 v24)) shapeCasts_S512x13_S512x13x1 (ix3 p j 0)
      = place n (nrmX lon lat n r cyc) j
    rw [addUnit_apply]
    exact vPlace_apply v24 v30 p n h24 h30 _ _ (vNx_apply v19 v44 v45 v24 p lon lat n r h19 h24 h44 h45) j
  | ⟨1, _⟩ =>
    show shapeCast S512x13x1 (broadcast S512x13 (Scalar.ofBits (F := Ideal) .f32 0x00000000#32)) shapeCasts_S512x13_S512x13x1 (ix3 p j 0)
      = zero32
    rw [addUnit_apply]
    rfl
  | ⟨2, _⟩ =>
    show shapeCast S512x13x1 (vPlace v24 v30 (vNz v19 v44 v45 v24)) shapeCasts_S512x13_S512x13x1 (ix3 p j 0)
      = place n (nrmZ lon lat n r cyc) j
    rw [addUnit_apply]
    exact vPlace_apply v24 v30 p n h24 h30 _ _ (vNz_apply v19 v44 v45 v24 p lon lat n r h19 h24 h44 h45) j

end Normals

/-! ## The block a grid point leaves, read at an index -/

/-- The store writes the whole block: the block index under store index `(p, j, k)` is `(p, j, k)`. -/
theorem storeIdx (p : Fin 512) (j : Fin 13) (k : Fin 3) : r0_3.idx (ix3 p j k) = ix3 p j k := by
  funext a
  match a with
  | ⟨0, _⟩ => exact Fin.ext (by show 0 + 1 * p.val = p.val; omega)
  | ⟨1, _⟩ => exact Fin.ext (by show 0 + 1 * j.val = j.val; omega)
  | ⟨2, _⟩ => exact Fin.ext (by show 0 + 1 * k.val = k.val; omega)

/-- THE BLOCK AT `(p, j, k)`: the middle component `k = 1` is the spread zero; the outer two are the unit normal's
    components of the sample in row `p` — its thirteen longitudes and latitudes, its corner count, its ratio —
    placed by the slot tests, the corner after `j` being the cyclic successor. -/
theorem E3_apply (P0 : Vec Ideal S512x1 .i32) (P1 P2 : Vec Ideal S512x13x1 .f32) (P3 : Vec Ideal S512x1 .f32) (p : Fin 512) (j : Fin 13) (k : Fin 3) :
    Cert.KernelIdeal.Value.E3 (F := Ideal) P0 P1 P2 P3 (ValueIdx.ix3 p j k)
      = Cert.CornerRow.outKer (fun j' => P1 (ValueIdx.ix3 p j' 0)) (fun j' => P2 (ValueIdx.ix3 p j' 0)) (P0 (ValueIdx.ix2 p 0)) (P3 (ValueIdx.ix2 p 0)) Cert.CornerRow.cyc j k := by
  refine ((congrArg (Cert.KernelIdeal.Value.E3 (F := Ideal) P0 P1 P2 P3) (storeIdx p j k)).symm.trans
    (Cert.KernelIdeal.Value.piece3_0 (F := Ideal) P0 P1 P2 P3 (ix3 p j k)).symm).trans ?_
  exact pay1_row (k0_pay6 P1 P2 P3) (k0_pay11 P1 P2 P3 P0) (k0_pay12 P1 P2 P3 P0) (k0_pay8 P0) (k0_pay10 P0) p
    (fun j' => P1 (ix3 p j' 0)) (fun j' => P2 (ix3 p j' 0)) (P0 (ix2 p 0)) (P3 (ix2 p 0))
    (pay6_apply P1 P2 P3 p _ _ _ (fun _ => rfl) (fun _ => rfl) rfl)
    (pay8_apply P0 p _ rfl)
    (pay10_apply P0 p _ rfl)
    (pay11_apply P1 P2 P3 P0 p _ _ _ _ (fun _ => rfl) (fun _ => rfl) rfl rfl)
    (pay12_apply P1 P2 P3 P0 p _ _ _ _ (fun _ => rfl) (fun _ => rfl) rfl rfl)
    j k

end Cert.KernelIdeal.Hand

end
-- ==== Proof.KernelValue.lean ====
/-
  From blocks to the array. The grid has 512 points; point `t` works on a block of 512 samples, row `p` of the
  block being sample `512 · t + p`. What a point writes back is, row by row, the edge-normal output row of the
  sample the row belongs to; the blocks tile the output array, so after the run the array is the output row of
  every sample.
-/
import proofs.«403655_j28733331210359_3_alg».proof.Proof.Gen.KernelIdeal.Value
import proofs.«403655_j28733331210359_3_alg».proof.Proof.CornerRow
import proofs.«403655_j28733331210359_3_alg».proof.Proof.KernelRow
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The grid's index maps -/

/-- Every window's block index at point `t` is `t` on the sample axis and `0` on the others (decided over the 512 points). -/
theorem idx_geo : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_cnt : ∀ t : Fin cfg0.N, win0_1.index t (0 : Fin 2) = t.val ∧ win0_1.index t (1 : Fin 2) = 0 :=
  (by decide +kernel : ∀ t : Fin grid0.N, _)
theorem idx_rat : ∀ t : Fin cfg0.N, win0_2.index t (0 : Fin 2) = t.val ∧ win0_2.index t (1 : Fin 2) = 0 :=
  (by decide +kernel : ∀ t : Fin grid0.N, _)
theorem idx_out : ∀ t : Fin cfg0.N, win0_3.index t (0 : Fin 3) = t.val ∧ win0_3.index t (1 : Fin 3) = 0 ∧ win0_3.index t (2 : Fin 3) = 0 :=
  (by decide +kernel : ∀ t : Fin grid0.N, _)

theorem pt_lt (t : Fin cfg0.N) : t.val < 512 := by
  exact lt_of_lt_of_eq t.isLt N_0

/-- The sample that row `p` of point `t`'s block belongs to. -/
def sample (t : Fin cfg0.N) (p : Fin 512) : Fin 262144 := ⟨512 * t.val + p.val, by have := pt_lt t; have := p.isLt; omega⟩

theorem sample_val (t : Fin cfg0.N) (p : Fin 512) : (sample t p).val = 512 * t.val + p.val := rfl

/-! ## The body's loads at an index -/

/-- The longitudes' load reads column 0 of the block, -/
theorem ld_lon (x0 : Vec Ideal S512x13x2 .f32) (p : Fin 512) (j : Fin 13) :
    View.ld x0 r0_0 (ix3 p j (0 : Fin 1)) = x0 (ix3 p j (0 : Fin 2)) :=
  congrArg x0 (funext fun a => Fin.ext (by
    match a with
    | ⟨0, _⟩ => show 0 + 1 * p.val = p.val; omega
    | ⟨1, _⟩ => show 0 + 1 * j.val = j.val; omega
    | ⟨2, _⟩ => show 0 + 1 * 0 = 0; omega))
/-- the latitudes' load column 1, -/
theorem ld_lat (x0 : Vec Ideal S512x13x2 .f32) (p : Fin 512) (j : Fin 13) :
    View.ld x0 r0_1 (ix3 p j (0 : Fin 1)) = x0 (ix3 p j (1 : Fin 2)) :=
  congrArg x0 (funext fun a => Fin.ext (by
    match a with
    | ⟨0, _⟩ => show 0 + 1 * p.val = p.val; omega
    | ⟨1, _⟩ => show 0 + 1 * j.val = j.val; omega
    | ⟨2, _⟩ => show 1 + 1 * 0 = 1; omega))
/-- and a load of a whole one-column block reads the block. -/
theorem ld_col {e : EltTy} (x : Vec Ideal S512x1 e) (p : Fin 512) :
    View.ld x r0_2 (ix2 p (0 : Fin 1)) = x (ix2 p (0 : Fin 1)) :=
  congrArg x (funext fun a => Fin.ext (by
    match a with
    | ⟨0, _⟩ => show 0 + 1 * p.val = p.val; omega
    | ⟨1, _⟩ => show 0 + 1 * 0 = 0; omega))

/-- What the body leaves in its output block at row `p`, slot `j`, component `k`: the output row of the block's row `p`. -/
theorem body_at (x0 : Vec Ideal S512x13x2 .f32) (x1 : Vec Ideal S512x1 .i32) (x2 : Vec Ideal S512x1 .f32)
    (p : Fin 512) (j : Fin 13) (k : Fin 3) :
    out0_3 (F := Ideal) x0 x1 x2 (ix3 p j k)
      = Cert.CornerRow.outKer (fun j' => x0 (ix3 p j' (0 : Fin 2))) (fun j' => x0 (ix3 p j' (1 : Fin 2)))
          (x1 (ix2 p (0 : Fin 1))) (x2 (ix2 p (0 : Fin 1))) Cert.CornerRow.cyc j k := by
  unfold out0_3
  rw [Value.canon3_eq, E3_apply]
  have h0 : (fun j' => View.ld x0 r0_0 (ix3 p j' (0 : Fin 1))) = fun j' => x0 (ix3 p j' (0 : Fin 2)) := funext fun j' => ld_lon x0 p j'
  have h1 : (fun j' => View.ld x0 r0_1 (ix3 p j' (0 : Fin 1))) = fun j' => x0 (ix3 p j' (1 : Fin 2)) := funext fun j' => ld_lat x0 p j'
  rw [h0, h1, ld_col x1 p, ld_col x2 p]

/-! ## The input blocks at an index -/

/-- The array the corner-count window reads is the count vector recast as one column, -/
theorem V_cnt (c : Dev nD) : (V m c main_v0 : S262144x1.Idx → BitVec 32)
    = shapeCast S262144x1 (m ((c : Thread nD τ).loc main_arg1)) Facts₀.shapeCasts_S262144_S262144x1 := by
  dsimp only [Gen.V, Gen.hostOps0]; after_results; rfl
/-- and the ratio window's the ratio vector recast as one column. -/
theorem V_rat (c : Dev nD) : (V m c main_v1 : S262144x1.Idx → EReal)
    = shapeCast S262144x1 (m ((c : Thread nD τ).loc main_arg2)) Facts₀.shapeCasts_S262144_S262144x1 := by
  dsimp only [Gen.V, Gen.hostOps0]; after_results; rfl

/-- Row `p` of point `t`'s block of the corner array is the slab of sample `512 · t + p`. -/
theorem blk_geo (c : Dev nD) (t : Fin cfg0.N) (p : Fin 512) (j : Fin 13) (k : Fin 2) :
    (iblk m c 0 t : Vec Ideal S512x13x2 .f32) (ix3 p j k)
      = (m ((c : Thread nD τ).loc main_arg0) : S262144x13x2.Idx → EReal) (ix3 (sample t p) j k) := by
  obtain ⟨e0, e1, e2⟩ := idx_geo t
  unfold iblk
  rw [View.read_apply]
  show V m c main_arg0 _ = _
  rw [V_main_arg0]
  congr 1
  funext a
  apply Fin.ext
  match a with
  | ⟨0, _⟩ => show win0_0.index t (0 : Fin 3) * 512 + 1 * p.val = 512 * t.val + p.val; rw [e0]; omega
  | ⟨1, _⟩ => show win0_0.index t (1 : Fin 3) * 13 + 1 * j.val = j.val; rw [e1]; omega
  | ⟨2, _⟩ => show win0_0.index t (2 : Fin 3) * 2 + 1 * k.val = k.val; rw [e2]; omega

/-- Row `p` of point `t`'s block of corner counts is the count of sample `512 · t + p`. -/
theorem blk_cnt (c : Dev nD) (t : Fin cfg0.N) (p : Fin 512) :
    (iblk m c 1 t : Vec Ideal S512x1 .i32) (ix2 p (0 : Fin 1))
      = (m ((c : Thread nD τ).loc main_arg1) : S262144.Idx → BitVec 32) (ix1 (sample t p)) := by
  obtain ⟨e0, e1⟩ := idx_cnt t
  unfold iblk
  rw [View.read_apply]
  show (V m c main_v0 : S262144x1.Idx → BitVec 32) _ = _
  rw [V_cnt]
  refine shapeCast_apply (s := S262144) (t := S262144x1) _ _ _ (ix1 (sample t p)) ?_
  show (S262144.rowMajor (ix1 (sample t p))).val = (S262144x1.rowMajor (((cfg0.win 1).blk t).view.emb (ix2 p (0 : Fin 1)))).val
  rw [Shape.rowMajor_val_one, Shape.rowMajor_val_two]
  show 512 * t.val + p.val = (win0_1.index t (0 : Fin 2) * 512 + 1 * p.val) * 1 + (win0_1.index t (1 : Fin 2) * 1 + 1 * 0)
  rw [e0, e1]; omega

/-- Row `p` of point `t`'s block of ratios is the ratio of sample `512 · t + p`. -/
theorem blk_rat (c : Dev nD) (t : Fin cfg0.N) (p : Fin 512) :
    (iblk m c 2 t : Vec Ideal S512x1 .f32) (ix2 p (0 : Fin 1))
      = (m ((c : Thread nD τ).loc main_arg2) : S262144.Idx → EReal) (ix1 (sample t p)) := by
  obtain ⟨e0, e1⟩ := idx_rat t
  unfold iblk
  rw [View.read_apply]
  show (V m c main_v1 : S262144x1.Idx → EReal) _ = _
  rw [V_rat]
  refine shapeCast_apply (s := S262144) (t := S262144x1) _ _ _ (ix1 (sample t p)) ?_
  show (S262144.rowMajor (ix1 (sample t p))).val = (S262144x1.rowMajor (((cfg0.win 2).blk t).view.emb (ix2 p (0 : Fin 1)))).val
  rw [Shape.rowMajor_val_one, Shape.rowMajor_val_two]
  show 512 * t.val + p.val = (win0_2.index t (0 : Fin 2) * 512 + 1 * p.val) * 1 + (win0_2.index t (1 : Fin 2) * 1 + 1 * 0)
  rw [e0, e1]; omega

/-! ## What a point writes back -/

/-- The output array: sample by sample the output row. -/
abbrev outG (c : Dev nD) : S262144x13x3.Idx → EReal :=
  Cert.CornerRow.outArr (m ((c : Thread nD τ).loc main_arg0)) (m ((c : Thread nD τ).loc main_arg1)) (m ((c : Thread nD τ).loc main_arg2))

/-- Row `p` of what point `t`'s body leaves is the output row of sample `512 · t + p`. -/
theorem row_at (c : Dev nD) (t : Fin cfg0.N) (p : Fin 512) (j : Fin 13) (k : Fin 3) :
    out0_3 (F := Ideal) (iblk m c 0 t) (iblk m c 1 t) (iblk m c 2 t) (ix3 p j k) = outG m c (ix3 (sample t p) j k) := by
  refine (body_at (iblk m c 0 t) (iblk m c 1 t) (iblk m c 2 t) p j k).trans ?_
  refine Eq.trans ?_ (Cert.CornerRow.outArr_apply _ _ _ (sample t p) j k).symm
  have h0 : (fun j' => (iblk m c 0 t : Vec Ideal S512x13x2 .f32) (ix3 p j' (0 : Fin 2)))
      = Cert.CornerRow.lonRow (m ((c : Thread nD τ).loc main_arg0)) (sample t p) := funext fun j' => blk_geo m c t p j' 0
  have h1 : (fun j' => (iblk m c 0 t : Vec Ideal S512x13x2 .f32) (ix3 p j' (1 : Fin 2)))
      = Cert.CornerRow.latRow (m ((c : Thread nD τ).loc main_arg0)) (sample t p) := funext fun j' => blk_geo m c t p j' 1
  rw [h0, h1, blk_cnt m c t p, blk_rat m c t p]

/-- WHAT POINT `t` WRITES BACK is block `t` of the output array. -/
theorem flushed_eq (c : Dev nD) (t : Fin cfg0.N) :
    (dats m 0 c).flushed 3 t = ((cfg0.win 3).blk t).view.read (Elt Ideal) (outG m c) := by
  rw [Value.flushed3]
  funext y
  obtain ⟨e0, e1, e2⟩ := idx_out t
  have hemb : ((cfg0.win 3).blk t).view.emb y = ix3 (n0 := 262144) (n1 := 13) (n2 := 3) (sample t (y 0)) (y 1) (y 2) := by
    funext a
    apply Fin.ext
    match a with
    | ⟨0, _⟩ => show win0_3.index t (0 : Fin 3) * 512 + 1 * (y 0).val = 512 * t.val + (y 0).val; rw [e0]; omega
    | ⟨1, _⟩ => show win0_3.index t (1 : Fin 3) * 13 + 1 * (y 1).val = (y 1).val; rw [e1]; omega
    | ⟨2, _⟩ => show win0_3.index t (2 : Fin 3) * 3 + 1 * (y 2).val = (y 2).val; rw [e2]; omega
  show out0_3 (F := Ideal) (iblk m c 0 t) (iblk m c 1 t) (iblk m c 2 t) y = outG m c (((cfg0.win 3).blk t).view.emb y)
  rw [hemb]
  have hy : y = ix3 (n0 := 512) (n1 := 13) (n2 := 3) (y 0) (y 1) (y 2) := eq_ix3 (n0 := 512) (n1 := 13) (n2 := 3) y
  exact (congrArg (out0_3 (F := Ideal) (iblk m c 0 t) (iblk m c 1 t) (iblk m c 2 t)) hy).trans (row_at m c t (y 0) (y 1) (y 2))

/-! ## The blocks tile the array -/

/-- An index of the output array is in point `t`'s block iff each coordinate is in the block's range on its axis. -/
theorem mem_blk (t : Fin cfg0.N) (i : S262144x13x3.Idx) :
    i ∈ ((cfg0.win 3).blk t).view.set ↔ ∀ a : Fin 3, win0_3.index t a * S512x13x3.size a ≤ (i a).val ∧ (i a).val < win0_3.index t a * S512x13x3.size a + S512x13x3.size a := by
  show i ∈ ((View.whole main_v2).slice (win0_3.rect t)).set ↔ _
  rw [View.set_slice_whole, Rect.mem_set_unit]
  exact Iff.rfl

/-- Sample `b`'s rows are in the block of point `b / 512`: every index of the array is in some point's block. -/
theorem cover (i : S262144x13x3.Idx) :
    ∃ t : Fin cfg0.N, (cfg0.win 3).flush t = true ∧ i ∈ ((cfg0.win 3).blk t).view.set := by
  have hi0 : (i 0).val < 262144 := (i 0).isLt
  have hi1 : (i 1).val < 13 := (i 1).isLt
  have hi2 : (i 2).val < 3 := (i 2).isLt
  have ht : (i 0).val / 512 < cfg0.N := lt_of_lt_of_eq (by omega : (i 0).val / 512 < 512) N_0.symm
  obtain ⟨e0, e1, e2⟩ := idx_out ⟨(i 0).val / 512, ht⟩
  have e0' : win0_3.index ⟨(i 0).val / 512, ht⟩ (0 : Fin 3) = (i 0).val / 512 := e0
  refine ⟨⟨(i 0).val / 512, ht⟩, flush0_3 _, ?_⟩
  rw [mem_blk]
  intro a
  match a with
  | ⟨0, _⟩ => show win0_3.index ⟨(i 0).val / 512, ht⟩ (0 : Fin 3) * 512 ≤ (i 0).val ∧ (i 0).val < win0_3.index ⟨(i 0).val / 512, ht⟩ (0 : Fin 3) * 512 + 512; rw [e0']; omega
  | ⟨1, _⟩ => show win0_3.index ⟨(i 0).val / 512, ht⟩ (1 : Fin 3) * 13 ≤ (i 1).val ∧ (i 1).val < win0_3.index ⟨(i 0).val / 512, ht⟩ (1 : Fin 3) * 13 + 13; rw [e1]; omega
  | ⟨2, _⟩ => show win0_3.index ⟨(i 0).val / 512, ht⟩ (2 : Fin 3) * 3 ≤ (i 2).val ∧ (i 2).val < win0_3.index ⟨(i 0).val / 512, ht⟩ (2 : Fin 3) * 3 + 3; rw [e2]; omega

/-- THE ARRAY after the run: every sample's output row. -/
theorem final (c : Dev nD) : (dats m 0 c).arrAt 3 cfg0.N = outG m c :=
  (dats m 0 c).arrAt_eq_of_cover 3 (outG m c) (fun t _ => flushed_eq m c t) cover

/-! ## The run, read -/

/-- The run: the output array ends at every sample's output row, the arguments unchanged. -/
theorem run : θ_run (defs (F := Ideal)) (onTc (τ := τ) (main (F := Ideal))) ⟨m, fun _ => 0, ρ⟩ fun r => ∀ c : Dev nD,
      r.2.mem ((c : Thread nD τ).loc main_v2) = Cert.CornerRow.outArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefRun.lean ====
/-
  The reference program's run, by hand. The reference is a pure host program: @main is 73 StableHLO operations of
  its own and six calls of module-local functions (`_where`, `take_along_axis`, `_where_0`, `norm`, `_where_1`,
  `_where_2`), whose bodies are 4, 22, 3, 5, 2 and 3 operations over the buffers each call names. A call means its
  callee's body on the operands, so @main is ONE straight line of 112 operations: `ops` lists them in program
  order, each callee's operations at its call site over that call's buffer record, each entry the operation and
  the function the program's line carries. `main_eq`: @main is that line (the two windows of @main and the six
  bodies unfolded, sequencing reassociated). `run_main`: from any memory with zero counters every weakly fair
  execution terminates, and every buffer ends at the fold of the operations' results over the launch contents.
-/
import proofs.«403655_j28733331210359_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 112 operations in program order, the six calls unfolded: after the 46 that compute the unit
    direction table, its scaling and the index tables, `_where`'s four (the scalar converted to its own type,
    the two broadcasts, the select); one broadcast; `take_along_axis`'s twenty-two (the index wrapped when
    negative, its range test reduced by `and`, the gather along axis 1, the select against NaN); the
    subtraction and the mask's broadcast; `_where_0`'s three; the thirteen that build the perpendicular vector
    (minus the third component, zero, the first); `norm`'s five (the square, the sum along the last axis, its
    broadcast, the square root); the norm's broadcast and the division; the second mask, the zero and its
    broadcast; `_where_1`'s two; the five of the test `row = count` and the first row's slice; `_where_2`'s
    three. -/
abbrev ops : List (HloOp τ sig (Elt F)) :=
  [
    StableHlo.nullary main_cst (fun i => FloatOps.ofBits .f32 (lit0 (S3.rowMajor i))),
    StableHlo.unary main_arg0 main_v0 ((extractStridedSlice S262144x13x1 ![0, 0, 0] · slices_S262144x13x2_S262144x13x1_0_0_0) : (⟨S262144x13x2, .f32⟩ : BufTy).Contents (Elt F) → (⟨S262144x13x1, .f32⟩ : BufTy).Contents (Elt F)),
    StableHlo.reshape main_v0 main_v1 rfl shapeCasts_S262144x13x1_S262144x13,
    StableHlo.unary main_arg0 main_v2 ((extractStridedSlice S262144x13x1 ![0, 0, 1] · slices_S262144x13x2_S262144x13x1_0_0_1) : (⟨S262144x13x2, .f32⟩ : BufTy).Contents (Elt F) → (⟨S262144x13x1, .f32⟩ : BufTy).Contents (Elt F)),
    StableHlo.reshape main_v2 main_v3 rfl shapeCasts_S262144x13x1_S262144x13,
    StableHlo.unary main_v3 main_v4 (Host.cos : (⟨S262144x13, .f32⟩ : BufTy).Contents (Elt F) → (⟨S262144x13, .f32⟩ : BufTy).Contents (Elt F)),
    StableHlo.unary main_v1 main_v5 (Host.sin : (⟨S262144x13, .f32⟩ : BufTy).Contents (Elt F) → (⟨S262144x13, .f32⟩ : BufTy).Contents (Elt F)),
    StableHlo.binary main_v4 main_v5 main_v6 (mulf : (⟨S262144x13, .f32⟩ : BufTy).Contents (Elt F) → (⟨S262144x13, .f32⟩ : BufTy).Contents (Elt F) → (⟨S262144x13, .f32⟩ : BufTy).Contents (Elt F)),
    StableHlo.unary main_v3 main_v7 (Host.sin : (⟨S262144x13, .f32⟩ : BufTy).Contents (Elt F) → (⟨S262144x13, .f32⟩ : BufTy).Contents (Elt F)),
    StableHlo.unary main_v3 main_v8 (Host.cos : (⟨S262144x13, .f32⟩ : BufTy).Contents (Elt F) → (⟨S262144x13, .f32⟩ : BufTy).Contents (Elt F)),
    StableHlo.unary main_v1 main_v9 (Host.cos : (⟨S262144x13, .f32⟩ : BufTy).Contents (Elt F) → (⟨S262144x13, .f32⟩ : BufTy).Contents (Elt F)),
    StableHlo.binary main_v8 main_v9 main_v10 (mulf : (⟨S262144x13, .f32⟩ : BufTy).Contents (Elt F) → (⟨S262144x13, .f32⟩ : BufTy).Contents (Elt F) → (⟨S262144x13, .f32⟩ : BufTy).Contents (Elt F)),
    StableHlo.unary main_v6 main_v11 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v7 main_v12 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v10 main_v13 (broadcastInDim S262144x13x1 ![0, 1] bcast_S262144x13_S262144x13x1_0_1 : (⟨S262144x13, .f32⟩ : BufTy).Contents (Elt F) → (⟨S262144x13x1, .f32⟩ : BufTy).Contents (Elt F)),
    StableHlo.nary ![main_v11, main_v12, main_v13] main_v14 (fun u => concatenate S262144x13x3 2 [⟨S262144x13x1, u 0⟩, ⟨S262144x13x1, u 1⟩, ⟨S262144x13x1, u 2⟩] concatenates_S262144x13x1_S262144x13x1_S262144x13x1_S262144x13x3_d2),
    StableHlo.unary main_arg2 main_v15 (broadcastInDim S262144x1x1 ![0] bcast_S262144_S262144x1x1_0 : (⟨S262144, .f32⟩ : BufTy).Contents (Elt F) → (⟨S262144x1x1, .f32⟩ : BufTy).Contents (Elt F)),
    StableHlo.nullary main_cst_0 (constant S_ .f32 0x3FCCCCCD#32),
    StableHlo.unary main_cst_0 main_v16 (broadcastInDim S262144x1x1 ![] bcast_S_S262144x1x1 : (⟨S_, .f32⟩ : BufTy).Contents (Elt F) → (⟨S262144x1x1, .f32⟩ : BufTy).Contents (Elt F)),
    StableHlo.binary main_v16 main_v15 main_v17 (mulf : (⟨S262144x1x1, .f32⟩ : BufTy).Contents (Elt F) → (⟨S262144x1x1, .f32⟩ : BufTy).Contents (Elt F) → (⟨S262144x1x1, .f32⟩ : BufTy).Contents (Elt F)),
    StableHlo.unary main_v17 main_v18 (Host.negf : (⟨S262144x1x1, .f32⟩ : BufTy).Contents (Elt F) → (⟨S262144x1x1, .f32⟩ : BufTy).Contents (Elt F)),
    StableHlo.unary main_v14 main_v19 ((extractStridedSlice S262144x13x1 ![0, 0, 1] · slices_S262144x13x3_S262144x13x1_0_0_1) : (⟨S262144x13x3, .f32⟩ : BufTy).Contents (Elt F) → (⟨S262144x13x1, .f32⟩ : BufTy).Contents (Elt F)),
    StableHlo.unary main_v18 main_v20 (broadcastInDim S262144x13x1 ![0, 1, 2] bcast_S262144x1x1_S262144x13x1_0_1_2 : (⟨S262144x1x1, .f32⟩ : BufTy).Contents (Elt F) → (⟨S262144x13x1, .f32⟩ : BufTy).Contents (Elt F)),
    StableHlo.binary main_v20 main_v19 main_v21 (Host.divf : (⟨S262144x13x1, .f32⟩ : BufTy).Contents (Elt F) → (⟨S262144x13x1, .f32⟩ : BufTy).Contents (Elt F) → (⟨S262144x13x1, .f32⟩ : BufTy).Contents (Elt F)),
    StableHlo.unary main_v21 main_v22 (broadcastInDim S262144x13x3 ![0, 1, 2] bcast_S262144x13x1_S262144x13x3_0_1_2 : (⟨S262144x13x1, .f32⟩ : BufTy).Contents (Elt F) → (⟨S262144x13x3, .f32⟩ : BufTy).Contents (Elt F)),
    StableHlo.binary main_v14 main_v22 main_v23 (mulf : (⟨S262144x13x3, .f32⟩ : BufTy).Contents (Elt F) → (⟨S262144x13x3, .f32⟩ : BufTy).Contents (Elt F) → (⟨S262144x13x3, .f32⟩ : BufTy).Contents (Elt F)),
    StableHlo.nullary main_v24 (iotaInDim S13 32 0),
    StableHlo.unary main_arg1 main_v25 (broadcastInDim S262144x1 ![0] bcast_S262144_S262144x1_0 : (⟨S262144, .i32⟩ : BufTy).Contents (Elt F) → (⟨S262144x1, .i32⟩ : BufTy).Contents (Elt F)),
    StableHlo.unary main_v24 main_v26 (broadcastInDim S1x13 ![1] bcast_S13_S1x13_1 : (⟨S13, .i32⟩ : BufTy).Contents (Elt F) → (⟨S1x13, .i32⟩ : BufTy).Contents (Elt F)),
    StableHlo.unary main_v26 main_v27 (broadcastInDim S262144x13 ![0, 1] bcast_S1x13_S262144x13_0_1 : (⟨S1x13, .i32⟩ : BufTy).Contents (Elt F) → (⟨S262144x13, .i32⟩ : BufTy).Contents (Elt F)),
    StableHlo.unary main_v25 main_v28 (broadcastInDim S262144x13 ![0, 1] bcast_S262144x1_S262144x13_0_1 : (⟨S262144x1, .i32⟩ : BufTy).Contents (Elt F) → (⟨S262144x13, .i32⟩ : BufTy).Contents (Elt F)),
    StableHlo.binary main_v27 main_v28 main_v29 (cmpi .slt : (⟨S262144x13, .i32⟩ : BufTy).Contents (Elt F) → (⟨S262144x13, .i32⟩ : BufTy).Contents (Elt F) → (⟨S262144x13, .i1⟩ : BufTy).Contents (Elt F)),
    StableHlo.unary main_v24 main_v30 (broadcastInDim S1x13 ![1] bcast_S13_S1x13_1 : (⟨S13, .i32⟩ : BufTy).Contents (Elt F) → (⟨S1x13, .i32⟩ : BufTy).Contents (Elt F)),
    StableHlo.nullary main_c (constantI S_ 32 1#32),
    StableHlo.unary main_c main_v31 (broadcastInDim S1x13 ![] bcast_S_S1x13 : (⟨S_, .i32⟩ : BufTy).Contents (Elt F) → (⟨S1x13, .i32⟩ : BufTy).Contents (Elt F)),
    StableHlo.binary main_v30 main_v31 main_v32 (addi : (⟨S1x13, .i32⟩ : BufTy).Contents (Elt F) → (⟨S1x13, .i32⟩ : BufTy).Contents (Elt F) → (⟨S1x13, .i32⟩ : BufTy).Contents (Elt F)),
    StableHlo.unary main_v32 main_v33 (broadcastInDim S262144x13 ![0, 1] bcast_S1x13_S262144x13_0_1 : (⟨S1x13, .i32⟩ : BufTy).Contents (Elt F) → (⟨S262144x13, .i32⟩ : BufTy).Contents (Elt F)),
    StableHlo.unary main_v25 main_v34 (broadcastInDim S262144x13 ![0, 1] bcast_S262144x1_S262144x13_0_1 : (⟨S262144x1, .i32⟩ : BufTy).Contents (Elt F) → (⟨S262144x13, .i32⟩ : BufTy).Contents (Elt F)),
    StableHlo.binary main_v33 main_v34 main_v35 (cmpi .eq : (⟨S262144x13, .i32⟩ : BufTy).Contents (Elt F) → (⟨S262144x13, .i32⟩ : BufTy).Contents (Elt F) → (⟨S262144x13, .i1⟩ : BufTy).Contents (Elt F)),
    StableHlo.nullary main_c_1 (constantI S_ 32 1#32),
    StableHlo.unary main_c_1 main_v36 (broadcastInDim S13 ![] bcast_S_S13 : (⟨S_, .i32⟩ : BufTy).Contents (Elt F) → (⟨S13, .i32⟩ : BufTy).Contents (Elt F)),
    StableHlo.binary main_v24 main_v36 main_v37 (addi : (⟨S13, .i32⟩ : BufTy).Contents (Elt F) → (⟨S13, .i32⟩ : BufTy).Contents (Elt F) → (⟨S13, .i32⟩ : BufTy).Contents (Elt F)),
    StableHlo.nullary main_c_2 (constantI S_ 32 12#32),
    StableHlo.unary main_c_2 main_v38 (broadcastInDim S13 ![] bcast_S_S13 : (⟨S_, .i32⟩ : BufTy).Contents (Elt F) → (⟨S13, .i32⟩ : BufTy).Contents (Elt F)),
    StableHlo.binary main_v37 main_v38 main_v39 (minsi : (⟨S13, .i32⟩ : BufTy).Contents (Elt F) → (⟨S13, .i32⟩ : BufTy).Contents (Elt F) → (⟨S13, .i32⟩ : BufTy).Contents (Elt F)),
    StableHlo.nullary main_c_3 (constantI S_ 32 0#32),
    StableHlo.TRef.unary (.of main_c_3 : StableHlo.TRef sig ⟨S_, .i32⟩) main_call0.v0 id,
    StableHlo.TRef.unary main_call0.v0 main_call0.v1 (broadcastInDim S262144x13 ![] bcast_S_S262144x13),
    StableHlo.TRef.unary (.of main_v39 : StableHlo.TRef sig ⟨S13, .i32⟩) main_call0.v2 (broadcastInDim S262144x13 ![1] bcast_S13_S262144x13_1),
    StableHlo.TRef.ternary (.of main_v35 : StableHlo.TRef sig ⟨S262144x13, .i1⟩) main_call0.v1 main_call0.v2 main_call0.v3 select,
    StableHlo.unary main_v40 main_v41 (broadcastInDim S262144x13x1 ![0, 1] bcast_S262144x13_S262144x13x1_0_1 : (⟨S262144x13, .i32⟩ : BufTy).Contents (Elt F) → (⟨S262144x13x1, .i32⟩ : BufTy).Contents (Elt F)),
    StableHlo.TRef.nullary main_call1.c (constantI S_ 32 0#32),
    StableHlo.TRef.unary main_call1.c main_call1.v0 (broadcastInDim S262144x13x1 ![] bcast_S_S262144x13x1),
    StableHlo.TRef.binary (.of main_v41 : StableHlo.TRef sig ⟨S262144x13x1, .i32⟩) main_call1.v0 main_call1.v1 (cmpi .slt),
    StableHlo.TRef.nullary main_call1.c_0 (constantI S_ 32 13#32),
    StableHlo.TRef.unary main_call1.c_0 main_call1.v2 (broadcastInDim S262144x13x1 ![] bcast_S_S262144x13x1),
    StableHlo.TRef.binary (.of main_v41 : StableHlo.TRef sig ⟨S262144x13x1, .i32⟩) main_call1.v2 main_call1.v3 addi,
    StableHlo.TRef.ternary main_call1.v1 main_call1.v3 (.of main_v41 : StableHlo.TRef sig ⟨S262144x13x1, .i32⟩) main_call1.v4 select,
    StableHlo.TRef.nullary main_call1.c_1 (constantI S1 32 12#32),
    StableHlo.TRef.nullary main_call1.c_2 (constantI S_ 32 0#32),
    StableHlo.TRef.unary main_call1.c_2 main_call1.v5 (broadcastInDim S262144x13x1 ![] bcast_S_S262144x13x1),
    StableHlo.TRef.binary main_call1.v4 main_call1.v5 main_call1.v6 (cmpi .sge),
    StableHlo.TRef.unary main_call1.c_1 main_call1.v7 (broadcastInDim S1x1x1 ![2] bcast_S1_S1x1x1_2),
    StableHlo.TRef.unary main_call1.v7 main_call1.v8 (broadcastInDim S262144x13x1 ![0, 1, 2] bcast_S1x1x1_S262144x13x1_0_1_2),
    StableHlo.TRef.binary main_call1.v4 main_call1.v8 main_call1.v9 (cmpi .sle),
    StableHlo.TRef.binary main_call1.v6 main_call1.v9 main_call1.v10 andi,
    StableHlo.TRef.nullary main_call1.c_3 (constantI S_ 1 1#1),
    StableHlo.TRef.binary main_call1.v10 main_call1.c_3 main_call1.v11 (fun x v => Host.reduce IntOp.andi x v reducesTo_S262144x13x1_S262144x13_d2 h_S_),
    StableHlo.TRef.binary (.of main_v23 : StableHlo.TRef sig ⟨S262144x13x3, .f32⟩) main_call1.v4 main_call1.v12 (fun x i => Host.gather gather_S262144x13x3_S262144x13x1_S262144x13x3_2_1_0_0_1_2_113 x i),
    StableHlo.TRef.unary main_call1.v11 main_call1.v13 (broadcastInDim S262144x13x3 ![0, 1] bcast_S262144x13_S262144x13x3_0_1),
    StableHlo.TRef.nullary main_call1.cst (constant S_ .f32 0x7FC00000#32),
    StableHlo.TRef.unary main_call1.cst main_call1.v14 (broadcastInDim S262144x13x3 ![] bcast_S_S262144x13x3),
    StableHlo.TRef.ternary main_call1.v13 main_call1.v12 main_call1.v14 main_call1.v15 select,
    StableHlo.binary main_v42 main_v23 main_v43 (subf : (⟨S262144x13x3, .f32⟩ : BufTy).Contents (Elt F) → (⟨S262144x13x3, .f32⟩ : BufTy).Contents (Elt F) → (⟨S262144x13x3, .f32⟩ : BufTy).Contents (Elt F)),
    StableHlo.unary main_v29 main_v44 (broadcastInDim S262144x13x1 ![0, 1] bcast_S262144x13_S262144x13x1_0_1 : (⟨S262144x13, .i1⟩ : BufTy).Contents (Elt F) → (⟨S262144x13x1, .i1⟩ : BufTy).Contents (Elt F)),
    StableHlo.TRef.unary (.of main_v44 : StableHlo.TRef sig ⟨S262144x13x1, .i1⟩) main_call2.v0 (broadcastInDim S262144x13x3 ![0, 1, 2] bcast_S262144x13x1_S262144x13x3_0_1_2),
    StableHlo.TRef.unary (.of main_cst : StableHlo.TRef sig ⟨S3, .f32⟩) main_call2.v1 (broadcastInDim S262144x13x3 ![2] bcast_S3_S262144x13x3_2),
    StableHlo.TRef.ternary main_call2.v0 (.of main_v43 : StableHlo.TRef sig ⟨S262144x13x3, .f32⟩) main_call2.v1 main_call2.v2 select,
    StableHlo.unary main_v45 main_v46 ((extractStridedSlice S262144x13x1 ![0, 0, 2] · slices_S262144x13x3_S262144x13x1_0_0_2) : (⟨S262144x13x3, .f32⟩ : BufTy).Contents (Elt F) → (⟨S262144x13x1, .f32⟩ : BufTy).Contents (Elt F)),
    StableHlo.reshape main_v46 main_v47 rfl shapeCasts_S262144x13x1_S262144x13,
    StableHlo.unary main_v47 main_v48 (Host.negf : (⟨S262144x13, .f32⟩ : BufTy).Contents (Elt F) → (⟨S262144x13, .f32⟩ : BufTy).Contents (Elt F)),
    StableHlo.unary main_v45 main_v49 ((extractStridedSlice S262144x13x1 ![0, 0, 0] · slices_S262144x13x3_S262144x13x1_0_0_0) : (⟨S262144x13x3, .f32⟩ : BufTy).Contents (Elt F) → (⟨S262144x13x1, .f32⟩ : BufTy).Contents (Elt F)),
    StableHlo.reshape main_v49 main_v50 rfl shapeCasts_S262144x13x1_S262144x13,
    StableHlo.nullary main_cst_4 (constant S_ .f32 0x00000000#32),
    StableHlo.unary main_cst_4 main_v51 (broadcastInDim S262144x13 ![] bcast_S_S262144x13 : (⟨S_, .f32⟩ : BufTy).Contents (Elt F) → (⟨S262144x13, .f32⟩ : BufTy).Contents (Elt F)),
    StableHlo.unary main_v45 main_v52 ((extractStridedSlice S262144x13x1 ![0, 0, 0] · slices_S262144x13x3_S262144x13x1_0_0_0) : (⟨S262144x13x3, .f32⟩ : BufTy).Contents (Elt F) → (⟨S262144x13x1, .f32⟩ : BufTy).Contents (Elt F)),
    StableHlo.reshape main_v52 main_v53 rfl shapeCasts_S262144x13x1_S262144x13,
    StableHlo.unary main_v48 main_v54 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v51 main_v55 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v53 main_v56 (broadcastInDim S262144x13x1 ![0, 1] bcast_S262144x13_S262144x13x1_0_1 : (⟨S262144x13, .f32⟩ : BufTy).Contents (Elt F) → (⟨S262144x13x1, .f32⟩ : BufTy).Contents (Elt F)),
    StableHlo.nary ![main_v54, main_v55, main_v56] main_v57 (fun u => concatenate S262144x13x3 2 [⟨S262144x13x1, u 0⟩, ⟨S262144x13x1, u 1⟩, ⟨S262144x13x1, u 2⟩] concatenates_S262144x13x1_S262144x13x1_S262144x13x1_S262144x13x3_d2),
    StableHlo.TRef.binary (.of main_v57 : StableHlo.TRef sig ⟨S262144x13x3, .f32⟩) (.of main_v57 : StableHlo.TRef sig ⟨S262144x13x3, .f32⟩) main_call3.v0 mulf,
    StableHlo.TRef.nullary main_call3.cst (constant S_ .f32 0x00000000#32),
    StableHlo.TRef.binary main_call3.v0 main_call3.cst main_call3.v1 (fun x v => Host.reduceAdd x v reducesTo_S262144x13x3_S262144x13_d2 h_S_),
    StableHlo.TRef.unary main_call3.v1 main_call3.v2 (broadcastInDim S262144x13x1 ![0, 1] bcast_S262144x13_S262144x13x1_0_1),
    StableHlo.TRef.unary main_call3.v2 main_call3.v3 Host.sqrt,
    StableHlo.unary main_v58 main_v59 (broadcastInDim S262144x13x3 ![0, 1, 2] bcast_S262144x13x1_S262144x13x3_0_1_2 : (⟨S262144x13x1, .f32⟩ : BufTy).Contents (Elt F) → (⟨S262144x13x3, .f32⟩ : BufTy).Contents (Elt F)),
    StableHlo.binary main_v57 main_v59 main_v60 (Host.divf : (⟨S262144x13x3, .f32⟩ : BufTy).Contents (Elt F) → (⟨S262144x13x3, .f32⟩ : BufTy).Contents (Elt F) → (⟨S262144x13x3, .f32⟩ : BufTy).Contents (Elt F)),
    StableHlo.unary main_v29 main_v61 (broadcastInDim S262144x13x1 ![0, 1] bcast_S262144x13_S262144x13x1_0_1 : (⟨S262144x13, .i1⟩ : BufTy).Contents (Elt F) → (⟨S262144x13x1, .i1⟩ : BufTy).Contents (Elt F)),
    StableHlo.nullary main_cst_5 (constant S_ .f32 0x00000000#32),
    StableHlo.unary main_cst_5 main_v62 (broadcastInDim S262144x13x3 ![] bcast_S_S262144x13x3 : (⟨S_, .f32⟩ : BufTy).Contents (Elt F) → (⟨S262144x13x3, .f32⟩ : BufTy).Contents (Elt F)),
    StableHlo.TRef.unary (.of main_v61 : StableHlo.TRef sig ⟨S262144x13x1, .i1⟩) main_call4.v0 (broadcastInDim S262144x13x3 ![0, 1, 2] bcast_S262144x13x1_S262144x13x3_0_1_2),
    StableHlo.TRef.ternary main_call4.v0 (.of main_v60 : StableHlo.TRef sig ⟨S262144x13x3, .f32⟩) (.of main_v62 : StableHlo.TRef sig ⟨S262144x13x3, .f32⟩) main_call4.v1 select,
    StableHlo.unary main_v24 main_v64 (broadcastInDim S1x13 ![1] bcast_S13_S1x13_1 : (⟨S13, .i32⟩ : BufTy).Contents (Elt F) → (⟨S1x13, .i32⟩ : BufTy).Contents (Elt F)),
    StableHlo.unary main_v64 main_v65 (broadcastInDim S262144x13 ![0, 1] bcast_S1x13_S262144x13_0_1 : (⟨S1x13, .i32⟩ : BufTy).Contents (Elt F) → (⟨S262144x13, .i32⟩ : BufTy).Contents (Elt F)),
    StableHlo.unary main_v25 main_v66 (broadcastInDim S262144x13 ![0, 1] bcast_S262144x1_S262144x13_0_1 : (⟨S262144x1, .i32⟩ : BufTy).Contents (Elt F) → (⟨S262144x13, .i32⟩ : BufTy).Contents (Elt F)),
    StableHlo.binary main_v65 main_v66 main_v67 (cmpi .eq : (⟨S262144x13, .i32⟩ : BufTy).Contents (Elt F) → (⟨S262144x13, .i32⟩ : BufTy).Contents (Elt F) → (⟨S262144x13, .i1⟩ : BufTy).Contents (Elt F)),
    StableHlo.unary main_v67 main_v68 (broadcastInDim S262144x13x1 ![0, 1] bcast_S262144x13_S262144x13x1_0_1 : (⟨S262144x13, .i1⟩ : BufTy).Contents (Elt F) → (⟨S262144x13x1, .i1⟩ : BufTy).Contents (Elt F)),
    StableHlo.unary main_v60 main_v69 ((extractStridedSlice S262144x1x3 ![0, 0, 0] · slices_S262144x13x3_S262144x1x3_0_0_0) : (⟨S262144x13x3, .f32⟩ : BufTy).Contents (Elt F) → (⟨S262144x1x3, .f32⟩ : BufTy).Contents (Elt F)),
    StableHlo.TRef.unary (.of main_v68 : StableHlo.TRef sig ⟨S262144x13x1, .i1⟩) main_call5.v0 (broadcastInDim S262144x13x3 ![0, 1, 2] bcast_S262144x13x1_S262144x13x3_0_1_2),
    StableHlo.TRef.unary (.of main_v69 : StableHlo.TRef sig ⟨S262144x1x3, .f32⟩) main_call5.v1 (broadcastInDim S262144x13x3 ![0, 1, 2] bcast_S262144x1x3_S262144x13x3_0_1_2),
    StableHlo.TRef.ternary main_call5.v0 main_call5.v1 (.of main_v63 : StableHlo.TRef sig ⟨S262144x13x3, .f32⟩) main_call5.v2 select ]

-- 112 binds re-associated: the rewrite under the chain recurses once per statement
set_option maxRecDepth 4096 in
set_option maxHeartbeats 4000000 in
/-- @main is that straight line: its two windows and the six functions' definitions unfolded at their calls,
    both sides are one chain of `hlo` steps once sequencing is reassociated (`bind_assoc`, `pure_bind`), and
    then the same chain, step for step. -/
theorem main_eq (c : Dev nD) : main (F := F) c = seq ops := by
  simp only [main, main_part0, main_part1, fn_where.body, fn_take_along_axis.body, fn_where_0.body, fn_norm.body,
    fn_where_1.body, fn_where_2.body, seq, bind_assoc, pure_bind]

/-- The signature scopes no TensorCore buffer and no semaphore: every buffer is a tensor value of @main. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    nullary_bufs_sub .., unary_bufs_sub .., reshape_bufs_sub .., unary_bufs_sub .., reshape_bufs_sub .., unary_bufs_sub ..,
    unary_bufs_sub .., binary_bufs_sub .., unary_bufs_sub .., unary_bufs_sub .., unary_bufs_sub .., binary_bufs_sub ..,
    unary_bufs_sub .., unary_bufs_sub .., unary_bufs_sub .., nary_bufs_sub .., unary_bufs_sub .., nullary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., unary_bufs_sub .., unary_bufs_sub ..,
    unary_bufs_sub .., binary_bufs_sub .., unary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    unary_bufs_sub .., ternary_bufs_sub .., unary_bufs_sub .., nullary_bufs_sub .., unary_bufs_sub .., binary_bufs_sub ..,
    nullary_bufs_sub .., unary_bufs_sub .., binary_bufs_sub .., ternary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., unary_bufs_sub .., unary_bufs_sub .., unary_bufs_sub .., ternary_bufs_sub ..,
    unary_bufs_sub .., reshape_bufs_sub .., unary_bufs_sub .., unary_bufs_sub .., reshape_bufs_sub .., nullary_bufs_sub ..,
    unary_bufs_sub .., unary_bufs_sub .., reshape_bufs_sub .., unary_bufs_sub .., unary_bufs_sub .., unary_bufs_sub ..,
    nary_bufs_sub .., binary_bufs_sub .., nullary_bufs_sub .., binary_bufs_sub .., unary_bufs_sub .., unary_bufs_sub ..,
    unary_bufs_sub .., binary_bufs_sub .., unary_bufs_sub .., nullary_bufs_sub .., unary_bufs_sub .., unary_bufs_sub ..,
    ternary_bufs_sub .., unary_bufs_sub .., unary_bufs_sub .., unary_bufs_sub .., binary_bufs_sub .., unary_bufs_sub ..,
    unary_bufs_sub .., unary_bufs_sub .., unary_bufs_sub .., ternary_bufs_sub ..⟩

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefTerm.lean ====
import proofs.«403655_j28733331210359_3_alg».proof.Proof.Gen.ReferenceIdeal

/-!
# The reference's result as a function of its three arguments

Each definition below is one tensor value of the reference program, written as the operation
that produces it applied to the definitions of its operands, in the program's own order:
the longitude and latitude slices, the point on the unit sphere, the scale that puts it on
the plane at the camera height, the index of the next corner, the gathered next corner, the
edge, its horizontal normal, the normal's length, the unit normal, and the two masked
selections that make the output.
-/

noncomputable section

namespace Cert.ReferenceIdeal.Hand

open Idealize.ShloMosaic Idealize.SL.Sem
open Cert.ReferenceIdeal Cert.ReferenceIdeal.Gen

variable {F : FTy → Type} [FloatOps F]
variable (g : FVec F S262144x13x2 .f32) (nm : IVec S262144 32) (rt : FVec F S262144 .f32)

/-! ## The fallback edge (1, 0, 0) -/

/-- The three literals 1, 0, 0. -/
def cst3 : FVec F S3 .f32 := fun i => FloatOps.ofBits .f32 (lit0 (S3.rowMajor i))

/-! ## Longitude and latitude: the two slices of the input -/

def v0 : FVec F S262144x13x1 .f32 :=
  extractStridedSlice S262144x13x1 ![0, 0, 0] g slices_S262144x13x2_S262144x13x1_0_0_0
/-- Longitude. -/
def v1 : FVec F S262144x13 .f32 := shapeCast S262144x13 (v0 g) shapeCasts_S262144x13x1_S262144x13
def v2 : FVec F S262144x13x1 .f32 :=
  extractStridedSlice S262144x13x1 ![0, 0, 1] g slices_S262144x13x2_S262144x13x1_0_0_1
/-- Latitude. -/
def v3 : FVec F S262144x13 .f32 := shapeCast S262144x13 (v2 g) shapeCasts_S262144x13x1_S262144x13

/-! ## The point on the unit sphere: (cos lat · sin lon, sin lat, cos lat · cos lon) -/

def v4 : FVec F S262144x13 .f32 := Host.cos (v3 g)
def v5 : FVec F S262144x13 .f32 := Host.sin (v1 g)
def v6 : FVec F S262144x13 .f32 := mulf (v4 g) (v5 g)
def v7 : FVec F S262144x13 .f32 := Host.sin (v3 g)
def v8 : FVec F S262144x13 .f32 := Host.cos (v3 g)
def v9 : FVec F S262144x13 .f32 := Host.cos (v1 g)
def v10 : FVec F S262144x13 .f32 := mulf (v8 g) (v9 g)
def v11 : FVec F S262144x13x1 .f32 :=
  broadcastInDim S262144x13x1 ![0, 1] bcast_S262144x13_S262144x13x1_0_1 (v6 g)
def v12 : FVec F S262144x13x1 .f32 :=
  broadcastInDim S262144x13x1 ![0, 1] bcast_S262144x13_S262144x13x1_0_1 (v7 g)
def v13 : FVec F S262144x13x1 .f32 :=
  broadcastInDim S262144x13x1 ![0, 1] bcast_S262144x13_S262144x13x1_0_1 (v10 g)
/-- The three components stacked along the last axis. -/
def v14 : FVec F S262144x13x3 .f32 :=
  concatenate S262144x13x3 2 [⟨S262144x13x1, v11 g⟩, ⟨S262144x13x1, v12 g⟩, ⟨S262144x13x1, v13 g⟩]
    concatenates_S262144x13x1_S262144x13x1_S262144x13x1_S262144x13x3_d2

/-! ## The scale -(h · r) / sin lat, and the scaled point -/

def v15 : FVec F S262144x1x1 .f32 := broadcastInDim S262144x1x1 ![0] bcast_S262144_S262144x1x1_0 rt
def cst_0 : FVec F S_ .f32 := constant S_ .f32 0x3FCCCCCD#32
def v16 : FVec F S262144x1x1 .f32 := broadcastInDim S262144x1x1 ![] bcast_S_S262144x1x1 (cst_0 (F := F))
def v17 : FVec F S262144x1x1 .f32 := mulf (v16 (F := F)) (v15 rt)
def v18 : FVec F S262144x1x1 .f32 := Host.negf (v17 rt)
def v19 : FVec F S262144x13x1 .f32 :=
  extractStridedSlice S262144x13x1 ![0, 0, 1] (v14 g) slices_S262144x13x3_S262144x13x1_0_0_1
def v20 : FVec F S262144x13x1 .f32 :=
  broadcastInDim S262144x13x1 ![0, 1, 2] bcast_S262144x1x1_S262144x13x1_0_1_2 (v18 rt)
/-- The scale. -/
def v21 : FVec F S262144x13x1 .f32 := Host.divf (v20 rt) (v19 g)
def v22 : FVec F S262144x13x3 .f32 :=
  broadcastInDim S262144x13x3 ![0, 1, 2] bcast_S262144x13x1_S262144x13x3_0_1_2 (v21 g rt)
/-- The point on the plane. -/
def v23 : FVec F S262144x13x3 .f32 := mulf (v14 g) (v22 g rt)

/-! ## The corner index, the count, and the comparisons j < n, j + 1 = n -/

/-- The corner index 0 … 12. -/
def v24 : IVec S13 32 := iotaInDim S13 32 0
def v25 : IVec S262144x1 32 := broadcastInDim S262144x1 ![0] bcast_S262144_S262144x1_0 nm
def v26 : IVec S1x13 32 := broadcastInDim S1x13 ![1] bcast_S13_S1x13_1 v24
def v27 : IVec S262144x13 32 := broadcastInDim S262144x13 ![0, 1] bcast_S1x13_S262144x13_0_1 v26
def v28 : IVec S262144x13 32 := broadcastInDim S262144x13 ![0, 1] bcast_S262144x1_S262144x13_0_1 (v25 nm)
/-- j < n. -/
def v29 : IVec S262144x13 1 := cmpi .slt v27 (v28 nm)
def v30 : IVec S1x13 32 := broadcastInDim S1x13 ![1] bcast_S13_S1x13_1 v24
def c_ : IVec S_ 32 := constantI S_ 32 1#32
def v31 : IVec S1x13 32 := broadcastInDim S1x13 ![] bcast_S_S1x13 c_
def v32 : IVec S1x13 32 := addi v30 v31
def v33 : IVec S262144x13 32 := broadcastInDim S262144x13 ![0, 1] bcast_S1x13_S262144x13_0_1 v32
def v34 : IVec S262144x13 32 := broadcastInDim S262144x13 ![0, 1] bcast_S262144x1_S262144x13_0_1 (v25 nm)
/-- j + 1 = n. -/
def v35 : IVec S262144x13 1 := cmpi .eq v33 (v34 nm)
def c_1 : IVec S_ 32 := constantI S_ 32 1#32
def v36 : IVec S13 32 := broadcastInDim S13 ![] bcast_S_S13 c_1
def v37 : IVec S13 32 := addi v24 v36
def c_2 : IVec S_ 32 := constantI S_ 32 12#32
def v38 : IVec S13 32 := broadcastInDim S13 ![] bcast_S_S13 c_2
/-- min (j + 1) 12. -/
def v39 : IVec S13 32 := minsi v37 v38
def c_3 : IVec S_ 32 := constantI S_ 32 0#32

/-! ## The next corner's index: 0 where j + 1 = n, else min (j + 1) 12 -/

def call0_v0 : IVec S_ 32 := id c_3
def call0_v1 : IVec S262144x13 32 := broadcastInDim S262144x13 ![] bcast_S_S262144x13 call0_v0
def call0_v2 : IVec S262144x13 32 := broadcastInDim S262144x13 ![1] bcast_S13_S262144x13_1 v39
/-- The next corner's index. -/
def v40 : IVec S262144x13 32 := select (v35 nm) call0_v1 call0_v2
def v41 : IVec S262144x13x1 32 :=
  broadcastInDim S262144x13x1 ![0, 1] bcast_S262144x13_S262144x13x1_0_1 (v40 nm)

/-! ## The next corner: the point gathered along the corner axis at that index -/

def call1_c : IVec S_ 32 := constantI S_ 32 0#32
def call1_v0 : IVec S262144x13x1 32 := broadcastInDim S262144x13x1 ![] bcast_S_S262144x13x1 call1_c
def call1_v1 : IVec S262144x13x1 1 := cmpi .slt (v41 nm) call1_v0
def call1_c_0 : IVec S_ 32 := constantI S_ 32 13#32
def call1_v2 : IVec S262144x13x1 32 := broadcastInDim S262144x13x1 ![] bcast_S_S262144x13x1 call1_c_0
def call1_v3 : IVec S262144x13x1 32 := addi (v41 nm) call1_v2
/-- The index with a negative one wrapped by 13. -/
def call1_v4 : IVec S262144x13x1 32 := select (call1_v1 nm) (call1_v3 nm) (v41 nm)
def call1_c_1 : IVec S1 32 := constantI S1 32 12#32
def call1_c_2 : IVec S_ 32 := constantI S_ 32 0#32
def call1_v5 : IVec S262144x13x1 32 := broadcastInDim S262144x13x1 ![] bcast_S_S262144x13x1 call1_c_2
def call1_v6 : IVec S262144x13x1 1 := cmpi .sge (call1_v4 nm) call1_v5
def call1_v7 : IVec S1x1x1 32 := broadcastInDim S1x1x1 ![2] bcast_S1_S1x1x1_2 call1_c_1
def call1_v8 : IVec S262144x13x1 32 :=
  broadcastInDim S262144x13x1 ![0, 1, 2] bcast_S1x1x1_S262144x13x1_0_1_2 call1_v7
def call1_v9 : IVec S262144x13x1 1 := cmpi .sle (call1_v4 nm) call1_v8
def call1_v10 : IVec S262144x13x1 1 := andi (call1_v6 nm) (call1_v9 nm)
def call1_c_3 : IVec S_ 1 := constantI S_ 1 1#1
/-- The index is in [0, 12]. -/
def call1_v11 : IVec S262144x13 1 :=
  Host.reduce IntOp.andi (call1_v10 nm) call1_c_3 reducesTo_S262144x13x1_S262144x13_d2 h_S_
/-- The gathered point. -/
def call1_v12 : FVec F S262144x13x3 .f32 :=
  Host.gather gather_S262144x13x3_S262144x13x1_S262144x13x3_2_1_0_0_1_2_113 (v23 g rt) (call1_v4 nm)
def call1_v13 : IVec S262144x13x3 1 :=
  broadcastInDim S262144x13x3 ![0, 1] bcast_S262144x13_S262144x13x3_0_1 (call1_v11 nm)
def call1_cst : FVec F S_ .f32 := constant S_ .f32 0x7FC00000#32
def call1_v14 : FVec F S262144x13x3 .f32 :=
  broadcastInDim S262144x13x3 ![] bcast_S_S262144x13x3 (call1_cst (F := F))
/-- The next corner (the fill where the index is out of range). -/
def v42 : FVec F S262144x13x3 .f32 := select (call1_v13 nm) (call1_v12 g nm rt) (call1_v14 (F := F))

/-! ## The edge: next corner minus this corner, (1, 0, 0) where j is not below n -/

def v43 : FVec F S262144x13x3 .f32 := subf (v42 g nm rt) (v23 g rt)
def v44 : IVec S262144x13x1 1 :=
  broadcastInDim S262144x13x1 ![0, 1] bcast_S262144x13_S262144x13x1_0_1 (v29 nm)
def call2_v0 : IVec S262144x13x3 1 :=
  broadcastInDim S262144x13x3 ![0, 1, 2] bcast_S262144x13x1_S262144x13x3_0_1_2 (v44 nm)
def call2_v1 : FVec F S262144x13x3 .f32 :=
  broadcastInDim S262144x13x3 ![2] bcast_S3_S262144x13x3_2 (cst3 (F := F))
/-- The edge. -/
def v45 : FVec F S262144x13x3 .f32 := select (call2_v0 nm) (v43 g nm rt) (call2_v1 (F := F))

/-! ## The horizontal normal (-e_z, 0, e_x) -/

def v46 : FVec F S262144x13x1 .f32 :=
  extractStridedSlice S262144x13x1 ![0, 0, 2] (v45 g nm rt) slices_S262144x13x3_S262144x13x1_0_0_2
def v47 : FVec F S262144x13 .f32 := shapeCast S262144x13 (v46 g nm rt) shapeCasts_S262144x13x1_S262144x13
def v48 : FVec F S262144x13 .f32 := Host.negf (v47 g nm rt)
def cst_4 : FVec F S_ .f32 := constant S_ .f32 0x00000000#32
def v51 : FVec F S262144x13 .f32 := broadcastInDim S262144x13 ![] bcast_S_S262144x13 (cst_4 (F := F))
def v52 : FVec F S262144x13x1 .f32 :=
  extractStridedSlice S262144x13x1 ![0, 0, 0] (v45 g nm rt) slices_S262144x13x3_S262144x13x1_0_0_0
def v53 : FVec F S262144x13 .f32 := shapeCast S262144x13 (v52 g nm rt) shapeCasts_S262144x13x1_S262144x13
def v54 : FVec F S262144x13x1 .f32 :=
  broadcastInDim S262144x13x1 ![0, 1] bcast_S262144x13_S262144x13x1_0_1 (v48 g nm rt)
def v55 : FVec F S262144x13x1 .f32 :=
  broadcastInDim S262144x13x1 ![0, 1] bcast_S262144x13_S262144x13x1_0_1 (v51 (F := F))
def v56 : FVec F S262144x13x1 .f32 :=
  broadcastInDim S262144x13x1 ![0, 1] bcast_S262144x13_S262144x13x1_0_1 (v53 g nm rt)
/-- The normal. -/
def v57 : FVec F S262144x13x3 .f32 :=
  concatenate S262144x13x3 2
    [⟨S262144x13x1, v54 g nm rt⟩, ⟨S262144x13x1, v55 (F := F)⟩, ⟨S262144x13x1, v56 g nm rt⟩]
    concatenates_S262144x13x1_S262144x13x1_S262144x13x1_S262144x13x3_d2

/-! ## Its length: the square root of the sum of squares over the three components -/

def call3_v0 : FVec F S262144x13x3 .f32 := mulf (v57 g nm rt) (v57 g nm rt)
def call3_cst : FVec F S_ .f32 := constant S_ .f32 0x00000000#32
def call3_v1 : FVec F S262144x13 .f32 :=
  Host.reduceAdd (call3_v0 g nm rt) (call3_cst (F := F)) reducesTo_S262144x13x3_S262144x13_d2 h_S_
def call3_v2 : FVec F S262144x13x1 .f32 :=
  broadcastInDim S262144x13x1 ![0, 1] bcast_S262144x13_S262144x13x1_0_1 (call3_v1 g nm rt)
/-- The length. -/
def v58 : FVec F S262144x13x1 .f32 := Host.sqrt (call3_v2 g nm rt)

/-! ## The unit normal -/

def v59 : FVec F S262144x13x3 .f32 :=
  broadcastInDim S262144x13x3 ![0, 1, 2] bcast_S262144x13x1_S262144x13x3_0_1_2 (v58 g nm rt)
/-- The unit normal. -/
def v60 : FVec F S262144x13x3 .f32 := Host.divf (v57 g nm rt) (v59 g nm rt)

/-! ## The output: the unit normal where j < n, zero elsewhere; then row 0's normal where j = n -/

def v61 : IVec S262144x13x1 1 :=
  broadcastInDim S262144x13x1 ![0, 1] bcast_S262144x13_S262144x13x1_0_1 (v29 nm)
def cst_5 : FVec F S_ .f32 := constant S_ .f32 0x00000000#32
def v62 : FVec F S262144x13x3 .f32 := broadcastInDim S262144x13x3 ![] bcast_S_S262144x13x3 (cst_5 (F := F))
def call4_v0 : IVec S262144x13x3 1 :=
  broadcastInDim S262144x13x3 ![0, 1, 2] bcast_S262144x13x1_S262144x13x3_0_1_2 (v61 nm)
def v63 : FVec F S262144x13x3 .f32 := select (call4_v0 nm) (v60 g nm rt) (v62 (F := F))
def v64 : IVec S1x13 32 := broadcastInDim S1x13 ![1] bcast_S13_S1x13_1 v24
def v65 : IVec S262144x13 32 := broadcastInDim S262144x13 ![0, 1] bcast_S1x13_S262144x13_0_1 v64
def v66 : IVec S262144x13 32 := broadcastInDim S262144x13 ![0, 1] bcast_S262144x1_S262144x13_0_1 (v25 nm)
/-- j = n. -/
def v67 : IVec S262144x13 1 := cmpi .eq v65 (v66 nm)
def v68 : IVec S262144x13x1 1 :=
  broadcastInDim S262144x13x1 ![0, 1] bcast_S262144x13_S262144x13x1_0_1 (v67 nm)
/-- Row 0 of the unit normals. -/
def v69 : FVec F S262144x1x3 .f32 :=
  extractStridedSlice S262144x1x3 ![0, 0, 0] (v60 g nm rt) slices_S262144x13x3_S262144x1x3_0_0_0
def call5_v0 : IVec S262144x13x3 1 :=
  broadcastInDim S262144x13x3 ![0, 1, 2] bcast_S262144x13x1_S262144x13x3_0_1_2 (v68 nm)
def call5_v1 : FVec F S262144x13x3 .f32 :=
  broadcastInDim S262144x13x3 ![0, 1, 2] bcast_S262144x1x3_S262144x13x3_0_1_2 (v69 g nm rt)
def v70 : FVec F S262144x13x3 .f32 := select (call5_v0 nm) (call5_v1 g nm rt) (v63 g nm rt)

/-- The reference's result as a function of its three arguments. -/
def refOut : FVec F S262144x13x3 .f32 := v70 g nm rt

end Cert.ReferenceIdeal.Hand

end
-- ==== Proof.RefOut.lean ====
/-
  The reference's result as a term of its arguments. The 112 operations are read in seven consecutive windows
  (cut after the scaled points, the next-corner index, the gathered next corner, the edge, the normal, the unit
  normal): `valK V0` is the device's contents after the first K windows from contents `V0`, and for every buffer
  still read after window K the lemma `valK_‹buffer›` gives its contents as the stage term of the reference
  (one definition per tensor value) applied to the three arguments' contents. A window's lemma unfolds that
  window's operations only: the buffers it reads from earlier windows enter as the earlier lemmas' folded terms.
  A module-local function's operations carry their tensor types, so their operands and results pass through the
  identity conversions between a buffer's contents and its value's type; `ofBuf_toBuf` and the lemmas at the
  literal buffers remove them.
-/
import proofs.«403655_j28733331210359_3_alg».proof.Proof.RefRun
import proofs.«403655_j28733331210359_3_alg».proof.Proof.RefTerm
import Mathlib.Data.Fin.VecNotation

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The conversions at a typed reference are the identity -/

/-- Contents moved to a buffer's own type and back are unchanged. -/
theorem ofBuf_toBuf {Val : EltTy → Type} {T : BufTy} (x : TRef sig T) (v : T.Contents Val) : x.ofBuf (x.toBuf v) = v := by
  obtain ⟨r, h, od, us⟩ := x
  subst h
  rfl

theorem ofBuf_v35 {Val : EltTy → Type} (v : (⟨S262144x13, .i1⟩ : BufTy).Contents Val) :
    (TRef.of main_v35 : TRef sig ⟨S262144x13, .i1⟩).ofBuf v = v := rfl
theorem ofBuf_c_3 {Val : EltTy → Type} (v : (⟨S_, .i32⟩ : BufTy).Contents Val) :
    (TRef.of main_c_3 : TRef sig ⟨S_, .i32⟩).ofBuf v = v := rfl
theorem ofBuf_v39 {Val : EltTy → Type} (v : (⟨S13, .i32⟩ : BufTy).Contents Val) :
    (TRef.of main_v39 : TRef sig ⟨S13, .i32⟩).ofBuf v = v := rfl
theorem ofBuf_v23 {Val : EltTy → Type} (v : (⟨S262144x13x3, .f32⟩ : BufTy).Contents Val) :
    (TRef.of main_v23 : TRef sig ⟨S262144x13x3, .f32⟩).ofBuf v = v := rfl
theorem ofBuf_v41 {Val : EltTy → Type} (v : (⟨S262144x13x1, .i32⟩ : BufTy).Contents Val) :
    (TRef.of main_v41 : TRef sig ⟨S262144x13x1, .i32⟩).ofBuf v = v := rfl
theorem ofBuf_v44 {Val : EltTy → Type} (v : (⟨S262144x13x1, .i1⟩ : BufTy).Contents Val) :
    (TRef.of main_v44 : TRef sig ⟨S262144x13x1, .i1⟩).ofBuf v = v := rfl
theorem ofBuf_v43 {Val : EltTy → Type} (v : (⟨S262144x13x3, .f32⟩ : BufTy).Contents Val) :
    (TRef.of main_v43 : TRef sig ⟨S262144x13x3, .f32⟩).ofBuf v = v := rfl
theorem ofBuf_cst {Val : EltTy → Type} (v : (⟨S3, .f32⟩ : BufTy).Contents Val) :
    (TRef.of main_cst : TRef sig ⟨S3, .f32⟩).ofBuf v = v := rfl
theorem ofBuf_v57 {Val : EltTy → Type} (v : (⟨S262144x13x3, .f32⟩ : BufTy).Contents Val) :
    (TRef.of main_v57 : TRef sig ⟨S262144x13x3, .f32⟩).ofBuf v = v := rfl
theorem ofBuf_v61 {Val : EltTy → Type} (v : (⟨S262144x13x1, .i1⟩ : BufTy).Contents Val) :
    (TRef.of main_v61 : TRef sig ⟨S262144x13x1, .i1⟩).ofBuf v = v := rfl
theorem ofBuf_v60 {Val : EltTy → Type} (v : (⟨S262144x13x3, .f32⟩ : BufTy).Contents Val) :
    (TRef.of main_v60 : TRef sig ⟨S262144x13x3, .f32⟩).ofBuf v = v := rfl
theorem ofBuf_v62 {Val : EltTy → Type} (v : (⟨S262144x13x3, .f32⟩ : BufTy).Contents Val) :
    (TRef.of main_v62 : TRef sig ⟨S262144x13x3, .f32⟩).ofBuf v = v := rfl
theorem ofBuf_v68 {Val : EltTy → Type} (v : (⟨S262144x13x1, .i1⟩ : BufTy).Contents Val) :
    (TRef.of main_v68 : TRef sig ⟨S262144x13x1, .i1⟩).ofBuf v = v := rfl
theorem ofBuf_v69 {Val : EltTy → Type} (v : (⟨S262144x1x3, .f32⟩ : BufTy).Contents Val) :
    (TRef.of main_v69 : TRef sig ⟨S262144x1x3, .f32⟩).ofBuf v = v := rfl
theorem ofBuf_v63 {Val : EltTy → Type} (v : (⟨S262144x13x3, .f32⟩ : BufTy).Contents Val) :
    (TRef.of main_v63 : TRef sig ⟨S262144x13x3, .f32⟩).ofBuf v = v := rfl
theorem toBuf_v40 {Val : EltTy → Type} (v : (⟨S262144x13, .i32⟩ : BufTy).Contents Val) :
    (TRef.of main_v40 : TRef sig ⟨S262144x13, .i32⟩).toBuf v = v := rfl
theorem toBuf_v42 {Val : EltTy → Type} (v : (⟨S262144x13x3, .f32⟩ : BufTy).Contents Val) :
    (TRef.of main_v42 : TRef sig ⟨S262144x13x3, .f32⟩).toBuf v = v := rfl
theorem toBuf_v45 {Val : EltTy → Type} (v : (⟨S262144x13x3, .f32⟩ : BufTy).Contents Val) :
    (TRef.of main_v45 : TRef sig ⟨S262144x13x3, .f32⟩).toBuf v = v := rfl
theorem toBuf_v58 {Val : EltTy → Type} (v : (⟨S262144x13x1, .f32⟩ : BufTy).Contents Val) :
    (TRef.of main_v58 : TRef sig ⟨S262144x13x1, .f32⟩).toBuf v = v := rfl
theorem toBuf_v63 {Val : EltTy → Type} (v : (⟨S262144x13x3, .f32⟩ : BufTy).Contents Val) :
    (TRef.of main_v63 : TRef sig ⟨S262144x13x3, .f32⟩).toBuf v = v := rfl
theorem toBuf_v70 {Val : EltTy → Type} (v : (⟨S262144x13x3, .f32⟩ : BufTy).Contents Val) :
    (TRef.of main_v70 : TRef sig ⟨S262144x13x3, .f32⟩).toBuf v = v := rfl

/-! ## The windows -/

/-- An operation's result at its own buffer is its function's value of the operands' contents, and at any other
    buffer what was there: the two facts applied occurrence by occurrence through a window's operations, for a
    buffer read inside the operand list of a concatenation. -/
macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide))))

/-- The fold over two lines run one after the other is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-- Operations 1 … 26: the point on the unit sphere and its scaling onto the plane. -/
abbrev seg1 : List (HloOp τ sig (Elt F)) :=
  [
    StableHlo.nullary main_cst (fun i => FloatOps.ofBits .f32 (lit0 (S3.rowMajor i))),
    StableHlo.unary main_arg0 main_v0 ((extractStridedSlice S262144x13x1 ![0, 0, 0] · slices_S262144x13x2_S262144x13x1_0_0_0) : (⟨S262144x13x2, .f32⟩ : BufTy).Contents (Elt F) → (⟨S262144x13x1, .f32⟩ : BufTy).Contents (Elt F)),
    StableHlo.reshape main_v0 main_v1 rfl shapeCasts_S262144x13x1_S262144x13,
    StableHlo.unary main_arg0 main_v2 ((extractStridedSlice S262144x13x1 ![0, 0, 1] · slices_S262144x13x2_S262144x13x1_0_0_1) : (⟨S262144x13x2, .f32⟩ : BufTy).Contents (Elt F) → (⟨S262144x13x1, .f32⟩ : BufTy).Contents (Elt F)),
    StableHlo.reshape main_v2 main_v3 rfl shapeCasts_S262144x13x1_S262144x13,
    StableHlo.unary main_v3 main_v4 (Host.cos : (⟨S262144x13, .f32⟩ : BufTy).Contents (Elt F) → (⟨S262144x13, .f32⟩ : BufTy).Contents (Elt F)),
    StableHlo.unary main_v1 main_v5 (Host.sin : (⟨S262144x13, .f32⟩ : BufTy).Contents (Elt F) → (⟨S262144x13, .f32⟩ : BufTy).Contents (Elt F)),
    StableHlo.binary main_v4 main_v5 main_v6 (mulf : (⟨S262144x13, .f32⟩ : BufTy).Contents (Elt F) → (⟨S262144x13, .f32⟩ : BufTy).Contents (Elt F) → (⟨S262144x13, .f32⟩ : BufTy).Contents (Elt F)),
    StableHlo.unary main_v3 main_v7 (Host.sin : (⟨S262144x13, .f32⟩ : BufTy).Contents (Elt F) → (⟨S262144x13, .f32⟩ : BufTy).Contents (Elt F)),
    StableHlo.unary main_v3 main_v8 (Host.cos : (⟨S262144x13, .f32⟩ : BufTy).Contents (Elt F) → (⟨S262144x13, .f32⟩ : BufTy).Contents (Elt F)),
    StableHlo.unary main_v1 main_v9 (Host.cos : (⟨S262144x13, .f32⟩ : BufTy).Contents (Elt F) → (⟨S262144x13, .f32⟩ : BufTy).Contents (Elt F)),
    StableHlo.binary main_v8 main_v9 main_v10 (mulf : (⟨S262144x13, .f32⟩ : BufTy).Contents (Elt F) → (⟨S262144x13, .f32⟩ : BufTy).Contents (Elt F) → (⟨S262144x13, .f32⟩ : BufTy).Contents (Elt F)),
    StableHlo.unary main_v6 main_v11 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v7 main_v12 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v10 main_v13 (broadcastInDim S262144x13x1 ![0, 1] bcast_S262144x13_S262144x13x1_0_1 : (⟨S262144x13, .f32⟩ : BufTy).Contents (Elt F) → (⟨S262144x13x1, .f32⟩ : BufTy).Contents (Elt F)),
    StableHlo.nary ![main_v11, main_v12, main_v13] main_v14 (fun u => concatenate S262144x13x3 2 [⟨S262144x13x1, u 0⟩, ⟨S262144x13x1, u 1⟩, ⟨S262144x13x1, u 2⟩] concatenates_S262144x13x1_S262144x13x1_S262144x13x1_S262144x13x3_d2),
    StableHlo.unary main_arg2 main_v15 (broadcastInDim S262144x1x1 ![0] bcast_S262144_S262144x1x1_0 : (⟨S262144, .f32⟩ : BufTy).Contents (Elt F) → (⟨S262144x1x1, .f32⟩ : BufTy).Contents (Elt F)),
    StableHlo.nullary main_cst_0 (constant S_ .f32 0x3FCCCCCD#32),
    StableHlo.unary main_cst_0 main_v16 (broadcastInDim S262144x1x1 ![] bcast_S_S262144x1x1 : (⟨S_, .f32⟩ : BufTy).Contents (Elt F) → (⟨S262144x1x1, .f32⟩ : BufTy).Contents (Elt F)),
    StableHlo.binary main_v16 main_v15 main_v17 (mulf : (⟨S262144x1x1, .f32⟩ : BufTy).Contents (Elt F) → (⟨S262144x1x1, .f32⟩ : BufTy).Contents (Elt F) → (⟨S262144x1x1, .f32⟩ : BufTy).Contents (Elt F)),
    StableHlo.unary main_v17 main_v18 (Host.negf : (⟨S262144x1x1, .f32⟩ : BufTy).Contents (Elt F) → (⟨S262144x1x1, .f32⟩ : BufTy).Contents (Elt F)),
    StableHlo.unary main_v14 main_v19 ((extractStridedSlice S262144x13x1 ![0, 0, 1] · slices_S262144x13x3_S262144x13x1_0_0_1) : (⟨S262144x13x3, .f32⟩ : BufTy).Contents (Elt F) → (⟨S262144x13x1, .f32⟩ : BufTy).Contents (Elt F)),
    StableHlo.unary main_v18 main_v20 (broadcastInDim S262144x13x1 ![0, 1, 2] bcast_S262144x1x1_S262144x13x1_0_1_2 : (⟨S262144x1x1, .f32⟩ : BufTy).Contents (Elt F) → (⟨S262144x13x1, .f32⟩ : BufTy).Contents (Elt F)),
    StableHlo.binary main_v20 main_v19 main_v21 (Host.divf : (⟨S262144x13x1, .f32⟩ : BufTy).Contents (Elt F) → (⟨S262144x13x1, .f32⟩ : BufTy).Contents (Elt F) → (⟨S262144x13x1, .f32⟩ : BufTy).Contents (Elt F)),
    StableHlo.unary main_v21 main_v22 (broadcastInDim S262144x13x3 ![0, 1, 2] bcast_S262144x13x1_S262144x13x3_0_1_2 : (⟨S262144x13x1, .f32⟩ : BufTy).Contents (Elt F) → (⟨S262144x13x3, .f32⟩ : BufTy).Contents (Elt F)),
    StableHlo.binary main_v14 main_v22 main_v23 (mulf : (⟨S262144x13x3, .f32⟩ : BufTy).Contents (Elt F) → (⟨S262144x13x3, .f32⟩ : BufTy).Contents (Elt F) → (⟨S262144x13x3, .f32⟩ : BufTy).Contents (Elt F)) ]

/-- Operations 27 … 51: the corner index, the comparisons with the count, the next corner's index. -/
abbrev seg2 : List (HloOp τ sig (Elt F)) :=
  [
    StableHlo.nullary main_v24 (iotaInDim S13 32 0),
    StableHlo.unary main_arg1 main_v25 (broadcastInDim S262144x1 ![0] bcast_S262144_S262144x1_0 : (⟨S262144, .i32⟩ : BufTy).Contents (Elt F) → (⟨S262144x1, .i32⟩ : BufTy).Contents (Elt F)),
    StableHlo.unary main_v24 main_v26 (broadcastInDim S1x13 ![1] bcast_S13_S1x13_1 : (⟨S13, .i32⟩ : BufTy).Contents (Elt F) → (⟨S1x13, .i32⟩ : BufTy).Contents (Elt F)),
    StableHlo.unary main_v26 main_v27 (broadcastInDim S262144x13 ![0, 1] bcast_S1x13_S262144x13_0_1 : (⟨S1x13, .i32⟩ : BufTy).Contents (Elt F) → (⟨S262144x13, .i32⟩ : BufTy).Contents (Elt F)),
    StableHlo.unary main_v25 main_v28 (broadcastInDim S262144x13 ![0, 1] bcast_S262144x1_S262144x13_0_1 : (⟨S262144x1, .i32⟩ : BufTy).Contents (Elt F) → (⟨S262144x13, .i32⟩ : BufTy).Contents (Elt F)),
    StableHlo.binary main_v27 main_v28 main_v29 (cmpi .slt : (⟨S262144x13, .i32⟩ : BufTy).Contents (Elt F) → (⟨S262144x13, .i32⟩ : BufTy).Contents (Elt F) → (⟨S262144x13, .i1⟩ : BufTy).Contents (Elt F)),
    StableHlo.unary main_v24 main_v30 (broadcastInDim S1x13 ![1] bcast_S13_S1x13_1 : (⟨S13, .i32⟩ : BufTy).Contents (Elt F) → (⟨S1x13, .i32⟩ : BufTy).Contents (Elt F)),
    StableHlo.nullary main_c (constantI S_ 32 1#32),
    StableHlo.unary main_c main_v31 (broadcastInDim S1x13 ![] bcast_S_S1x13 : (⟨S_, .i32⟩ : BufTy).Contents (Elt F) → (⟨S1x13, .i32⟩ : BufTy).Contents (Elt F)),
    StableHlo.binary main_v30 main_v31 main_v32 (addi : (⟨S1x13, .i32⟩ : BufTy).Contents (Elt F) → (⟨S1x13, .i32⟩ : BufTy).Contents (Elt F) → (⟨S1x13, .i32⟩ : BufTy).Contents (Elt F)),
    StableHlo.unary main_v32 main_v33 (broadcastInDim S262144x13 ![0, 1] bcast_S1x13_S262144x13_0_1 : (⟨S1x13, .i32⟩ : BufTy).Contents (Elt F) → (⟨S262144x13, .i32⟩ : BufTy).Contents (Elt F)),
    StableHlo.unary main_v25 main_v34 (broadcastInDim S262144x13 ![0, 1] bcast_S262144x1_S262144x13_0_1 : (⟨S262144x1, .i32⟩ : BufTy).Contents (Elt F) → (⟨S262144x13, .i32⟩ : BufTy).Contents (Elt F)),
    StableHlo.binary main_v33 main_v34 main_v35 (cmpi .eq : (⟨S262144x13, .i32⟩ : BufTy).Contents (Elt F) → (⟨S262144x13, .i32⟩ : BufTy).Contents (Elt F) → (⟨S262144x13, .i1⟩ : BufTy).Contents (Elt F)),
    StableHlo.nullary main_c_1 (constantI S_ 32 1#32),
    StableHlo.unary main_c_1 main_v36 (broadcastInDim S13 ![] bcast_S_S13 : (⟨S_, .i32⟩ : BufTy).Contents (Elt F) → (⟨S13, .i32⟩ : BufTy).Contents (Elt F)),
    StableHlo.binary main_v24 main_v36 main_v37 (addi : (⟨S13, .i32⟩ : BufTy).Contents (Elt F) → (⟨S13, .i32⟩ : BufTy).Contents (Elt F) → (⟨S13, .i32⟩ : BufTy).Contents (Elt F)),
    StableHlo.nullary main_c_2 (constantI S_ 32 12#32),
    StableHlo.unary main_c_2 main_v38 (broadcastInDim S13 ![] bcast_S_S13 : (⟨S_, .i32⟩ : BufTy).Contents (Elt F) → (⟨S13, .i32⟩ : BufTy).Contents (Elt F)),
    StableHlo.binary main_v37 main_v38 main_v39 (minsi : (⟨S13, .i32⟩ : BufTy).Contents (Elt F) → (⟨S13, .i32⟩ : BufTy).Contents (Elt F) → (⟨S13, .i32⟩ : BufTy).Contents (Elt F)),
    StableHlo.nullary main_c_3 (constantI S_ 32 0#32),
    StableHlo.TRef.unary (.of main_c_3 : StableHlo.TRef sig ⟨S_, .i32⟩) main_call0.v0 id,
    StableHlo.TRef.unary main_call0.v0 main_call0.v1 (broadcastInDim S262144x13 ![] bcast_S_S262144x13),
    StableHlo.TRef.unary (.of main_v39 : StableHlo.TRef sig ⟨S13, .i32⟩) main_call0.v2 (broadcastInDim S262144x13 ![1] bcast_S13_S262144x13_1),
    StableHlo.TRef.ternary (.of main_v35 : StableHlo.TRef sig ⟨S262144x13, .i1⟩) main_call0.v1 main_call0.v2 main_call0.v3 select,
    StableHlo.unary main_v40 main_v41 (broadcastInDim S262144x13x1 ![0, 1] bcast_S262144x13_S262144x13x1_0_1 : (⟨S262144x13, .i32⟩ : BufTy).Contents (Elt F) → (⟨S262144x13x1, .i32⟩ : BufTy).Contents (Elt F)) ]

/-- Operations 52 … 73: the next corner, gathered along the corner axis. -/
abbrev seg3 : List (HloOp τ sig (Elt F)) :=
  [
    StableHlo.TRef.nullary main_call1.c (constantI S_ 32 0#32),
    StableHlo.TRef.unary main_call1.c main_call1.v0 (broadcastInDim S262144x13x1 ![] bcast_S_S262144x13x1),
    StableHlo.TRef.binary (.of main_v41 : StableHlo.TRef sig ⟨S262144x13x1, .i32⟩) main_call1.v0 main_call1.v1 (cmpi .slt),
    StableHlo.TRef.nullary main_call1.c_0 (constantI S_ 32 13#32),
    StableHlo.TRef.unary main_call1.c_0 main_call1.v2 (broadcastInDim S262144x13x1 ![] bcast_S_S262144x13x1),
    StableHlo.TRef.binary (.of main_v41 : StableHlo.TRef sig ⟨S262144x13x1, .i32⟩) main_call1.v2 main_call1.v3 addi,
    StableHlo.TRef.ternary main_call1.v1 main_call1.v3 (.of main_v41 : StableHlo.TRef sig ⟨S262144x13x1, .i32⟩) main_call1.v4 select,
    StableHlo.TRef.nullary main_call1.c_1 (constantI S1 32 12#32),
    StableHlo.TRef.nullary main_call1.c_2 (constantI S_ 32 0#32),
    StableHlo.TRef.unary main_call1.c_2 main_call1.v5 (broadcastInDim S262144x13x1 ![] bcast_S_S262144x13x1),
    StableHlo.TRef.binary main_call1.v4 main_call1.v5 main_call1.v6 (cmpi .sge),
    StableHlo.TRef.unary main_call1.c_1 main_call1.v7 (broadcastInDim S1x1x1 ![2] bcast_S1_S1x1x1_2),
    StableHlo.TRef.unary main_call1.v7 main_call1.v8 (broadcastInDim S262144x13x1 ![0, 1, 2] bcast_S1x1x1_S262144x13x1_0_1_2),
    StableHlo.TRef.binary main_call1.v4 main_call1.v8 main_call1.v9 (cmpi .sle),
    StableHlo.TRef.binary main_call1.v6 main_call1.v9 main_call1.v10 andi,
    StableHlo.TRef.nullary main_call1.c_3 (constantI S_ 1 1#1),
    StableHlo.TRef.binary main_call1.v10 main_call1.c_3 main_call1.v11 (fun x v => Host.reduce IntOp.andi x v reducesTo_S262144x13x1_S262144x13_d2 h_S_),
    StableHlo.TRef.binary (.of main_v23 : StableHlo.TRef sig ⟨S262144x13x3, .f32⟩) main_call1.v4 main_call1.v12 (fun x i => Host.gather gather_S262144x13x3_S262144x13x1_S262144x13x3_2_1_0_0_1_2_113 x i),
    StableHlo.TRef.unary main_call1.v11 main_call1.v13 (broadcastInDim S262144x13x3 ![0, 1] bcast_S262144x13_S262144x13x3_0_1),
    StableHlo.TRef.nullary main_call1.cst (constant S_ .f32 0x7FC00000#32),
    StableHlo.TRef.unary main_call1.cst main_call1.v14 (broadcastInDim S262144x13x3 ![] bcast_S_S262144x13x3),
    StableHlo.TRef.ternary main_call1.v13 main_call1.v12 main_call1.v14 main_call1.v15 select ]

/-- Operations 74 … 78: the edge. -/
abbrev seg4 : List (HloOp τ sig (Elt F)) :=
  [
    StableHlo.binary main_v42 main_v23 main_v43 (subf : (⟨S262144x13x3, .f32⟩ : BufTy).Contents (Elt F) → (⟨S262144x13x3, .f32⟩ : BufTy).Contents (Elt F) → (⟨S262144x13x3, .f32⟩ : BufTy).Contents (Elt F)),
    StableHlo.unary main_v29 main_v44 (broadcastInDim S262144x13x1 ![0, 1] bcast_S262144x13_S262144x13x1_0_1 : (⟨S262144x13, .i1⟩ : BufTy).Contents (Elt F) → (⟨S262144x13x1, .i1⟩ : BufTy).Contents (Elt F)),
    StableHlo.TRef.unary (.of main_v44 : StableHlo.TRef sig ⟨S262144x13x1, .i1⟩) main_call2.v0 (broadcastInDim S262144x13x3 ![0, 1, 2] bcast_S262144x13x1_S262144x13x3_0_1_2),
    StableHlo.TRef.unary (.of main_cst : StableHlo.TRef sig ⟨S3, .f32⟩) main_call2.v1 (broadcastInDim S262144x13x3 ![2] bcast_S3_S262144x13x3_2),
    StableHlo.TRef.ternary main_call2.v0 (.of main_v43 : StableHlo.TRef sig ⟨S262144x13x3, .f32⟩) main_call2.v1 main_call2.v2 select ]

/-- Operations 79 … 91: the horizontal normal. -/
abbrev seg5 : List (HloOp τ sig (Elt F)) :=
  [
    StableHlo.unary main_v45 main_v46 ((extractStridedSlice S262144x13x1 ![0, 0, 2] · slices_S262144x13x3_S262144x13x1_0_0_2) : (⟨S262144x13x3, .f32⟩ : BufTy).Contents (Elt F) → (⟨S262144x13x1, .f32⟩ : BufTy).Contents (Elt F)),
    StableHlo.reshape main_v46 main_v47 rfl shapeCasts_S262144x13x1_S262144x13,
    StableHlo.unary main_v47 main_v48 (Host.negf : (⟨S262144x13, .f32⟩ : BufTy).Contents (Elt F) → (⟨S262144x13, .f32⟩ : BufTy).Contents (Elt F)),
    StableHlo.unary main_v45 main_v49 ((extractStridedSlice S262144x13x1 ![0, 0, 0] · slices_S262144x13x3_S262144x13x1_0_0_0) : (⟨S262144x13x3, .f32⟩ : BufTy).Contents (Elt F) → (⟨S262144x13x1, .f32⟩ : BufTy).Contents (Elt F)),
    StableHlo.reshape main_v49 main_v50 rfl shapeCasts_S262144x13x1_S262144x13,
    StableHlo.nullary main_cst_4 (constant S_ .f32 0x00000000#32),
    StableHlo.unary main_cst_4 main_v51 (broadcastInDim S262144x13 ![] bcast_S_S262144x13 : (⟨S_, .f32⟩ : BufTy).Contents (Elt F) → (⟨S262144x13, .f32⟩ : BufTy).Contents (Elt F)),
    StableHlo.unary main_v45 main_v52 ((extractStridedSlice S262144x13x1 ![0, 0, 0] · slices_S262144x13x3_S262144x13x1_0_0_0) : (⟨S262144x13x3, .f32⟩ : BufTy).Contents (Elt F) → (⟨S262144x13x1, .f32⟩ : BufTy).Contents (Elt F)),
    StableHlo.reshape main_v52 main_v53 rfl shapeCasts_S262144x13x1_S262144x13,
    StableHlo.unary main_v48 main_v54 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v51 main_v55 (broadcastInDim S262144x13x1 ![0, 1] bcast_S262144x13_S262144x13x1_0_1 : (⟨S262144x13, .f32⟩ : BufTy).Contents (Elt F) → (⟨S262144x13x1, .f32⟩ : BufTy).Contents (Elt F)),
    StableHlo.unary main_v53 main_v56 (broadcastInDim S262144x13x1 ![0, 1] bcast_S262144x13_S262144x13x1_0_1 : (⟨S262144x13, .f32⟩ : BufTy).Contents (Elt F) → (⟨S262144x13x1, .f32⟩ : BufTy).Contents (Elt F)),
    StableHlo.nary ![main_v54, main_v55, main_v56] main_v57 (fun u => concatenate S262144x13x3 2 [⟨S262144x13x1, u 0⟩, ⟨S262144x13x1, u 1⟩, ⟨S262144x13x1, u 2⟩] concatenates_S262144x13x1_S262144x13x1_S262144x13x1_S262144x13x3_d2) ]

/-- Operations 92 … 98: its length and the unit normal. -/
abbrev seg6 : List (HloOp τ sig (Elt F)) :=
  [
    StableHlo.TRef.binary (.of main_v57 : StableHlo.TRef sig ⟨S262144x13x3, .f32⟩) (.of main_v57 : StableHlo.TRef sig ⟨S262144x13x3, .f32⟩) main_call3.v0 mulf,
    StableHlo.TRef.nullary main_call3.cst (constant S_ .f32 0x00000000#32),
    StableHlo.TRef.binary main_call3.v0 main_call3.cst main_call3.v1 (fun x v => Host.reduceAdd x v reducesTo_S262144x13x3_S262144x13_d2 h_S_),
    StableHlo.TRef.unary main_call3.v1 main_call3.v2 (broadcastInDim S262144x13x1 ![0, 1] bcast_S262144x13_S262144x13x1_0_1),
    StableHlo.TRef.unary main_call3.v2 main_call3.v3 Host.sqrt,
    StableHlo.unary main_v58 main_v59 (broadcastInDim S262144x13x3 ![0, 1, 2] bcast_S262144x13x1_S262144x13x3_0_1_2 : (⟨S262144x13x1, .f32⟩ : BufTy).Contents (Elt F) → (⟨S262144x13x3, .f32⟩ : BufTy).Contents (Elt F)),
    StableHlo.binary main_v57 main_v59 main_v60 (Host.divf : (⟨S262144x13x3, .f32⟩ : BufTy).Contents (Elt F) → (⟨S262144x13x3, .f32⟩ : BufTy).Contents (Elt F) → (⟨S262144x13x3, .f32⟩ : BufTy).Contents (Elt F)) ]

/-- Operations 99 … 112: the two masked selections. -/
abbrev seg7 : List (HloOp τ sig (Elt F)) :=
  [
    StableHlo.unary main_v29 main_v61 (broadcastInDim S262144x13x1 ![0, 1] bcast_S262144x13_S262144x13x1_0_1 : (⟨S262144x13, .i1⟩ : BufTy).Contents (Elt F) → (⟨S262144x13x1, .i1⟩ : BufTy).Contents (Elt F)),
    StableHlo.nullary main_cst_5 (constant S_ .f32 0x00000000#32),
    StableHlo.unary main_cst_5 main_v62 (broadcastInDim S262144x13x3 ![] bcast_S_S262144x13x3 : (⟨S_, .f32⟩ : BufTy).Contents (Elt F) → (⟨S262144x13x3, .f32⟩ : BufTy).Contents (Elt F)),
    StableHlo.TRef.unary (.of main_v61 : StableHlo.TRef sig ⟨S262144x13x1, .i1⟩) main_call4.v0 (broadcastInDim S262144x13x3 ![0, 1, 2] bcast_S262144x13x1_S262144x13x3_0_1_2),
    StableHlo.TRef.ternary main_call4.v0 (.of main_v60 : StableHlo.TRef sig ⟨S262144x13x3, .f32⟩) (.of main_v62 : StableHlo.TRef sig ⟨S262144x13x3, .f32⟩) main_call4.v1 select,
    StableHlo.unary main_v24 main_v64 (broadcastInDim S1x13 ![1] bcast_S13_S1x13_1 : (⟨S13, .i32⟩ : BufTy).Contents (Elt F) → (⟨S1x13, .i32⟩ : BufTy).Contents (Elt F)),
    StableHlo.unary main_v64 main_v65 (broadcastInDim S262144x13 ![0, 1] bcast_S1x13_S262144x13_0_1 : (⟨S1x13, .i32⟩ : BufTy).Contents (Elt F) → (⟨S262144x13, .i32⟩ : BufTy).Contents (Elt F)),
    StableHlo.unary main_v25 main_v66 (broadcastInDim S262144x13 ![0, 1] bcast_S262144x1_S262144x13_0_1 : (⟨S262144x1, .i32⟩ : BufTy).Contents (Elt F) → (⟨S262144x13, .i32⟩ : BufTy).Contents (Elt F)),
    StableHlo.binary main_v65 main_v66 main_v67 (cmpi .eq : (⟨S262144x13, .i32⟩ : BufTy).Contents (Elt F) → (⟨S262144x13, .i32⟩ : BufTy).Contents (Elt F) → (⟨S262144x13, .i1⟩ : BufTy).Contents (Elt F)),
    StableHlo.unary main_v67 main_v68 (broadcastInDim S262144x13x1 ![0, 1] bcast_S262144x13_S262144x13x1_0_1 : (⟨S262144x13, .i1⟩ : BufTy).Contents (Elt F) → (⟨S262144x13x1, .i1⟩ : BufTy).Contents (Elt F)),
    StableHlo.unary main_v60 main_v69 ((extractStridedSlice S262144x1x3 ![0, 0, 0] · slices_S262144x13x3_S262144x1x3_0_0_0) : (⟨S262144x13x3, .f32⟩ : BufTy).Contents (Elt F) → (⟨S262144x1x3, .f32⟩ : BufTy).Contents (Elt F)),
    StableHlo.TRef.unary (.of main_v68 : StableHlo.TRef sig ⟨S262144x13x1, .i1⟩) main_call5.v0 (broadcastInDim S262144x13x3 ![0, 1, 2] bcast_S262144x13x1_S262144x13x3_0_1_2),
    StableHlo.TRef.unary (.of main_v69 : StableHlo.TRef sig ⟨S262144x1x3, .f32⟩) main_call5.v1 (broadcastInDim S262144x13x3 ![0, 1, 2] bcast_S262144x1x3_S262144x13x3_0_1_2),
    StableHlo.TRef.ternary main_call5.v0 main_call5.v1 (.of main_v63 : StableHlo.TRef sig ⟨S262144x13x3, .f32⟩) main_call5.v2 select ]

/-- The operations are the seven windows in order. -/
theorem ops_eq : (ops : List (HloOp τ sig (Elt F))) = seg1 ++ (seg2 ++ (seg3 ++ (seg4 ++ (seg5 ++ (seg6 ++ seg7))))) := rfl

/-- The device's contents after the first K windows. -/
def val1 (V0 : Valuation τ sig (Elt F)) : Valuation τ sig (Elt F) := after seg1 V0
def val2 (V0 : Valuation τ sig (Elt F)) : Valuation τ sig (Elt F) := after seg2 (val1 V0)
def val3 (V0 : Valuation τ sig (Elt F)) : Valuation τ sig (Elt F) := after seg3 (val2 V0)
def val4 (V0 : Valuation τ sig (Elt F)) : Valuation τ sig (Elt F) := after seg4 (val3 V0)
def val5 (V0 : Valuation τ sig (Elt F)) : Valuation τ sig (Elt F) := after seg5 (val4 V0)
def val6 (V0 : Valuation τ sig (Elt F)) : Valuation τ sig (Elt F) := after seg6 (val5 V0)
def val7 (V0 : Valuation τ sig (Elt F)) : Valuation τ sig (Elt F) := after seg7 (val6 V0)

theorem after_ops (V0 : Valuation τ sig (Elt F)) : after ops V0 = val7 V0 := by
  rw [ops_eq]; simp only [after_app]; rfl

/-! ### Window 1 -/

set_option maxHeartbeats 1000000 in
theorem val1_v23 (V0 : Valuation τ sig (Elt F)) :
    val1 V0 (no_index (Proc.devRef .tc main_v23)) = v23 (V0 (Proc.devRef .tc main_arg0)) (V0 (Proc.devRef .tc main_arg2)) := by
  unfold val1
  after_results
  rfl
set_option maxHeartbeats 1000000 in
theorem val1_cst (V0 : Valuation τ sig (Elt F)) :
    val1 V0 (no_index (Proc.devRef .tc main_cst)) = cst3 (F := F) := by
  unfold val1
  after_results_simp
  rfl
set_option maxHeartbeats 1000000 in
theorem val1_arg1 (V0 : Valuation τ sig (Elt F)) :
    val1 V0 (no_index (Proc.devRef .tc main_arg1)) = (V0 (Proc.devRef .tc main_arg1)) := by
  unfold val1
  after_results_simp

/-! ### Window 2 -/

attribute [local irreducible] Host.reduce Host.gather Host.reduceAdd in
set_option maxHeartbeats 1000000 in
theorem val2_v41 (V0 : Valuation τ sig (Elt F)) :
    val2 V0 (no_index (Proc.devRef .tc main_v41)) = v41 (V0 (Proc.devRef .tc main_arg1)) := by
  unfold val2
  after_results_simp
  simp only [val1_arg1, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

attribute [local irreducible] Host.reduce Host.gather Host.reduceAdd in
set_option maxHeartbeats 1000000 in
theorem val2_v29 (V0 : Valuation τ sig (Elt F)) :
    val2 V0 (no_index (Proc.devRef .tc main_v29)) = v29 (V0 (Proc.devRef .tc main_arg1)) := by
  unfold val2
  after_results_simp
  simp only [val1_arg1, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

attribute [local irreducible] Host.reduce Host.gather Host.reduceAdd in
set_option maxHeartbeats 1000000 in
theorem val2_v24 (V0 : Valuation τ sig (Elt F)) :
    val2 V0 (no_index (Proc.devRef .tc main_v24)) = v24 := by
  unfold val2
  after_results_simp
  rfl

attribute [local irreducible] Host.reduce Host.gather Host.reduceAdd in
set_option maxHeartbeats 1000000 in
theorem val2_v25 (V0 : Valuation τ sig (Elt F)) :
    val2 V0 (no_index (Proc.devRef .tc main_v25)) = v25 (V0 (Proc.devRef .tc main_arg1)) := by
  unfold val2
  after_results_simp
  simp only [val1_arg1, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

theorem val2_v23 (V0 : Valuation τ sig (Elt F)) :
    val2 V0 (no_index (Proc.devRef .tc main_v23)) = v23 (V0 (Proc.devRef .tc main_arg0)) (V0 (Proc.devRef .tc main_arg2)) := by
  unfold val2
  after_results_simp
  exact val1_v23 V0

theorem val2_cst (V0 : Valuation τ sig (Elt F)) :
    val2 V0 (no_index (Proc.devRef .tc main_cst)) = cst3 (F := F) := by
  unfold val2
  after_results_simp
  exact val1_cst V0

/-! ### Window 3 -/

attribute [local irreducible] Host.reduce Host.gather Host.reduceAdd in
set_option maxHeartbeats 1000000 in
theorem val3_v42 (V0 : Valuation τ sig (Elt F)) :
    val3 V0 (no_index (Proc.devRef .tc main_v42)) = v42 (V0 (Proc.devRef .tc main_arg0)) (V0 (Proc.devRef .tc main_arg1)) (V0 (Proc.devRef .tc main_arg2)) := by
  unfold val3
  after_results_simp
  simp only [val2_v23, val2_v41, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

theorem val3_v23 (V0 : Valuation τ sig (Elt F)) :
    val3 V0 (no_index (Proc.devRef .tc main_v23)) = v23 (V0 (Proc.devRef .tc main_arg0)) (V0 (Proc.devRef .tc main_arg2)) := by
  unfold val3
  after_results_simp
  exact val2_v23 V0

theorem val3_cst (V0 : Valuation τ sig (Elt F)) :
    val3 V0 (no_index (Proc.devRef .tc main_cst)) = cst3 (F := F) := by
  unfold val3
  after_results_simp
  exact val2_cst V0

theorem val3_v29 (V0 : Valuation τ sig (Elt F)) :
    val3 V0 (no_index (Proc.devRef .tc main_v29)) = v29 (V0 (Proc.devRef .tc main_arg1)) := by
  unfold val3
  after_results_simp
  exact val2_v29 V0

theorem val3_v24 (V0 : Valuation τ sig (Elt F)) :
    val3 V0 (no_index (Proc.devRef .tc main_v24)) = v24 := by
  unfold val3
  after_results_simp
  exact val2_v24 V0

theorem val3_v25 (V0 : Valuation τ sig (Elt F)) :
    val3 V0 (no_index (Proc.devRef .tc main_v25)) = v25 (V0 (Proc.devRef .tc main_arg1)) := by
  unfold val3
  after_results_simp
  exact val2_v25 V0

/-! ### Window 4 -/

attribute [local irreducible] Host.reduce Host.gather Host.reduceAdd in
set_option maxHeartbeats 1000000 in
theorem val4_v45 (V0 : Valuation τ sig (Elt F)) :
    val4 V0 (no_index (Proc.devRef .tc main_v45)) = v45 (V0 (Proc.devRef .tc main_arg0)) (V0 (Proc.devRef .tc main_arg1)) (V0 (Proc.devRef .tc main_arg2)) := by
  unfold val4
  after_results_simp
  simp only [val3_v42, val3_v23, val3_v29, val3_cst, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

theorem val4_v29 (V0 : Valuation τ sig (Elt F)) :
    val4 V0 (no_index (Proc.devRef .tc main_v29)) = v29 (V0 (Proc.devRef .tc main_arg1)) := by
  unfold val4
  after_results_simp
  exact val3_v29 V0

theorem val4_v24 (V0 : Valuation τ sig (Elt F)) :
    val4 V0 (no_index (Proc.devRef .tc main_v24)) = v24 := by
  unfold val4
  after_results_simp
  exact val3_v24 V0

theorem val4_v25 (V0 : Valuation τ sig (Elt F)) :
    val4 V0 (no_index (Proc.devRef .tc main_v25)) = v25 (V0 (Proc.devRef .tc main_arg1)) := by
  unfold val4
  after_results_simp
  exact val3_v25 V0

/-! ### Window 5 -/

set_option maxHeartbeats 1000000 in
theorem val5_v57 (V0 : Valuation τ sig (Elt F)) :
    val5 V0 (no_index (Proc.devRef .tc main_v57)) = v57 (V0 (Proc.devRef .tc main_arg0)) (V0 (Proc.devRef .tc main_arg1)) (V0 (Proc.devRef .tc main_arg2)) := by
  unfold val5
  after_results_simp
  dsimp only [Matrix.cons_val]
  results_rw
  have h45 : val4 V0 (Proc.devRef .tc main_v45) = v45 (V0 (Proc.devRef .tc main_arg0)) (V0 (Proc.devRef .tc main_arg1)) (V0 (Proc.devRef .tc main_arg2)) := val4_v45 V0
  rw [h45]
  rfl
theorem val5_v29 (V0 : Valuation τ sig (Elt F)) :
    val5 V0 (no_index (Proc.devRef .tc main_v29)) = v29 (V0 (Proc.devRef .tc main_arg1)) := by
  unfold val5
  after_results_simp
  exact val4_v29 V0

theorem val5_v24 (V0 : Valuation τ sig (Elt F)) :
    val5 V0 (no_index (Proc.devRef .tc main_v24)) = v24 := by
  unfold val5
  after_results_simp
  exact val4_v24 V0

theorem val5_v25 (V0 : Valuation τ sig (Elt F)) :
    val5 V0 (no_index (Proc.devRef .tc main_v25)) = v25 (V0 (Proc.devRef .tc main_arg1)) := by
  unfold val5
  after_results_simp
  exact val4_v25 V0

/-! ### Window 6 -/

attribute [local irreducible] Host.reduce Host.gather Host.reduceAdd in
set_option maxHeartbeats 1000000 in
theorem val6_v60 (V0 : Valuation τ sig (Elt F)) :
    val6 V0 (no_index (Proc.devRef .tc main_v60)) = v60 (V0 (Proc.devRef .tc main_arg0)) (V0 (Proc.devRef .tc main_arg1)) (V0 (Proc.devRef .tc main_arg2)) := by
  unfold val6
  after_results_simp
  simp only [val5_v57, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

theorem val6_v29 (V0 : Valuation τ sig (Elt F)) :
    val6 V0 (no_index (Proc.devRef .tc main_v29)) = v29 (V0 (Proc.devRef .tc main_arg1)) := by
  unfold val6
  after_results_simp
  exact val5_v29 V0

theorem val6_v24 (V0 : Valuation τ sig (Elt F)) :
    val6 V0 (no_index (Proc.devRef .tc main_v24)) = v24 := by
  unfold val6
  after_results_simp
  exact val5_v24 V0

theorem val6_v25 (V0 : Valuation τ sig (Elt F)) :
    val6 V0 (no_index (Proc.devRef .tc main_v25)) = v25 (V0 (Proc.devRef .tc main_arg1)) := by
  unfold val6
  after_results_simp
  exact val5_v25 V0

/-! ### Window 7 -/

attribute [local irreducible] Host.reduce Host.gather Host.reduceAdd in
set_option maxHeartbeats 1000000 in
theorem val7_v70 (V0 : Valuation τ sig (Elt F)) :
    val7 V0 (no_index (Proc.devRef .tc main_v70)) = v70 (V0 (Proc.devRef .tc main_arg0)) (V0 (Proc.devRef .tc main_arg1)) (V0 (Proc.devRef .tc main_arg2)) := by
  unfold val7
  after_results_simp
  simp only [val6_v60, val6_v29, val6_v24, val6_v25, ofBuf_toBuf, ofBuf_v35, ofBuf_c_3, ofBuf_v39, ofBuf_v23, ofBuf_v41, ofBuf_v44, ofBuf_v43, ofBuf_cst, ofBuf_v57, ofBuf_v61, ofBuf_v60, ofBuf_v62, ofBuf_v68, ofBuf_v69, ofBuf_v63, toBuf_v40, toBuf_v42, toBuf_v45, toBuf_v58, toBuf_v63, toBuf_v70]
  rfl

/-! ## The result and the arguments -/

/-- The result buffer ends at the reference's term of the three arguments' contents. -/
theorem out_eq (V : Valuation τ sig (Elt F)) :
    after ops V (main_v70 : DevRef τ sig)
      = refOut (V (main_arg0 : DevRef τ sig)) (V (main_arg1 : DevRef τ sig)) (V (main_arg2 : DevRef τ sig)) := by
  rw [after_ops]
  exact val7_v70 V

set_option maxHeartbeats 2000000 in
/-- No operation writes an argument. -/
theorem arg0_eq (V : Valuation τ sig (Elt F)) :
    after ops V (main_arg0 : DevRef τ sig) = V (main_arg0 : DevRef τ sig) := by
  after_results_simp

set_option maxHeartbeats 2000000 in
theorem arg1_eq (V : Valuation τ sig (Elt F)) :
    after ops V (main_arg1 : DevRef τ sig) = V (main_arg1 : DevRef τ sig) := by
  after_results_simp

set_option maxHeartbeats 2000000 in
theorem arg2_eq (V : Valuation τ sig (Elt F)) :
    after ops V (main_arg2 : DevRef τ sig) = V (main_arg2 : DevRef τ sig) := by
  after_results_simp

end Cert.ReferenceIdeal.Hand

end
-- ==== Proof.RefRead.lean ====
import proofs.«403655_j28733331210359_3_alg».proof.Proof.RefTerm
import proofs.«403655_j28733331210359_3_alg».proof.Proof.CornerRow
import Idealize.ShloMosaic.Lib.ValueIdx
import Idealize.ShloMosaic.Lib.IdealHost
import Idealize.ShloMosaic.Lib.Pipeline.Value
import Idealize.ShloMosaic.PureOps.Reduce
import Idealize.ShloMosaic.PureOps.Ideal.Laws

/-!
# The reference read at an index

At the ideal values, the reference's result at sample b, corner j, component k is the row
specification's output for that sample. Stage by stage:

* longitude and latitude are the two slices of the input along its last axis;
* the point on the unit sphere is (cos lat · sin lon, sin lat, cos lat · cos lon), stacked along the
  last axis;
* the scale is -(h · r) / sin lat, repeated over the three components, and the point on the plane
  is the sphere point times the scale;
* the next corner's index is 0 where j + 1 = n and min (j + 1) 12 elsewhere: as a word it is the
  word of a slot in [0, 12], so the wrap of a negative index leaves it unchanged, the range test
  holds, and the select on the range test takes the gathered value;
* the gather reads the operand at (b, i, k), i the index read signed and clamped into [0, 12],
  which for the word of a slot is the slot;
* the edge is the next point minus this point where j < n and (1, 0, 0) elsewhere;
* the normal is (-e_z, 0, e_x); its length is the square root of 0 + (e_z² + 0 · 0 + e_x²), which
  is the square root of e_z² + e_x²;
* the unit normal divides each component by the length;
* the output is the unit normal where j < n and 0 elsewhere, then row 0's unit normal where j = n.
-/

noncomputable section

open scoped BigOperators

namespace Cert.ReferenceIdeal.Hand

open Idealize.ShloMosaic Idealize.SL.Sem Idealize.ShloMosaic.ValueIdx
open Cert.ReferenceIdeal Cert.ReferenceIdeal.Gen

/-! ## Layout operations read at an index

Each lemma reads one slice, reshape, broadcast or concatenation of the program's literal shapes
at an index given by its coordinates. -/

section Layout
variable {α : Type}

/-- A slice of width one along the last axis, at offset c, reads the source at last coordinate c. -/
theorem slice_last_apply {m : Nat} (c : Nat) (hc : c < m) (x : (⟨3, ![262144, 13, m]⟩ : Shape).Idx → α)
    (h : (⟨3, ![262144, 13, m]⟩ : Shape).Slices ![0, 0, c] S262144x13x1) (b : Fin 262144) (j : Fin 13) :
    extractStridedSlice S262144x13x1 ![0, 0, c] x h (ix3 b j (0 : Fin 1)) = x (ix3 b j ⟨c, hc⟩) := by
  refine extractStridedSlice_apply _ _ _ _ _ fun a => ?_
  match a with
  | ⟨0, _⟩ => exact (Nat.zero_add _).symm
  | ⟨1, _⟩ => exact (Nat.zero_add _).symm
  | ⟨2, _⟩ => rfl

/-- The slice of row 0 along the middle axis reads the source at middle coordinate 0. -/
theorem slice_row0_apply (x : S262144x13x3.Idx → α) (h : S262144x13x3.Slices ![0, 0, 0] S262144x1x3)
    (b : Fin 262144) (k : Fin 3) :
    extractStridedSlice S262144x1x3 ![0, 0, 0] x h (ix3 b (0 : Fin 1) k) = x (ix3 b (0 : Fin 13) k) := by
  refine extractStridedSlice_apply _ _ _ _ _ fun a => ?_
  match a with
  | ⟨0, _⟩ => exact (Nat.zero_add _).symm
  | ⟨1, _⟩ => rfl
  | ⟨2, _⟩ => exact (Nat.zero_add _).symm

/-- Dropping the trailing unit axis. -/
theorem cast_drop_apply (x : S262144x13x1.Idx → α) (h : S262144x13x1.ShapeCasts S262144x13)
    (b : Fin 262144) (j : Fin 13) :
    shapeCast S262144x13 x h (ix2 b j) = x (ix3 b j (0 : Fin 1)) := by
  refine shapeCast_apply _ _ _ _ ?_
  rw [Shape.rowMajor_val_three, Shape.rowMajor_val_two]
  show (b.val * 13 + j.val) * 1 + 0 = b.val * 13 + j.val
  omega

/-- Adding a trailing unit axis. -/
theorem bc_2_3u_apply (x : S262144x13.Idx → α) (h : S262144x13.BroadcastsInDim S262144x13x1 ![0, 1])
    (b : Fin 262144) (j : Fin 13) (z : Fin 1) :
    broadcastInDim S262144x13x1 ![0, 1] h x (ix3 b j z) = x (ix2 b j) := by
  refine broadcastInDim_apply _ _ _ _ _ fun a => ?_
  match a with
  | ⟨0, _⟩ => rfl
  | ⟨1, _⟩ => rfl

/-- Repeating along a trailing axis of three. -/
theorem bc_2_3_apply (x : S262144x13.Idx → α) (h : S262144x13.BroadcastsInDim S262144x13x3 ![0, 1])
    (b : Fin 262144) (j : Fin 13) (k : Fin 3) :
    broadcastInDim S262144x13x3 ![0, 1] h x (ix3 b j k) = x (ix2 b j) := by
  refine broadcastInDim_apply _ _ _ _ _ fun a => ?_
  match a with
  | ⟨0, _⟩ => rfl
  | ⟨1, _⟩ => rfl

/-- Repeating the trailing unit axis three times. -/
theorem bc_3u_3_apply (x : S262144x13x1.Idx → α) (h : S262144x13x1.BroadcastsInDim S262144x13x3 ![0, 1, 2])
    (b : Fin 262144) (j : Fin 13) (k : Fin 3) :
    broadcastInDim S262144x13x3 ![0, 1, 2] h x (ix3 b j k) = x (ix3 b j (0 : Fin 1)) := by
  refine broadcastInDim_apply _ _ _ _ _ fun a => ?_
  match a with
  | ⟨0, _⟩ => rfl
  | ⟨1, _⟩ => rfl
  | ⟨2, _⟩ => rfl

/-- A per-sample value given two unit axes. -/
theorem bc_1_3uu_apply (x : S262144.Idx → α) (h : S262144.BroadcastsInDim S262144x1x1 ![0])
    (b : Fin 262144) (y z : Fin 1) :
    broadcastInDim S262144x1x1 ![0] h x (ix3 b y z) = x (ix1 b) := by
  refine broadcastInDim_apply _ _ _ _ _ fun a => ?_
  match a with
  | ⟨0, _⟩ => rfl

/-- A per-sample value repeated over the thirteen corners. -/
theorem bc_3uu_3u_apply (x : S262144x1x1.Idx → α) (h : S262144x1x1.BroadcastsInDim S262144x13x1 ![0, 1, 2])
    (b : Fin 262144) (j : Fin 13) (z : Fin 1) :
    broadcastInDim S262144x13x1 ![0, 1, 2] h x (ix3 b j z) = x (ix3 b (0 : Fin 1) (0 : Fin 1)) := by
  refine broadcastInDim_apply _ _ _ _ _ fun a => ?_
  match a with
  | ⟨0, _⟩ => rfl
  | ⟨1, _⟩ => rfl
  | ⟨2, _⟩ => rfl

/-- A per-sample word given one unit axis. -/
theorem bc_1_2u_apply (x : S262144.Idx → α) (h : S262144.BroadcastsInDim S262144x1 ![0])
    (b : Fin 262144) (z : Fin 1) :
    broadcastInDim S262144x1 ![0] h x (ix2 b z) = x (ix1 b) := by
  refine broadcastInDim_apply _ _ _ _ _ fun a => ?_
  match a with
  | ⟨0, _⟩ => rfl

/-- A per-sample word repeated over the thirteen corners. -/
theorem bc_2u_2_apply (x : S262144x1.Idx → α) (h : S262144x1.BroadcastsInDim S262144x13 ![0, 1])
    (b : Fin 262144) (j : Fin 13) :
    broadcastInDim S262144x13 ![0, 1] h x (ix2 b j) = x (ix2 b (0 : Fin 1)) := by
  refine broadcastInDim_apply _ _ _ _ _ fun a => ?_
  match a with
  | ⟨0, _⟩ => rfl
  | ⟨1, _⟩ => rfl

/-- A per-corner word given a leading unit axis. -/
theorem bc_13_1x13_apply (x : S13.Idx → α) (h : S13.BroadcastsInDim S1x13 ![1]) (z : Fin 1) (j : Fin 13) :
    broadcastInDim S1x13 ![1] h x (ix2 z j) = x (ix1 j) := by
  refine broadcastInDim_apply _ _ _ _ _ fun a => ?_
  match a with
  | ⟨0, _⟩ => rfl

/-- A per-corner word repeated over the samples. -/
theorem bc_1x13_2_apply (x : S1x13.Idx → α) (h : S1x13.BroadcastsInDim S262144x13 ![0, 1])
    (b : Fin 262144) (j : Fin 13) :
    broadcastInDim S262144x13 ![0, 1] h x (ix2 b j) = x (ix2 (0 : Fin 1) j) := by
  refine broadcastInDim_apply _ _ _ _ _ fun a => ?_
  match a with
  | ⟨0, _⟩ => rfl
  | ⟨1, _⟩ => rfl

/-- A per-corner word repeated over the samples, in one step. -/
theorem bc_13_2_apply (x : S13.Idx → α) (h : S13.BroadcastsInDim S262144x13 ![1])
    (b : Fin 262144) (j : Fin 13) :
    broadcastInDim S262144x13 ![1] h x (ix2 b j) = x (ix1 j) := by
  refine broadcastInDim_apply _ _ _ _ _ fun a => ?_
  match a with
  | ⟨0, _⟩ => rfl

/-- A per-component value repeated over samples and corners. -/
theorem bc_3_3_apply (x : S3.Idx → α) (h : S3.BroadcastsInDim S262144x13x3 ![2])
    (b : Fin 262144) (j : Fin 13) (k : Fin 3) :
    broadcastInDim S262144x13x3 ![2] h x (ix3 b j k) = x (ix1 k) := by
  refine broadcastInDim_apply _ _ _ _ _ fun a => ?_
  match a with
  | ⟨0, _⟩ => rfl

/-- One row repeated over the thirteen corners. -/
theorem bc_row_3_apply (x : S262144x1x3.Idx → α) (h : S262144x1x3.BroadcastsInDim S262144x13x3 ![0, 1, 2])
    (b : Fin 262144) (j : Fin 13) (k : Fin 3) :
    broadcastInDim S262144x13x3 ![0, 1, 2] h x (ix3 b j k) = x (ix3 b (0 : Fin 1) k) := by
  refine broadcastInDim_apply _ _ _ _ _ fun a => ?_
  match a with
  | ⟨0, _⟩ => rfl
  | ⟨1, _⟩ => rfl
  | ⟨2, _⟩ => rfl

end Layout

/-! ## Three unit-width pieces stacked along the last axis -/

section Concat
variable {α : Type}

/-- Three pieces of last extent one, stacked along the last axis, read at last coordinate k: piece k. -/
theorem concat3_apply (x0 x1 x2 : S262144x13x1.Idx → α)
    (h : Shape.Concatenates [S262144x13x1, S262144x13x1, S262144x13x1] S262144x13x3 2)
    (b : Fin 262144) (j : Fin 13) (k : Fin 3) :
    concatenate S262144x13x3 2 [⟨S262144x13x1, x0⟩, ⟨S262144x13x1, x1⟩, ⟨S262144x13x1, x2⟩] h (ix3 b j k)
      = (![x0, x1, x2] k) (ix3 b j (0 : Fin 1)) := by
  have key := concatenate_ofFn_apply (t := S262144x13x3) (s₁ := S262144x13x1) (2 : Fin 3) (N := 3) ![x0, x1, x2] h rfl 1 rfl
    (ix3 b j k) k (Nat.div_one _) (ix3 b j (0 : Fin 1)) (Nat.mod_one _).symm
    (fun c hc => by
      match c with
      | ⟨0, _⟩ => rfl
      | ⟨1, _⟩ => rfl
      | ⟨2, _⟩ => exact absurd rfl hc)
  exact key

end Concat

/-! ## The two reductions over the last axis -/

/-- The sum over the three components, from the initial value. -/
theorem reduce_sum3_apply (x : FVec Ideal S262144x13x3 .f32) (init : FVec Ideal S_ .f32)
    (h : S262144x13x3.ReducesTo [2] S262144x13) (hu : 0 < S_.numel) (b : Fin 262144) (j : Fin 13) :
    Host.reduceAdd x init h hu (ix2 b j)
      = init ix0 + (x (ix3 b j (0 : Fin 3)) + x (ix3 b j (1 : Fin 3)) + x (ix3 b j (2 : Fin 3))) := by
  have hr : S262144x13x3.Reduces [2] S262144x13 := by decide
  rw [hostReduceAdd_apply, Ideal.hostReduceAdd_single h hr]
  have e : ∀ k : Fin 3, hr.lift (ix2 b j) k = ix3 b j k := fun k => by
    funext a
    match a with
    | ⟨0, _⟩ => rfl
    | ⟨1, _⟩ => rfl
    | ⟨2, _⟩ => rfl
  show init _ + ∑ k : Fin 3, x (hr.lift (ix2 b j) k) = _
  rw [Fin.sum_univ_three, e, e, e, eq_ix0 (Shape.Idx.first hu)]

/-- The conjunction over a last axis of extent one, from the initial bit 1, is the one bit. -/
theorem reduce_and1_apply (p : IVec S262144x13x1 1)
    (h : S262144x13x1.ReducesTo [2] S262144x13) (hu : 0 < S_.numel) (b : Fin 262144) (j : Fin 13)
    (hp : p (ix3 b j (0 : Fin 1)) = 1#1) :
    Host.reduce IntOp.andi p (constantI S_ 1 1#1) h hu (ix2 b j) = 1#1 := by
  have hr : S262144x13x1.Reduces [2] S262144x13 := by decide
  rw [Host.reduce_eq_fold_single IntOp.andi p _ h hr hu]
  have key : ∀ f : Fin 1 → BitVec 1,
      (Finset.univ : Finset (Fin 1)).fold IntOp.andi 1#1 f = IntOp.andi (f 0) 1#1 := by
    intro f; rw [Finset.univ_unique, Finset.fold_singleton]; rfl
  have e : hr.lift (ix2 b j) (0 : Fin 1) = ix3 b j (0 : Fin 1) := by
    funext a
    match a with
    | ⟨0, _⟩ => rfl
    | ⟨1, _⟩ => rfl
    | ⟨2, _⟩ => rfl
  refine (key (p ∘ hr.lift (ix2 b j))).trans ?_
  show IntOp.andi (p (hr.lift (ix2 b j) (0 : Fin 1))) 1#1 = 1#1
  rw [e, hp]
  rfl

/-! ## Words: the corner index, its successor, and the wrap and range tests of the gather -/

section Words
open Cert.CornerRow

/-- A select between two values of a function is the function at the select. -/
theorem select_comm {α β : Type} (f : α → β) (c : BitVec 1) (a a' : α) :
    Scalar.select c (f a) (f a') = f (Scalar.select c a a') := by
  unfold Scalar.select; split <;> rfl

/-- The next corner's slot: 0 where j + 1 = n, else min (j + 1) 12. -/
def nx (n : BitVec 32) (j : Fin 13) : Fin 13 := Scalar.select (isLast n j) (0 : Fin 13) (clampNext j)

/-- min (j + 1) 12 on words is the word of the clamped successor. -/
theorem minsi_word (j : Fin 13) : IntOp.minsi (word j + 1#32) 12#32 = word (clampNext j) := by
  revert j; decide
/-- A slot's word is not negative. -/
theorem word_not_neg (i : Fin 13) : IntOp.cmpi .slt (word i) 0#32 = 0#1 := by revert i; decide
theorem word_ge_zero (i : Fin 13) : IntOp.cmpi .sge (word i) 0#32 = 1#1 := by revert i; decide
theorem word_le_twelve (i : Fin 13) : IntOp.cmpi .sle (word i) 12#32 = 1#1 := by revert i; decide
/-- Read signed and clamped into [0, 12], a slot's word is the slot. -/
theorem word_clamp (i : Fin 13) : min (word i).toInt.toNat 12 = i.val := by revert i; decide
theorem word_zero : word (0 : Fin 13) = 0#32 := rfl

end Words

/-! ## The batched gather read at an index

Operand of shape (samples, 13, 3), indices of shape (samples, 13, 1); axis 0 is the batching axis
of both, axis 1 of the operand is collapsed and indexed, axis 2 is the offset axis with slice
extent 3. The result at (b, j, k) is the operand at (b, i, k), i the index at (b, j, 0) read
signed and clamped into [0, 12]. -/

section Gather
variable {α : Type}

abbrev gd := gather_S262144x13x3_S262144x13x1_S262144x13x3_2_1_0_0_1_2_113

theorem gd_ax0 (idx : IVec S262144x13x1 32) (b : Fin 262144) (j : Fin 13) (k : Fin 3) :
    gd.start (ix3 b j k) idx 0 + gd.batchCoord (ix3 b j k) 0 + gd.offCoord (ix3 b j k) 0 = b.val := by
  rw [GatherDims.start_batching _ _ _ _ (by decide),
    GatherDims.offCoord_eq_zero _ _ _ (fun h => ((GatherDims.mem_sKept _ _).mp h).2 (by decide))]
  simp only [Nat.zero_add, Nat.add_zero]
  unfold GatherDims.batchCoord
  rw [dif_pos (by decide)]
  rfl

theorem gd_ax2 (idx : IVec S262144x13x1 32) (b : Fin 262144) (j : Fin 13) (k : Fin 3) :
    gd.start (ix3 b j k) idx 2 + gd.batchCoord (ix3 b j k) 2 + gd.offCoord (ix3 b j k) 2 = k.val := by
  rw [GatherDims.batchCoord_eq_zero _ _ _ (by decide)]
  unfold GatherDims.start
  rw [dif_neg (by decide)]
  simp only [Nat.zero_add, Nat.add_zero]
  unfold GatherDims.offCoord
  rw [dif_pos (by decide)]
  rfl

theorem gd_ax1 (idx : IVec S262144x13x1 32) (b : Fin 262144) (j : Fin 13) (k : Fin 3) :
    gd.start (ix3 b j k) idx 1 + gd.batchCoord (ix3 b j k) 1 + gd.offCoord (ix3 b j k) 1
      = min (idx (ix3 b j (0 : Fin 1))).toInt.toNat 12 := by
  rw [GatherDims.batchCoord_eq_zero _ _ _ (by decide),
    GatherDims.offCoord_eq_zero _ _ _ (by decide)]
  simp only [Nat.add_zero]
  unfold GatherDims.start
  rw [dif_pos (by decide)]
  have hsi : gd.siIdx (ix3 b j k) ⟨List.idxOf (1 : Fin 3) gd.startIndexMap,
      List.idxOf_lt_length_iff.2 (by decide)⟩ = ix3 b j (0 : Fin 1) := by
    funext c; refine Fin.ext ?_
    match c with
    | ⟨0, _⟩ => rfl
    | ⟨1, _⟩ => rfl
    | ⟨2, _⟩ => rfl
  rw [hsi]
  rfl

theorem gather_apply (x : S262144x13x3.Idx → α) (idx : IVec S262144x13x1 32)
    (b : Fin 262144) (j : Fin 13) (k : Fin 3) (i : Fin 13)
    (hi : min (idx (ix3 b j (0 : Fin 1))).toInt.toNat 12 = i.val) :
    Host.gather gd x idx (ix3 b j k) = x (ix3 b i k) := by
  unfold Host.gather
  congr 1
  funext a
  refine Fin.ext ?_
  match a with
  | ⟨0, _⟩ => exact gd_ax0 idx b j k
  | ⟨1, _⟩ => exact (gd_ax1 idx b j k).trans hi
  | ⟨2, _⟩ => exact gd_ax2 idx b j k

end Gather

/-! ## The stages read at an index, at the ideal values -/

section Stages
open Cert.CornerRow
variable (g : FVec Ideal S262144x13x2 .f32) (nm : IVec S262144 32) (rt : FVec Ideal S262144 .f32)
variable (b : Fin 262144) (j : Fin 13)

local notation "LON" => (fun j' : Fin 13 => g (ix3 b j' (0 : Fin 2)))
local notation "LAT" => (fun j' : Fin 13 => g (ix3 b j' (1 : Fin 2)))
local notation "NN" => nm (ix1 b)
local notation "RR" => rt (ix1 b)

/-- Longitude and latitude are the two slices of the input. -/
theorem v1_apply : v1 g (ix2 b j) = g (ix3 b j (0 : Fin 2)) :=
  (cast_drop_apply _ _ b j).trans (slice_last_apply 0 (by decide) g _ b j)
theorem v3_apply : v3 g (ix2 b j) = g (ix3 b j (1 : Fin 2)) :=
  (cast_drop_apply _ _ b j).trans (slice_last_apply 1 (by decide) g _ b j)

/-- The point on the unit sphere, component by component. -/
theorem v14_apply0 : v14 g (ix3 b j (0 : Fin 3))
    = Ideal.cos (g (ix3 b j (1 : Fin 2))) * Ideal.sin (g (ix3 b j (0 : Fin 2))) := by
  unfold v14
  rw [concat3_apply]
  show v11 g (ix3 b j (0 : Fin 1)) = _
  unfold v11
  rw [bc_2_3u_apply]
  show Ideal.cos (v3 g (ix2 b j)) * Ideal.sin (v1 g (ix2 b j)) = _
  rw [v1_apply, v3_apply]
theorem v14_apply1 : v14 g (ix3 b j (1 : Fin 3)) = Ideal.sin (g (ix3 b j (1 : Fin 2))) := by
  unfold v14
  rw [concat3_apply]
  show v12 g (ix3 b j (0 : Fin 1)) = _
  unfold v12
  rw [bc_2_3u_apply]
  show Ideal.sin (v3 g (ix2 b j)) = _
  rw [v3_apply]
theorem v14_apply2 : v14 g (ix3 b j (2 : Fin 3))
    = Ideal.cos (g (ix3 b j (1 : Fin 2))) * Ideal.cos (g (ix3 b j (0 : Fin 2))) := by
  unfold v14
  rw [concat3_apply]
  show v13 g (ix3 b j (0 : Fin 1)) = _
  unfold v13
  rw [bc_2_3u_apply]
  show Ideal.cos (v3 g (ix2 b j)) * Ideal.cos (v1 g (ix2 b j)) = _
  rw [v1_apply, v3_apply]

/-- The scale -(h · r) / sin lat. -/
theorem v21_apply : v21 g rt (ix3 b j (0 : Fin 1)) = scale LAT RR j := by
  have h20 : v20 rt (ix3 b j (0 : Fin 1)) = -(height * RR) := by
    unfold v20
    rw [bc_3uu_3u_apply]
    show -(height * v15 rt (ix3 b (0 : Fin 1) (0 : Fin 1))) = _
    unfold v15
    rw [bc_1_3uu_apply]
  have h19 : v19 g (ix3 b j (0 : Fin 1)) = Ideal.sin (g (ix3 b j (1 : Fin 2))) :=
    (slice_last_apply 1 (by decide) (v14 g) _ b j).trans (v14_apply1 g b j)
  show Ideal.div (v20 rt (ix3 b j (0 : Fin 1))) (v19 g (ix3 b j (0 : Fin 1))) = _
  rw [h20, h19]
  rfl

/-- The point on the plane: the sphere point times the scale. -/
theorem v23_apply (k : Fin 3) : v23 g rt (ix3 b j k) = v14 g (ix3 b j k) * scale LAT RR j := by
  show v14 g (ix3 b j k) * v22 g rt (ix3 b j k) = _
  unfold v22
  rw [bc_3u_3_apply, v21_apply]
theorem v23_apply0 : v23 g rt (ix3 b j (0 : Fin 3)) = px LON LAT RR j := by
  rw [v23_apply, v14_apply0]; rfl
theorem v23_apply2 : v23 g rt (ix3 b j (2 : Fin 3)) = pz LON LAT RR j := by
  rw [v23_apply, v14_apply2]; rfl

/-- The corner index and the count, repeated over samples and corners. -/
theorem iotaB_apply (h1 : S1x13.BroadcastsInDim S262144x13 ![0, 1]) (h2 : S13.BroadcastsInDim S1x13 ![1]) :
    broadcastInDim S262144x13 ![0, 1] h1 (broadcastInDim S1x13 ![1] h2 v24) (ix2 b j) = word j := by
  rw [bc_1x13_2_apply, bc_13_1x13_apply]; rfl
theorem nmB_apply (h1 : S262144x1.BroadcastsInDim S262144x13 ![0, 1]) :
    broadcastInDim S262144x13 ![0, 1] h1 (v25 nm) (ix2 b j) = NN := by
  rw [bc_2u_2_apply]; unfold v25; rw [bc_1_2u_apply]

/-- The three comparisons. -/
theorem v29_apply : v29 nm (ix2 b j) = isEdge NN j := by
  show IntOp.cmpi .slt (v27 (ix2 b j)) (v28 nm (ix2 b j)) = IntOp.cmpi .slt (word j) NN
  rw [show v27 (ix2 b j) = word j from iotaB_apply b j _ _, show v28 nm (ix2 b j) = NN from nmB_apply nm b j _]
theorem v35_apply : v35 nm (ix2 b j) = isLast NN j := by
  have h33 : v33 (ix2 b j) = word j + 1#32 := by
    unfold v33
    rw [bc_1x13_2_apply]
    show IntOp.addi (v30 (ix2 (0 : Fin 1) j)) 1#32 = _
    unfold v30
    rw [bc_13_1x13_apply]; rfl
  show IntOp.cmpi .eq (v33 (ix2 b j)) (v34 nm (ix2 b j)) = IntOp.cmpi .eq (word j + 1#32) NN
  rw [h33, show v34 nm (ix2 b j) = NN from nmB_apply nm b j _]
theorem v67_apply : v67 nm (ix2 b j) = isPast NN j := by
  show IntOp.cmpi .eq (v65 (ix2 b j)) (v66 nm (ix2 b j)) = IntOp.cmpi .eq (word j) NN
  rw [show v65 (ix2 b j) = word j from iotaB_apply b j _ _, show v66 nm (ix2 b j) = NN from nmB_apply nm b j _]

/-- The next corner's index is the word of the next slot. -/
theorem v40_apply : v40 nm (ix2 b j) = word (nx NN j) := by
  have h2 : call0_v2 (ix2 b j) = word (clampNext j) := by
    unfold call0_v2
    rw [bc_13_2_apply]
    exact minsi_word j
  show Scalar.select (v35 nm (ix2 b j)) 0#32 (call0_v2 (ix2 b j)) = _
  rw [v35_apply, h2]
  exact select_comm word _ (0 : Fin 13) (clampNext j)

/-- The wrap of a negative index leaves it unchanged. -/
theorem call1_v4_apply : call1_v4 nm (ix3 b j (0 : Fin 1)) = word (nx NN j) := by
  have h41 : v41 nm (ix3 b j (0 : Fin 1)) = word (nx NN j) := by
    unfold v41; rw [bc_2_3u_apply, v40_apply]
  show Scalar.select (IntOp.cmpi .slt (v41 nm (ix3 b j (0 : Fin 1))) 0#32) (call1_v3 nm (ix3 b j (0 : Fin 1)))
    (v41 nm (ix3 b j (0 : Fin 1))) = _
  rw [h41, word_not_neg, select_zero]

/-- The index is in range. -/
theorem call1_v11_apply : call1_v11 nm (ix2 b j) = 1#1 := by
  refine reduce_and1_apply (call1_v10 nm) _ _ b j ?_
  show IntOp.andi (IntOp.cmpi .sge (call1_v4 nm (ix3 b j (0 : Fin 1))) 0#32)
    (IntOp.cmpi .sle (call1_v4 nm (ix3 b j (0 : Fin 1))) 12#32) = 1#1
  rw [call1_v4_apply, word_ge_zero, word_le_twelve]
  rfl

/-- The gathered next corner is the point at the next slot. -/
theorem v42_apply (k : Fin 3) : v42 g nm rt (ix3 b j k) = v23 g rt (ix3 b (nx NN j) k) := by
  have h13 : call1_v13 nm (ix3 b j k) = 1#1 := by
    unfold call1_v13; rw [bc_2_3_apply, call1_v11_apply]
  have hi : min (call1_v4 nm (ix3 b j (0 : Fin 1))).toInt.toNat 12 = (nx NN j).val :=
    (congrArg (fun w : BitVec 32 => min w.toInt.toNat 12) (call1_v4_apply nm b j)).trans (word_clamp _)
  unfold v42
  rw [select_apply, h13, select_one]
  exact gather_apply (v23 g rt) (call1_v4 nm) b j k (nx NN j) hi

/-- The fallback edge's three literals. -/
theorem cst3_apply (k : Fin 3) : cst3 (F := Ideal) (ix1 k) = Ideal.ofBits .f32 (lit0 k) := by
  have e : S3.rowMajor (ix1 k) = k := Fin.ext (by rw [Shape.rowMajor_val_one])
  show Ideal.ofBits .f32 (lit0 (S3.rowMajor (ix1 k))) = _
  rw [e]

/-- The edge: next point minus this point where j < n, the fallback elsewhere. -/
theorem v45_apply (k : Fin 3) : v45 g nm rt (ix3 b j k)
    = Scalar.select (isEdge NN j) (v23 g rt (ix3 b (nx NN j) k) - v23 g rt (ix3 b j k))
        (Ideal.ofBits .f32 (lit0 k)) := by
  have h0 : call2_v0 nm (ix3 b j k) = isEdge NN j := by
    unfold call2_v0; rw [bc_3u_3_apply]; unfold v44; rw [bc_2_3u_apply, v29_apply]
  have h1 : call2_v1 (F := Ideal) (ix3 b j k) = Ideal.ofBits .f32 (lit0 k) := by
    unfold call2_v1; rw [bc_3_3_apply, cst3_apply]
  unfold v45
  rw [select_apply, h0, h1]
  unfold v43
  rw [subf_apply, v42_apply]
theorem v45_apply0 : v45 g nm rt (ix3 b j (0 : Fin 3)) = ex LON LAT NN RR clampNext j := by
  rw [v45_apply, v23_apply0, v23_apply0]
  show _ = Scalar.select (isEdge NN j)
    (Scalar.select (isLast NN j) (px LON LAT RR 0) (px LON LAT RR (clampNext j)) - px LON LAT RR j) one32
  rw [select_comm (px LON LAT RR)]
  rfl
theorem v45_apply2 : v45 g nm rt (ix3 b j (2 : Fin 3)) = ez LON LAT NN RR clampNext j := by
  rw [v45_apply, v23_apply2, v23_apply2]
  show _ = Scalar.select (isEdge NN j)
    (Scalar.select (isLast NN j) (pz LON LAT RR 0) (pz LON LAT RR (clampNext j)) - pz LON LAT RR j) zero32
  rw [select_comm (pz LON LAT RR)]
  rfl

/-- The normal (-e_z, 0, e_x). -/
theorem v57_apply0 : v57 g nm rt (ix3 b j (0 : Fin 3)) = -(ez LON LAT NN RR clampNext j) := by
  unfold v57
  rw [concat3_apply]
  show v54 g nm rt (ix3 b j (0 : Fin 1)) = _
  unfold v54
  rw [bc_2_3u_apply]
  show -(v47 g nm rt (ix2 b j)) = _
  rw [show v47 g nm rt (ix2 b j) = v45 g nm rt (ix3 b j (2 : Fin 3)) from
    (cast_drop_apply _ _ b j).trans (slice_last_apply 2 (by decide) (v45 g nm rt) _ b j), v45_apply2]
theorem v57_apply1 : v57 g nm rt (ix3 b j (1 : Fin 3)) = zero32 := by
  unfold v57
  rw [concat3_apply]
  rfl
theorem v57_apply2 : v57 g nm rt (ix3 b j (2 : Fin 3)) = ex LON LAT NN RR clampNext j := by
  unfold v57
  rw [concat3_apply]
  show v56 g nm rt (ix3 b j (0 : Fin 1)) = _
  unfold v56
  rw [bc_2_3u_apply]
  rw [show v53 g nm rt (ix2 b j) = v45 g nm rt (ix3 b j (0 : Fin 3)) from
    (cast_drop_apply _ _ b j).trans (slice_last_apply 0 (by decide) (v45 g nm rt) _ b j), v45_apply0]

/-- The square root of a tensor read at an index is the square root of the element. -/
theorem hostSqrt_apply {s : Shape} (x : FVec Ideal s .f32) (i : s.Idx) : Host.sqrt x i = Ideal.sqrt (x i) := rfl

/-- The normal's length: the middle component contributes 0 · 0 and the sum starts from 0. -/
theorem v58_apply : v58 g nm rt (ix3 b j (0 : Fin 1)) = len LON LAT NN RR clampNext j := by
  unfold v58
  rw [hostSqrt_apply]
  unfold call3_v2
  rw [bc_2_3u_apply]
  unfold call3_v1
  rw [reduce_sum3_apply]
  unfold call3_v0 call3_cst
  rw [mulf_apply, mulf_apply, mulf_apply, constant_apply,
    v57_apply0, v57_apply1, v57_apply2, zero32_eq, Ideal.ofBits_zero_f32, mul_zero, add_zero, zero_add]
  unfold len
  rfl

/-- The unit normal: each component over the length. -/
theorem v60_apply (k : Fin 3) (j' : Fin 13) : v60 g nm rt (ix3 b j' k)
    = Ideal.div (v57 g nm rt (ix3 b j' k)) (len LON LAT NN RR clampNext j') := by
  unfold v60
  rw [hostDivf_apply]
  unfold v59
  rw [bc_3u_3_apply, v58_apply]
theorem v60_apply0 (j' : Fin 13) : v60 g nm rt (ix3 b j' (0 : Fin 3)) = nrmX LON LAT NN RR clampNext j' := by
  rw [v60_apply, v57_apply0]; unfold nrmX; rfl
theorem v60_apply1 (j' : Fin 13) : v60 g nm rt (ix3 b j' (1 : Fin 3)) = nrmY LON LAT NN RR clampNext j' := by
  rw [v60_apply, v57_apply1]; unfold nrmY; rfl
theorem v60_apply2 (j' : Fin 13) : v60 g nm rt (ix3 b j' (2 : Fin 3)) = nrmZ LON LAT NN RR clampNext j' := by
  rw [v60_apply, v57_apply2]; unfold nrmZ; rfl

/-- The output: the unit normal where j < n, else 0; then row 0's where j = n. -/
theorem v70_apply (k : Fin 3) : v70 g nm rt (ix3 b j k)
    = Scalar.select (isPast NN j) (v60 g nm rt (ix3 b (0 : Fin 13) k))
        (Scalar.select (isEdge NN j) (v60 g nm rt (ix3 b j k)) zero32) := by
  have h5 : call5_v0 nm (ix3 b j k) = isPast NN j := by
    unfold call5_v0; rw [bc_3u_3_apply]; unfold v68; rw [bc_2_3u_apply, v67_apply]
  have h4 : call4_v0 nm (ix3 b j k) = isEdge NN j := by
    unfold call4_v0; rw [bc_3u_3_apply]; unfold v61; rw [bc_2_3u_apply, v29_apply]
  have h1 : call5_v1 g nm rt (ix3 b j k) = v60 g nm rt (ix3 b (0 : Fin 13) k) := by
    unfold call5_v1; rw [bc_row_3_apply]; unfold v69; rw [slice_row0_apply]
  unfold v70
  rw [select_apply, h5, h1]
  unfold v63
  rw [select_apply, h4]
  rfl

end Stages

/-! ## The reference read at an index -/

/-- The reference's result at sample b, corner j, component k is the row specification's
    output for the sample's longitudes, latitudes, count and ratio, with the clamped successor. -/
theorem out_apply (g : FVec Ideal S262144x13x2 .f32) (nm : IVec S262144 32) (rt : FVec Ideal S262144 .f32)
    (b : Fin 262144) (j : Fin 13) (k : Fin 3) :
    refOut (F := Ideal) g nm rt (ValueIdx.ix3 b j k)
      = Cert.CornerRow.outRef (fun j' => g (ValueIdx.ix3 b j' 0)) (fun j' => g (ValueIdx.ix3 b j' 1))
          (nm (ValueIdx.ix1 b)) (rt (ValueIdx.ix1 b)) Cert.CornerRow.clampNext j k := by
  rcases (by decide : ∀ k : Fin 3, k = 0 ∨ k = 1 ∨ k = 2) k with rfl | rfl | rfl
  · exact (v70_apply g nm rt b j 0).trans (by rw [v60_apply0, v60_apply0]; rfl)
  · exact (v70_apply g nm rt b j 1).trans (by rw [v60_apply1, v60_apply1]; rfl)
  · exact (v70_apply g nm rt b j 2).trans (by rw [v60_apply2, v60_apply2]; rfl)

end Cert.ReferenceIdeal.Hand

end
-- ==== Proof.PreDecode.lean ====
/-
  The precondition, read back. It is a conjunction of four reductions by "and"; the last two say
  that every corner count is at most 13 and that every edge normal, computed as the reference computes it, has a
  positive length. Each stage of that computation, read at sample b and corner j, is a quantity of the one-sample
  description (CornerRow) of sample b's thirteen (longitude, latitude) pairs, its count and its ratio.
-/
import proofs.«403655_j28733331210359_3_alg».proof.Proof.Gen.Pre_finite_inputs
import proofs.«403655_j28733331210359_3_alg».proof.Proof.CornerRow
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Hand

open Idealize.ShloMosaic Idealize.ShloMosaic.ValueIdx Cert.Pre_finite_inputs Cert.Pre_finite_inputs.Gen

/-! ## Layout operations read at a sample and a corner -/

section Layout
variable {α : Type}

/-- The first component of every pair, as a sample-by-corner rectangle. -/
theorem comp0_read (g : S262144x13x2.Idx → α) (hs : S262144x13x2.Slices ![0, 0, 0] S262144x13x1)
    (hc : S262144x13x1.ShapeCasts S262144x13) (b : Fin 262144) (j : Fin 13) :
    shapeCast S262144x13 (extractStridedSlice S262144x13x1 ![0, 0, 0] g hs) hc (ix2 b j) = g (ix3 b j (0 : Fin 2)) := by
  refine (shapeCast_apply _ hc (ix2 b j) (ix3 b j (0 : Fin 1))
    (by rw [Shape.rowMajor_val_three, Shape.rowMajor_val_two]
        show (b.val * 13 + j.val) * 1 + 0 = b.val * 13 + j.val
        omega)).trans ?_
  exact extractStridedSlice_apply _ g hs _ _ (fun a => match a with
    | ⟨0, _⟩ => by show b.val = 0 + b.val; omega
    | ⟨1, _⟩ => by show j.val = 0 + j.val; omega
    | ⟨2, _⟩ => by show 0 = 0 + 0; omega)

/-- The second component of every pair, likewise. -/
theorem comp1_read (g : S262144x13x2.Idx → α) (hs : S262144x13x2.Slices ![0, 0, 1] S262144x13x1)
    (hc : S262144x13x1.ShapeCasts S262144x13) (b : Fin 262144) (j : Fin 13) :
    shapeCast S262144x13 (extractStridedSlice S262144x13x1 ![0, 0, 1] g hs) hc (ix2 b j) = g (ix3 b j (1 : Fin 2)) := by
  refine (shapeCast_apply _ hc (ix2 b j) (ix3 b j (0 : Fin 1))
    (by rw [Shape.rowMajor_val_three, Shape.rowMajor_val_two]
        show (b.val * 13 + j.val) * 1 + 0 = b.val * 13 + j.val
        omega)).trans ?_
  exact extractStridedSlice_apply _ g hs _ _ (fun a => match a with
    | ⟨0, _⟩ => by show b.val = 0 + b.val; omega
    | ⟨1, _⟩ => by show j.val = 0 + j.val; omega
    | ⟨2, _⟩ => by show 1 = 1 + 0; omega)

/-- A per-sample vector laid along the corners reads the sample's entry. -/
theorem perSample_read (v : S262144.Idx → α) (h : S262144.BroadcastsInDim S262144x13 ![0]) (b : Fin 262144) (j : Fin 13) :
    broadcastInDim S262144x13 ![0] h v (ix2 b j) = v (ix1 b) :=
  broadcastInDim_apply _ h v _ _ (fun a => match a with
    | ⟨0, _⟩ => by
      show b.val = if (262144 : Nat) = 1 then 0 else b.val
      rw [if_neg (by decide)])

/-- A one-column rectangle laid along the corners reads the sample's one entry. -/
theorem ofCol_read (w : S262144x1.Idx → α) (h₂ : S262144x1.BroadcastsInDim S262144x13 ![0, 1]) (b : Fin 262144) (j : Fin 13) :
    broadcastInDim S262144x13 ![0, 1] h₂ w (ix2 b j) = w (ix2 b (0 : Fin 1)) :=
  broadcastInDim_apply _ h₂ w _ (ix2 b (0 : Fin 1)) (fun a => match a with
    | ⟨0, _⟩ => by
      show b.val = if (262144 : Nat) = 1 then 0 else b.val
      rw [if_neg (by decide)]
    | ⟨1, _⟩ => by
      show 0 = if (1 : Nat) = 1 then 0 else j.val
      rw [if_pos rfl])

/-- A one-column rectangle from a per-sample vector reads the sample's entry. -/
theorem col_read (v : S262144.Idx → α) (h₁ : S262144.BroadcastsInDim S262144x1 ![0]) (b : Fin 262144) :
    broadcastInDim S262144x1 ![0] h₁ v (ix2 b (0 : Fin 1)) = v (ix1 b) :=
  broadcastInDim_apply _ h₁ v _ _ (fun a => match a with
    | ⟨0, _⟩ => by
      show b.val = if (262144 : Nat) = 1 then 0 else b.val
      rw [if_neg (by decide)])

/-- Corner 0 of every sample, laid along the corners. -/
theorem corner0_read (x : S262144x13.Idx → α) (hs : S262144x13.Slices ![0, 0] S262144x1)
    (hb : S262144x1.BroadcastsInDim S262144x13 ![0, 1]) (b : Fin 262144) (j : Fin 13) :
    broadcastInDim S262144x13 ![0, 1] hb (extractStridedSlice S262144x1 ![0, 0] x hs) (ix2 b j) = x (ix2 b (0 : Fin 13)) := by
  refine (broadcastInDim_apply _ hb _ _ (ix2 b (0 : Fin 1)) (fun a => match a with
    | ⟨0, _⟩ => by
      show b.val = if (262144 : Nat) = 1 then 0 else b.val
      rw [if_neg (by decide)]
    | ⟨1, _⟩ => by
      show 0 = if (1 : Nat) = 1 then 0 else j.val
      rw [if_pos rfl])).trans ?_
  exact extractStridedSlice_apply _ x hs _ _ (fun a => match a with
    | ⟨0, _⟩ => by show b.val = 0 + b.val; omega
    | ⟨1, _⟩ => by show 0 = 0 + 0; omega)

/-- Corners 1 to 12 followed by corner 12 again: at corner j, the corner after j clamped to the last. -/
theorem next_read (x : S262144x13.Idx → α) (h₁ : S262144x13.Slices ![0, 1] S262144x12)
    (h₂ : S262144x13.Slices ![0, 12] S262144x1) (hc : Shape.Concatenates [S262144x12, S262144x1] S262144x13 1)
    (b : Fin 262144) (j : Fin 13) :
    concatenate S262144x13 1 [⟨S262144x12, extractStridedSlice S262144x12 ![0, 1] x h₁⟩,
      ⟨S262144x1, extractStridedSlice S262144x1 ![0, 12] x h₂⟩] hc (ix2 b j) = x (ix2 b (CornerRow.clampNext j)) := by
  by_cases hj : j.val < 12
  · refine (concatenate_pair_apply_left (t := S262144x13) (s₁ := S262144x12) (s₂ := S262144x1) (1 : Fin 2) _ _ hc (ix2 b j) rfl (ix2 b (⟨j.val, hj⟩ : Fin 12))
      (fun a => match a with | ⟨0, _⟩ => rfl | ⟨1, _⟩ => rfl)).trans ?_
    exact extractStridedSlice_apply _ x h₁ _ _ (fun a => match a with
      | ⟨0, _⟩ => by show b.val = 0 + b.val; omega
      | ⟨1, _⟩ => by show min (j.val + 1) 12 = 1 + j.val; omega)
  · have hj' : j.val = 12 := by have := j.isLt; omega
    refine (concatenate_pair_apply_right (t := S262144x13) (s₁ := S262144x12) (s₂ := S262144x1) (1 : Fin 2) _ _ hc (ix2 b j) rfl rfl (ix2 b (0 : Fin 1))
      (fun a => match a with
        | ⟨0, _⟩ => fun _ => rfl
        | ⟨1, _⟩ => fun hne => absurd rfl hne)
      (by show 0 + 12 = j.val; omega)).trans ?_
    exact extractStridedSlice_apply _ x h₂ _ _ (fun a => match a with
      | ⟨0, _⟩ => by show b.val = 0 + b.val; omega
      | ⟨1, _⟩ => by show min (j.val + 1) 12 = 12 + 0; omega)

end Layout

/-! ## Elementwise operations read at an index, on the extended reals and on words (all by definition) -/

section Reads
variable {s : Shape} {φ : FTy}

theorem hsqrt_read (x : FVec Ideal s φ) (i : s.Idx) : Host.sqrt x i = Ideal.sqrt (x i) := rfl
theorem hnegf_read (x : FVec Ideal s φ) (i : s.Idx) : Host.negf x i = -(x i) := rfl
theorem hdivf_read (x y : FVec Ideal s φ) (i : s.Idx) : Host.divf x y i = Ideal.div (x i) (y i) := rfl
theorem cmpi_read {w : Nat} (p : CmpIPredicate) (x y : IVec s w) (i : s.Idx) : cmpi p x y i = IntOp.cmpi p (x i) (y i) := rfl

/-- A word literal laid over any shape reads the word. -/
theorem litI_read {t : Shape} {n : Nat} (w : BitVec n) (h : S_.BroadcastsInDim t (![] : Fin 0 → Fin t.rank)) (i : t.Idx) :
    broadcastInDim t ![] h (constantI S_ n w) i = w := rfl

end Reads

/-! ## The predicate's parts, read back -/

/-- The scalar shape has one index. -/
local instance subsingletonScalarIdx : Subsingleton S_.Idx := ⟨fun a b => funext fun d => d.elim0⟩

/-- The last part: the conjunction so far, and every entry of the array compared against the literal is above it. -/
theorem part3_decode (v12 : IVec S_ 1) (v60 : FVec Ideal S262144x13 .f32) (c : FVec Ideal S_ .f32)
    (h : fn_part3 (F := Ideal) v12 v60 c ix0 = 1#1) :
    v12 ix0 = 1#1 ∧ ∀ (b : Fin 262144) (j : Fin 13), c ix0 < v60 (ix2 b j) := by
  dsimp only [fn_part3] at h
  obtain ⟨h1, h2⟩ := IntOp.andi_eq_one.1 h
  refine ⟨h1, fun b j => ?_⟩
  have h3 := Host.reduce_andi_all _ _ _ _ _ h2 (ix2 b j)
  rw [cmpf_apply, broadcastInDim_apply _ _ c (ix2 b j) ix0 (fun a => a.elim0)] at h3
  exact of_decide_eq_true ((StableHlo.Predicate.ofBool_eq_one_iff _).1 h3)

/-- One plane component of edge j from the condition bits and the four corner values it may read. -/
def edgeOf (c e : BitVec 1) (first nxt cur dflt : EReal) : EReal :=
  Scalar.select c (Scalar.select e first nxt - cur) dflt

/-- The middle part: from the two plane coordinates of every corner, the two condition arrays and corner 0's first
    coordinate laid along the corners, the length of every edge normal is positive. -/
theorem part2_decode (v12 : IVec S_ 1) (v27 v31 : FVec Ideal S262144x13 .f32) (v34 v37 : IVec S262144x13 1)
    (v39 : FVec Ideal S262144x13 .f32)
    (h : fn_part2 (F := Ideal) v12 v27 v31 v34 v37 v39 ix0 = 1#1) :
    v12 ix0 = 1#1 ∧ ∀ (b : Fin 262144) (j : Fin 13),
      0 < Ideal.sqrt (
        (-(edgeOf (v34 (ix2 b j)) (v37 (ix2 b j)) (v31 (ix2 b (0 : Fin 13))) (v31 (ix2 b (CornerRow.clampNext j)))
            (v31 (ix2 b j)) CornerRow.zero32))
        * (-(edgeOf (v34 (ix2 b j)) (v37 (ix2 b j)) (v31 (ix2 b (0 : Fin 13))) (v31 (ix2 b (CornerRow.clampNext j)))
            (v31 (ix2 b j)) CornerRow.zero32))
        + edgeOf (v34 (ix2 b j)) (v37 (ix2 b j)) (v39 (ix2 b j)) (v27 (ix2 b (CornerRow.clampNext j)))
            (v27 (ix2 b j)) CornerRow.one32
          * edgeOf (v34 (ix2 b j)) (v37 (ix2 b j)) (v39 (ix2 b j)) (v27 (ix2 b (CornerRow.clampNext j)))
            (v27 (ix2 b j)) CornerRow.one32) := by
  dsimp only [fn_part2] at h
  obtain ⟨h1, h2⟩ := part3_decode _ _ _ h
  refine ⟨h1, fun b j => ?_⟩
  have h3 := h2 b j
  rw [show constant (F := Ideal) S_ .f32 0x00000000#32 ix0 = 0 from Ideal.ofBits_zero_f32] at h3
  simp only [hsqrt_read, addf_apply, mulf_apply, hnegf_read, select_apply, subf_apply, next_read] at h3
  rw [corner0_read] at h3
  exact h3

/-- The first part: from the longitudes, the latitudes and the ratio column, the length of every edge normal, as the
    one-sample description computes it with the clamped next corner, is positive. -/
theorem part1_decode (nm : IVec S262144 32) (v12 : IVec S_ 1) (v14 v16 : FVec Ideal S262144x13 .f32)
    (v17 : FVec Ideal S262144x1 .f32)
    (h : fn_part1 (F := Ideal) nm v12 v14 v16 v17 ix0 = 1#1) :
    v12 ix0 = 1#1 ∧ ∀ (b : Fin 262144) (j : Fin 13),
      0 < CornerRow.len (fun j' => v14 (ix2 b j')) (fun j' => v16 (ix2 b j')) (nm (ix1 b)) (v17 (ix2 b (0 : Fin 1)))
        CornerRow.clampNext j := by
  dsimp only [fn_part1] at h
  obtain ⟨h1, h2⟩ := part2_decode _ _ _ _ _ _ h
  refine ⟨h1, fun b j => ?_⟩
  have h3 := h2 b j
  rw [corner0_read] at h3
  simp only [mulf_apply, hdivf_read, cmpi_read] at h3
  rw [ofCol_read _ _ b j, ofCol_read _ _ b (CornerRow.clampNext j), ofCol_read _ _ b (0 : Fin 13), perSample_read] at h3
  exact h3

/-- THE PRECONDITION READ BACK: every corner count is at most 13, and every edge normal of every sample, computed by the
    one-sample description with the clamped next corner, has positive length. -/
theorem decode (g : FVec Ideal S262144x13x2 .f32) (nm : IVec S262144 32) (rt : FVec Ideal S262144 .f32)
    (h : fn (F := Ideal) g nm rt = fun _ => 1#1) :
    (∀ b : Fin 262144, (nm (ValueIdx.ix1 b)).sle 13#32 = true)
    ∧ (∀ (b : Fin 262144) (j : Fin 13), 0 < Cert.CornerRow.len (fun j' => g (ValueIdx.ix3 b j' 0))
        (fun j' => g (ValueIdx.ix3 b j' 1)) (nm (ValueIdx.ix1 b)) (rt (ValueIdx.ix1 b)) Cert.CornerRow.clampNext j) := by
  have h0 : fn (F := Ideal) g nm rt ix0 = 1#1 := congrFun h ix0
  dsimp only [fn] at h0
  obtain ⟨h12, hlen⟩ := part1_decode _ _ _ _ _ h0
  obtain ⟨-, h11⟩ := IntOp.andi_eq_one.1 h12
  refine ⟨fun b => ?_, fun b j => ?_⟩
  · have h3 := Host.reduce_andi_all _ _ _ _ _ h11 (ix1 b)
    rw [cmpi_read, litI_read] at h3
    exact (StableHlo.Predicate.ofBool_eq_one_iff _).1 h3
  · have h4 := hlen b j
    simp only [comp0_read, comp1_read] at h4
    rw [col_read] at h4
    exact h4

end Cert.Pre_finite_inputs.Hand

end
-- ==== Proof.lean ====
/-
  The certificate: the Pallas kernel that turns each sample's ceiling corners into the unit normals of its wall
  edges, against its jnp reference, as extended reals.

  Per sample: corner j is put on the ceiling plane, (x_j, z_j) = (cos lat · sin lon, cos lat · cos lon) · s with
  s = (-(1.6 · ratio)) / sin lat; edge j runs from corner j to the next one (corner 0 after the last valid corner),
  and is replaced by (1, 0) for j not below the corner count n; its normal (-e_z, 0, e_x) is divided by its length; the
  output row holds the normals of the edges below n, the normal of edge 0 at j = n, and zero after.

  The kernel takes "the next corner" by a cyclic shift of the thirteen slots and writes the middle component as the
  literal 0; the reference clamps the successor to slot 12 and divides all three components by the length. The
  precondition states where the reference is defined: n ≤ 13 (beyond it the reference normalises the zero edge from
  slot 12 to itself) and every length nonzero (where it is zero the reference divides 0 by 0). Under it the two rows are
  equal (CornerLaws): the successors differ only at slot 12, which is used only when 12 < n ≤ 13, that is n = 13, where
  both take corner 0; and 0 / len = 0 · len⁻¹ = 0 off zero. Finiteness of the inputs is not used.

  The kernel's result array is that row function sample by sample (KernelValue, over the generated frame run read block
  by block); the reference's run ends at the fold of its operations (RefRun), which is the composed term of its stages (RefOut), which read at an index is the
  reference's row (RefRead); the precondition's two added conjuncts are read out of its printed predicate (PreDecode).
-/
import proofs.«403655_j28733331210359_3_alg».proof.Defs
import proofs.«403655_j28733331210359_3_alg».proof.Proof.Gen.Kernel
import proofs.«403655_j28733331210359_3_alg».proof.Proof.Gen.Kernel.Skeleton
import proofs.«403655_j28733331210359_3_alg».proof.Proof.Gen.Kernel.Launch
import proofs.«403655_j28733331210359_3_alg».proof.Proof.Gen.Kernel.Points
import proofs.«403655_j28733331210359_3_alg».proof.Proof.Gen.Kernel.Frame
import proofs.«403655_j28733331210359_3_alg».proof.Proof.Gen.KernelIdeal
import proofs.«403655_j28733331210359_3_alg».proof.Proof.Gen.KernelIdeal.Skeleton
import proofs.«403655_j28733331210359_3_alg».proof.Proof.Gen.KernelIdeal.Launch
import proofs.«403655_j28733331210359_3_alg».proof.Proof.Gen.KernelIdeal.Points
import proofs.«403655_j28733331210359_3_alg».proof.Proof.Gen.KernelIdeal.Frame
import proofs.«403655_j28733331210359_3_alg».proof.Proof.Gen.KernelIdeal.Value
import proofs.«403655_j28733331210359_3_alg».proof.Proof.Gen.ReferenceIdeal
import proofs.«403655_j28733331210359_3_alg».proof.Proof.Gen.Pre_finite_inputs
import proofs.«403655_j28733331210359_3_alg».proof.Proof.CornerLaws
import proofs.«403655_j28733331210359_3_alg».proof.Proof.KernelValue
import proofs.«403655_j28733331210359_3_alg».proof.Proof.RefRun
import proofs.«403655_j28733331210359_3_alg».proof.Proof.RefOut
import proofs.«403655_j28733331210359_3_alg».proof.Proof.RefRead
import proofs.«403655_j28733331210359_3_alg».proof.Proof.PreDecode
import Idealize.ShloMosaic.Adequacy
import Idealize.ShloMosaic.Init

noncomputable section

namespace Cert.Proof

open Idealize.ShloMosaic Idealize.SL.Sem Idealize.ShloMosaic.TcCoe

/-- The reference's run, read at its result and its arguments: the result buffer ends at the composed term of the
    operations applied to the argument arrays, which end unchanged. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v70)
          = Cert.ReferenceIdeal.Hand.refOut (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) :=
  (θ_run Cert.ReferenceIdeal.defs _ _).mono (fun _ h c =>
      ⟨(h c Cert.ReferenceIdeal.main_v70).trans (Cert.ReferenceIdeal.Hand.out_eq _),
       (h c Cert.ReferenceIdeal.main_arg0).trans (Cert.ReferenceIdeal.Hand.arg0_eq _),
       (h c Cert.ReferenceIdeal.main_arg1).trans (Cert.ReferenceIdeal.Hand.arg1_eq _),
       (h c Cert.ReferenceIdeal.main_arg2).trans (Cert.ReferenceIdeal.Hand.arg2_eq _)⟩)
    (Cert.ReferenceIdeal.Hand.run_main (F := Ideal) m ρ)

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (reference_run m ρ)

/-- The idealization rewrote nothing. -/
theorem preserves : Cert.preserves_Kernel_KernelIdeal := trivial

/-- From arguments that agree, the kernel's array is the row function sample by sample with the cyclic successor and
    the literal middle zero, and the reference's term read at any index is its own reading of the same row; under the
    precondition's two conjuncts the readings are one. -/
theorem algebraic : Cert.algebraic_KernelIdeal_ReferenceIdeal := by
  intro m ρ m' ρ' hpre hagree
  refine ⟨fun c => Cert.CornerRow.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun r h c => ⟨?_, (h c).2⟩) (reference_run m' ρ')
  rw [(h c).1, (hagree c).1, (hagree c).2.1, (hagree c).2.2]
  funext i
  obtain ⟨b, j, k, rfl⟩ : ∃ (b : Fin 262144) (j : Fin 13) (k : Fin 3), i = ValueIdx.ix3 b j k :=
    ⟨i 0, i 1, i 2, ValueIdx.eq_ix3 i⟩
  obtain ⟨h13, hlen⟩ := Cert.Pre_finite_inputs.Hand.decode _ _ _ (hpre c)
  rw [Cert.ReferenceIdeal.Hand.out_apply]
  exact Cert.CornerRow.outRef_clamp_eq_outKer_cyc _ _ _ _ (h13 b) (hlen b) j k

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
